-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x4 : Shape := ⟨2, ![100000, 4]⟩
abbrev S2x1600000 : Shape := ⟨2, ![2, 1600000]⟩
abbrev S100000 : Shape := ⟨1, ![100000]⟩
abbrev S4x128 : Shape := ⟨2, ![4, 128]⟩
abbrev S128 : Shape := ⟨1, ![128]⟩
abbrev S128x128 : Shape := ⟨2, ![128, 128]⟩
abbrev S_ : Shape := ⟨0, ![]⟩

class Facts : Prop where
  bcast_S_S100000x4 : S_.BroadcastsInDim S100000x4 (![] : Fin 0 → Fin S100000x4.rank)
  reducesTo_S100000x4_S_d0_1 : S100000x4.ReducesTo [0, 1] S_
  h_S_ : 0 < S_.numel
  bcast_S_S4x128 : S_.BroadcastsInDim S4x128 (![] : Fin 0 → Fin S4x128.rank)
  reducesTo_S4x128_S_d0_1 : S4x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x4 .f32) (main_arg1 : IVec S2x1600000 32) (main_arg2 : IVec S100000 32) (main_arg3 : FVec F S4x128 .f32) (main_arg4 : FVec F S128 .f32) (main_arg5 : FVec F S128x128 .f32) (main_arg6 : FVec F S128 .f32) : IVec S_ 1 :=
  let main_v0 : FVec F S100000x4 .f32 := Host.absf main_arg0
  let main_cst : FVec F S_ .f32 := constant S_ .f32 0x7F800000#32
  let main_v1 : FVec F S100000x4 .f32 := broadcastInDim S100000x4 ![] bcast_S_S100000x4 main_cst
  let main_v2 : IVec S100000x4 1 := cmpf .olt main_v0 main_v1
  let main_c : IVec S_ 1 := constantI S_ 1 1#1
  let main_v3 : IVec S_ 1 := (fun x v => Host.reduce IntOp.andi x v reducesTo_S100000x4_S_d0_1 h_S_) main_v2 main_c
  let main_v4 : FVec F S4x128 .f32 := Host.absf main_arg3
  let main_cst_0 : FVec F S_ .f32 := constant S_ .f32 0x7F800000#32
  let main_v5 : FVec F S4x128 .f32 := broadcastInDim S4x128 ![] bcast_S_S4x128 main_cst_0
  let main_v6 : IVec S4x128 1 := cmpf .olt main_v4 main_v5
  let main_c_1 : IVec S_ 1 := constantI S_ 1 1#1
  let main_v7 : IVec S_ 1 := (fun x v => Host.reduce IntOp.andi x v reducesTo_S4x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_v13 main_v16
-- ==== Kernel.lean ====
abbrev S100000x4 : Shape := ⟨2, ![100000, 4]⟩
abbrev S2x1600000 : Shape := ⟨2, ![2, 1600000]⟩
abbrev S100000 : Shape := ⟨1, ![100000]⟩
abbrev S4x128 : Shape := ⟨2, ![4, 128]⟩
abbrev S128 : Shape := ⟨1, ![128]⟩
abbrev S128x128 : Shape := ⟨2, ![128, 128]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S3936 : Shape := ⟨1, ![3936]⟩
abbrev S1703936 : Shape := ⟨1, ![1703936]⟩
abbrev S1703936x1 : Shape := ⟨2, ![1703936, 1]⟩
abbrev S100000x128 : Shape := ⟨2, ![100000, 128]⟩
abbrev S2000x4 : Shape := ⟨2, ![2000, 4]⟩
abbrev S2000x128 : Shape := ⟨2, ![2000, 128]⟩
abbrev S1703936x128 : Shape := ⟨2, ![1703936, 128]⟩
abbrev S8192x128 : Shape := ⟨2, ![8192, 128]⟩
abbrev S8192x1 : Shape := ⟨2, ![8192, 1]⟩
abbrev S1x128 : Shape := ⟨2, ![1, 128]⟩
abbrev S100000x1 : Shape := ⟨2, ![100000, 1]⟩
abbrev S64x128 : Shape := ⟨2, ![64, 128]⟩
abbrev S2000x1 : Shape := ⟨2, ![2000, 1]⟩
abbrev S2000x64 : Shape := ⟨2, ![2000, 64]⟩
abbrev S64 : Shape := ⟨1, ![64]⟩
abbrev S64x1 : Shape := ⟨2, ![64, 1]⟩

abbrev nBuf : Space → Nat
  | .hbm => 103
  | .vmem => 29
  | .smem => 0
  | _ => 0

abbrev bufTy : (tb : Table) → Fin (tcTables nBuf tb) → BufTy
  | .hbm, ⟨0, _⟩ => ⟨S100000x4, .f32⟩
  | .hbm, ⟨1, _⟩ => ⟨S2x1600000, .i32⟩
  | .hbm, ⟨2, _⟩ => ⟨S100000, .i32⟩
  | .hbm, ⟨3, _⟩ => ⟨S4x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S3936, .i32⟩
  | .hbm, ⟨49, _⟩ => ⟨S1703936, .i32⟩
  | .hbm, ⟨50, _⟩ => ⟨S_, .i32⟩
  | .hbm, ⟨51, _⟩ => ⟨S3936, .i32⟩
  | .hbm, ⟨52, _⟩ => ⟨S1703936, .i32⟩
  | .hbm, ⟨53, _⟩ => ⟨S_, .f32⟩
  | .hbm, ⟨54, _⟩ => ⟨S3936, .f32⟩
  | .hbm, ⟨55, _⟩ => ⟨S1703936, .f32⟩
  | .hbm, ⟨56, _⟩ => ⟨S1703936x1, .f32⟩
  | .hbm, ⟨57, _⟩ => ⟨S100000x128, .f32⟩
  | .hbm, ⟨58, _⟩ => ⟨S_, .i32⟩
  | .hbm, ⟨59, _⟩ => ⟨S1703936, .i32⟩
  | .hbm, ⟨60, _⟩ => ⟨S1703936, .i1⟩
  | .hbm, ⟨61, _⟩ => ⟨S_, .i32⟩
  | .hbm, ⟨62, _⟩ => ⟨S1703936, .i32⟩
  | .hbm, ⟨63, _⟩ => ⟨S1703936, .i32⟩
  | .hbm, ⟨64, _⟩ => ⟨S1703936, .i32⟩
  | .hbm, ⟨65, _⟩ => ⟨S1703936x1, .i32⟩
  | .hbm, ⟨66, _⟩ => ⟨S1703936x128, .f32⟩
  | .hbm, ⟨67, _⟩ => ⟨S1703936x128, .f32⟩
  | .hbm, ⟨68, _⟩ => ⟨S_, .f32⟩
  | .hbm, ⟨69, _⟩ => ⟨S100000x128, .f32⟩
  | .hbm, ⟨70, _⟩ => ⟨S1703936x1, .i32⟩
  | .hbm, ⟨71, _⟩ => ⟨S100000x128, .f32⟩
  | .hbm, ⟨72, _⟩ => ⟨S1x128, .f32⟩
  | .hbm, ⟨73, _⟩ => ⟨S100000x128, .f32⟩
  | .hbm, ⟨74, _⟩ => ⟨S_, .i32⟩
  | .hbm, ⟨75, _⟩ => ⟨S1703936, .i32⟩
  | .hbm, ⟨76, _⟩ => ⟨S1703936, .i1⟩
  | .hbm, ⟨77, _⟩ => ⟨S_, .i32⟩
  | .hbm, ⟨78, _⟩ => ⟨S1703936, .i32⟩
  | .hbm, ⟨79, _⟩ => ⟨S1703936, .i32⟩
  | .hbm, ⟨80, _⟩ => ⟨S1703936, .i32⟩
  | .hbm, ⟨81, _⟩ => ⟨S1703936x1, .i32⟩
  | .hbm, ⟨82, _⟩ => ⟨S1703936x128, .f32⟩
  | .hbm, ⟨83, _⟩ => ⟨S1703936x128, .f32⟩
  | .hbm, ⟨84, _⟩ => ⟨S_, .f32⟩
  | .hbm, ⟨85, _⟩ => ⟨S100000x128, .f32⟩
  | .hbm, ⟨86, _⟩ => ⟨S1703936x1, .i32⟩
  | .hbm, ⟨87, _⟩ => ⟨S100000x128, .f32⟩
  | .hbm, ⟨88, _⟩ => ⟨S1x128, .f32⟩
  | .hbm, ⟨89, _⟩ => ⟨S100000x1, .i32⟩
  | .hbm, ⟨90, _⟩ => ⟨S64x128, .f32⟩
  | .hbm, ⟨91, _⟩ => ⟨S_, .f32⟩
  | .hbm, ⟨92, _⟩ => ⟨S100000, .f32⟩
  | .hbm, ⟨93, _⟩ => ⟨S_, .f32⟩
  | .hbm, ⟨94, _⟩ => ⟨S64, .f32⟩
  | .hbm, ⟨95, _⟩ => ⟨S100000x1, .i32⟩
  | .hbm, ⟨96, _⟩ => ⟨S64, .f32⟩
  | .hbm, ⟨97, _⟩ => ⟨S_, .f32⟩
  | .hbm, ⟨98, _⟩ => ⟨S64, .f32⟩
  | .hbm, ⟨99, _⟩ => ⟨S64, .f32⟩
  | .hbm, ⟨100, _⟩ => ⟨S64x1, .f32⟩
  | .hbm, ⟨101, _⟩ => ⟨S64x128, .f32⟩
  | .hbm, ⟨102, _⟩ => ⟨S64x128, .f32⟩
  | .local _ .vmem, ⟨0, _⟩ => ⟨S2000x4, .f32⟩
  | .local _ .vmem, ⟨1, _⟩ => ⟨S2000x4, .f32⟩
  | .local _ .vmem, ⟨2, _⟩ => ⟨S4x128, .f32⟩
  | .local _ .vmem, ⟨3, _⟩ => ⟨S2000x128, .f32⟩
  | .local _ .vmem, ⟨4, _⟩ => ⟨S2000x128, .f32⟩
  | .local _ .vmem, ⟨5, _⟩ => ⟨S8192x128, .f32⟩
  | .local _ .vmem, ⟨6, _⟩ => ⟨S8192x128, .f32⟩
  | .local _ .vmem, ⟨7, _⟩ => ⟨S8192x1, .f32⟩
  | .local _ .vmem, ⟨8, _⟩ => ⟨S8192x1, .f32⟩
  | .local _ .vmem, ⟨9, _⟩ => ⟨S8192x128, .f32⟩
  | .local _ .vmem, ⟨10, _⟩ => ⟨S8192x128, .f32⟩
  | .local _ .vmem, ⟨11, _⟩ => ⟨S2000x128, .f32⟩
  | .local _ .vmem, ⟨12, _⟩ => ⟨S2000x128, .f32⟩
  | .local _ .vmem, ⟨13, _⟩ => ⟨S1x128, .f32⟩
  | .local _ .vmem, ⟨14, _⟩ => ⟨S128x128, .f32⟩
  | .local _ .vmem, ⟨15, _⟩ => ⟨S2000x128, .f32⟩
  | .local _ .vmem, ⟨16, _⟩ => ⟨S2000x128, .f32⟩
  | .local _ .vmem, ⟨17, _⟩ => ⟨S8192x128, .f32⟩
  | .local _ .vmem, ⟨18, _⟩ => ⟨S8192x128, .f32⟩
  | .local _ .vmem, ⟨19, _⟩ => ⟨S8192x1, .f32⟩
  | .local _ .vmem, ⟨20, _⟩ => ⟨S8192x1, .f32⟩
  | .local _ .vmem, ⟨21, _⟩ => ⟨S8192x128, .f32⟩
  | .local _ .vmem, ⟨22, _⟩ => ⟨S8192x128, .f32⟩
  | .local _ .vmem, ⟨23, _⟩ => ⟨S2000x128, .f32⟩
  | .local _ .vmem, ⟨24, _⟩ => ⟨S2000x128, .f32⟩
  | .local _ .vmem, ⟨25, _⟩ => ⟨S1x128, .f32⟩
  | .local _ .vmem, ⟨26, _⟩ => ⟨S2000x1, .i32⟩
  | .local _ .vmem, ⟨27, _⟩ => ⟨S2000x1, .i32⟩
  | .local _ .vmem, ⟨28, _⟩ => ⟨S64x128, .f32⟩
  | _, _ => ⟨S100000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_c_7 : Ref sig .tc := ⟨.hbm, 50, rfl⟩
abbrev main_v32 : Ref sig .tc := ⟨.hbm, 51, rfl⟩
abbrev main_v33 : Ref sig .tc := ⟨.hbm, 52, rfl⟩
abbrev main_cst_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_9 : Ref sig .tc := ⟨.hbm, 58, rfl⟩
abbrev main_v38 : Ref sig .tc := ⟨.hbm, 59, rfl⟩
abbrev main_v39 : Ref sig .tc := ⟨.hbm, 60, rfl⟩
abbrev main_c_10 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_11 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_c_12 : Ref sig .tc := ⟨.hbm, 74, rfl⟩
abbrev main_v51 : Ref sig .tc := ⟨.hbm, 75, rfl⟩
abbrev main_v52 : Ref sig .tc := ⟨.hbm, 76, rfl⟩
abbrev main_c_13 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_14 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_15 : Ref sig .tc := ⟨.hbm, 91, rfl⟩
abbrev main_v65 : Ref sig .tc := ⟨.hbm, 92, rfl⟩
abbrev main_cst_16 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_17 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg2_1 : Ref sig .tc := ⟨.vmem, 27, rfl⟩
abbrev cc4_stg3_0 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27
abbrev cc4_sem3_0 : DmaSem sig := 28

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![208], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8192x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![208], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8192x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8192x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S8192x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x1 .i32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S64x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S3936 : S_.BroadcastsInDim S3936 (![] : Fin 0 → Fin S3936.rank)
  concatenates_S1700000_S3936_S1703936_d0 : Shape.Concatenates [S1700000, S3936] S1703936 0
  bcast_S1703936_S1703936x1_0 : S1703936.BroadcastsInDim S1703936x1 (![0] : Fin 1 → Fin S1703936x1.rank)
  inb_S2000x4_S2000x4_0_0 : ∀ a, (![0, 0] : Fin 2 → Nat) a + S2000x4.size a ≤ S2000x4.size a
  h_S2000x4 : 0 < S2000x4.numel
  bitsLt_bf16_f32 : FTy.bits .bf16 < FTy.bits .f32
  inb_S4x128_S4x128_0_0 : ∀ a, (![0, 0] : Fin 2 → Nat) a + S4x128.size a ≤ S4x128.size a
  h_S4x128 : 0 < S4x128.numel
  inb_S2000x128_S2000x128_0_0 : ∀ a, (![0, 0] : Fin 2 → Nat) a + S2000x128.size a ≤ S2000x128.size a
  h_S2000x128 : 0 < S2000x128.numel
  bcast_S_S1703936 : S_.BroadcastsInDim S1703936 (![] : Fin 0 → Fin S1703936.rank)
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  broadcasts_S8192x1_S8192x128 : S8192x1.Broadcasts S8192x128
  bcast_S_S100000x128 : S_.BroadcastsInDim S100000x128 (![] : Fin 0 → Fin S100000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  shapeCasts_S100000_S100000x1 : S100000.ShapeCasts S100000x1
  inb_S64x128_S64x128_0_0 : ∀ a, (![0, 0] : Fin 2 → Nat) a + S64x128.size a ≤ S64x128.size a
  h_S64x128 : 0 < S64x128.numel
  iota_S2000x64_d1_w32 : S2000x64.Iotas .tc 32 [1]
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  natLt_1_32 : 1 < 32
  shapeCasts_S64x128_S64x128 : S64x128.ShapeCasts S64x128
  bcast_S_S64 : S_.BroadcastsInDim S64 (![] : Fin 0 → Fin S64.rank)
  bcast_S100000_S100000x1_0 : S100000.BroadcastsInDim S100000x1 (![0] : Fin 1 → Fin S100000x1.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x4_S4x128_S2000x128_1_0_0_1_n_n_wf : DotDims.WF S2000x4 S4x128 S2000x128 [1] [0] [0] [1] [] []
  gather_S100000x128_S1703936x1_S1703936x128_1_0_n_n_0_1_1128_wf : GatherDims.WF S100000x128 S1703936x1 S1703936x128 [1] [0] [] [0] [] 1 ![1, 128]
  scatter_S100000x128_S1703936x1_S1703936x128_1_0_0_1_wf : ScatterDims.WF S100000x128 S1703936x1 S1703936x128 [1] [0] [0] 1
  dot_S2000x128_S128x128_S2000x128_1_0_0_1_n_n_wf : DotDims.WF S2000x128 S128x128 S2000x128 [1] [0] [0] [1] [] []
  dot_S2000x64_S2000x128_S64x128_0_0_1_1_n_n_wf : DotDims.WF S2000x64 S2000x128 S64x128 [0] [0] [1] [1] [] []
  scatter_S64_S100000x1_S100000_n_0_0_1_wf : ScatterDims.WF S64 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x4.size a ≤ S100000x4.size a
  hwx0_0 : ∀ i : grid0.Coords, EltTy.bits .f32 = 32 ∨ (Rect.block (s := S100000x4) S2000x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x128.size a ≤ S4x128.size a
  hwx0_1 : ∀ i : grid0.Coords, EltTy.bits .f32 = 32 ∨ (Rect.block (s := S4x128) S4x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x128.size a ≤ S1703936x128.size a
  hwx1_0 : ∀ i : grid1.Coords, EltTy.bits .f32 = 32 ∨ (Rect.block (s := S1703936x128) S8192x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x1.size a ≤ S1703936x1.size a
  hwx1_1 : ∀ i : grid1.Coords, EltTy.bits .f32 = 32 ∨ (Rect.block (s := S1703936x1) S8192x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192x128.size a ≤ S1703936x128.size a
  hwx1_2 : ∀ i : grid1.Coords, EltTy.bits .f32 = 32 ∨ (Rect.block (s := S1703936x128) S8192x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S100000x128.size a
  hwx2_3 : ∀ i : grid2.Coords, EltTy.bits .f32 = 32 ∨ (Rect.block (s := S100000x128) S2000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8192x128.size a ≤ S1703936x128.size a
  hwx3_0 : ∀ i : grid3.Coords, EltTy.bits .f32 = 32 ∨ (Rect.block (s := S1703936x128) S8192x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8192x1.size a ≤ S1703936x1.size a
  hwx3_1 : ∀ i : grid3.Coords, EltTy.bits .f32 = 32 ∨ (Rect.block (s := S1703936x1) S8192x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8192x128.size a ≤ S1703936x128.size a
  hwx3_2 : ∀ i : grid3.Coords, EltTy.bits .f32 = 32 ∨ (Rect.block (s := S1703936x128) S8192x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x1.size a ≤ S100000x1.size a
  hwx4_2 : ∀ i : grid4.Coords, EltTy.bits .i32 = 32 ∨ (Rect.block (s := S100000x1) S2000x1.size (cc4_transform_2 i) (hinb4_2 i)).WholeWords (EltTy.packing .i32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x128.size a ≤ S64x128.size a
  hwx4_3 : ∀ i : grid4.Coords, EltTy.bits .f32 = 32 ∨ (Rect.block (s := S64x128) S64x128.size (cc4_transform_3 i) (hinb4_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x4_S4x128_S2000x128_1_0_0_1_n_n : DotDims S2000x4 S4x128 S2000x128 where
  lhsContracting := [1]
  rhsContracting := [0]
  lhsNonContracting := [0]
  rhsNonContracting := [1]
  lhsBatch := []
  rhsBatch := []
  wf := dot_S2000x4_S4x128_S2000x128_1_0_0_1_n_n_wf
def gather_S100000x128_S1703936x1_S1703936x128_1_0_n_n_0_1_1128 : GatherDims S100000x128 S1703936x1 S1703936x128 where
  offsetDims := [1]
  collapsedSliceDims := [0]
  operandBatchingDims := []
  startIndicesBatchingDims := []
  startIndexMap := [0]
  indexVectorDim := 1
  sliceSizes := ![1, 128]
  wf := gather_S100000x128_S1703936x1_S1703936x128_1_0_n_n_0_1_1128_wf
def scatter_S100000x128_S1703936x1_S1703936x128_1_0_0_1 : ScatterDims S100000x128 S1703936x1 S1703936x128 where
  updateWindowDims := [1]
  insertedWindowDims := [0]
  scatterDimsToOperandDims := [0]
  indexVectorDim := 1
  wf := scatter_S100000x128_S1703936x1_S1703936x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x64_S2000x128_S64x128_0_0_1_1_n_n : DotDims S2000x64 S2000x128 S64x128 where
  lhsContracting := [0]
  rhsContracting := [0]
  lhsNonContracting := [1]
  rhsNonContracting := [1]
  lhsBatch := []
  rhsBatch := []
  wf := dot_S2000x64_S2000x128_S64x128_0_0_1_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

abbrev win0_0 : Pipeline.Window sig grid0 :=
  Pipeline.Window.ofSpec (Memref.whole main_arg0) S2000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S4x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v37) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S8192x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S8192x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v45) S8192x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v48) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v50) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v57) S8192x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v36) S8192x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v58) S8192x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v62) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v63) S2000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v64) S64x128.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x4 : Shape := ⟨2, ![100000, 4]⟩
abbrev S2x1600000 : Shape := ⟨2, ![2, 1600000]⟩
abbrev S100000 : Shape := ⟨1, ![100000]⟩
abbrev S4x128 : Shape := ⟨2, ![4, 128]⟩
abbrev S128 : Shape := ⟨1, ![128]⟩
abbrev S128x128 : Shape := ⟨2, ![128, 128]⟩
abbrev S1x1600000 : Shape := ⟨2, ![1, 1600000]⟩
abbrev S1600000 : Shape := ⟨1, ![1600000]⟩
abbrev S100000x128 : Shape := ⟨2, ![100000, 128]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S64x128 : Shape := ⟨2, ![64, 128]⟩
abbrev S100000x1 : Shape := ⟨2, ![100000, 1]⟩
abbrev S64 : Shape := ⟨1, ![64]⟩
abbrev S64x1 : Shape := ⟨2, ![64, 1]⟩

abbrev nBuf : Space → Nat
  | .hbm => 145
  | .vmem => 0
  | .smem => 0
  | _ => 0

abbrev hbmTy0_0 (i : Nat) : BufTy := match i % 128 with
  | 0 => ⟨S100000x4, .f32⟩
  | 1 => ⟨S2x1600000, .i32⟩
  | 2 => ⟨S100000, .i32⟩
  | 3 => ⟨S4x128, .f32⟩
  | 4 => ⟨S128, .f32⟩
  | 5 => ⟨S128x128, .f32⟩
  | 6 => ⟨S128, .f32⟩
  | 7 => ⟨S1x1600000, .i32⟩
  | 8 => ⟨S1600000, .i32⟩
  | 9 => ⟨S1x1600000, .i32⟩
  | 10 => ⟨S1600000, .i32⟩
  | 11 => ⟨S100000x128, .f32⟩
  | 12 => ⟨S100000, .i32⟩
  | 13 => ⟨S1700000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S1700000, .f32⟩
  | 48 => ⟨S_, .i32⟩
  | 49 => ⟨S1700000, .i32⟩
  | 50 => ⟨S1700000, .i1⟩
  | 51 => ⟨S_, .i32⟩
  | 52 => ⟨S1700000, .i32⟩
  | 53 => ⟨S1700000, .i32⟩
  | 54 => ⟨S1700000, .i32⟩
  | 55 => ⟨S1700000x1, .i32⟩
  | 56 => ⟨S1700000x128, .f32⟩
  | 57 => ⟨S1700000x1, .f32⟩
  | 58 => ⟨S1700000x128, .f32⟩
  | 59 => ⟨S1700000x128, .f32⟩
  | 60 => ⟨S_, .f32⟩
  | 61 => ⟨S100000x128, .f32⟩
  | 62 => ⟨S1700000x1, .i32⟩
  | 63 => ⟨S100000x128, .f32⟩
  | 64 => ⟨S1x128, .f32⟩
  | 65 => ⟨S100000x128, .f32⟩
  | 66 => ⟨S100000x128, .f32⟩
  | 67 => ⟨S_, .f32⟩
  | 68 => ⟨S100000x128, .f32⟩
  | 69 => ⟨S100000x128, .f32⟩
  | 70 => ⟨S100000x128, .f32⟩
  | 71 => ⟨S100000, .i32⟩
  | 72 => ⟨S1700000, .i32⟩
  | 73 => ⟨S1700000, .i32⟩
  | 74 => ⟨S_, .f32⟩
  | 75 => ⟨S1700000, .f32⟩
  | 76 => ⟨S_, .f32⟩
  | 77 => ⟨S100000, .f32⟩
  | 78 => ⟨S1700000x1, .i32⟩
  | 79 => ⟨S100000, .f32⟩
  | 80 => ⟨S_, .f32⟩
  | 81 => ⟨S100000, .f32⟩
  | 82 => ⟨S100000, .i1⟩
  | 83 => ⟨S100000, .f32⟩
  | 84 => ⟨S_, .f32⟩
  | 85 => ⟨S_, .f32⟩
  | 86 => ⟨S100000, .f32⟩
  | 87 => ⟨S100000, .f32⟩
  | 88 => ⟨S_, .i32⟩
  | 89 => ⟨S1700000, .i32⟩
  | 90 => ⟨S1700000, .i1⟩
  | 91 => ⟨S_, .i32⟩
  | 92 => ⟨S1700000, .i32⟩
  | 93 => ⟨S1700000, .i32⟩
  | 94 => ⟨S1700000, .i32⟩
  | 95 => ⟨S1700000x1, .i32⟩
  | 96 => ⟨S1700000, .f32⟩
  | 97 => ⟨S_, .i32⟩
  | 98 => ⟨S1700000, .i32⟩
  | 99 => ⟨S1700000, .i1⟩
  | 100 => ⟨S_, .i32⟩
  | 101 => ⟨S1700000, .i32⟩
  | 102 => ⟨S1700000, .i32⟩
  | 103 => ⟨S1700000, .i32⟩
  | 104 => ⟨S1700000x1, .i32⟩
  | 105 => ⟨S1700000, .f32⟩
  | 106 => ⟨S1700000, .f32⟩
  | 107 => ⟨S_, .i32⟩
  | 108 => ⟨S1700000, .i32⟩
  | 109 => ⟨S1700000, .i1⟩
  | 110 => ⟨S_, .i32⟩
  | 111 => ⟨S1700000, .i32⟩
  | 112 => ⟨S1700000, .i32⟩
  | 113 => ⟨S1700000, .i32⟩
  | 114 => ⟨S1700000x1, .i32⟩
  | 115 => ⟨S1700000x128, .f32⟩
  | 116 => ⟨S1700000x1, .f32⟩
  | 117 => ⟨S1700000x128, .f32⟩
  | 118 => ⟨S1700000x128, .f32⟩
  | 119 => ⟨S_, .f32⟩
  | 120 => ⟨S100000x128, .f32⟩
  | 121 => ⟨S1700000x1, .i32⟩
  | 122 => ⟨S100000x128, .f32⟩
  | 123 => ⟨S1x128, .f32⟩
  | 124 => ⟨S100000x128, .f32⟩
  | 125 => ⟨S100000x128, .f32⟩
  | 126 => ⟨S_, .f32⟩
  | 127 => ⟨S100000x128, .f32⟩
  | _ => ⟨S100000x4, .f32⟩

abbrev hbmTy0_1 (i : Nat) : BufTy := match i % 128 with
  | 0 => ⟨S100000x128, .f32⟩
  | 1 => ⟨S_, .f32⟩
  | 2 => ⟨S64x128, .f32⟩
  | 3 => ⟨S100000x1, .i32⟩
  | 4 => ⟨S64x128, .f32⟩
  | 5 => ⟨S_, .f32⟩
  | 6 => ⟨S100000, .f32⟩
  | 7 => ⟨S_, .f32⟩
  | 8 => ⟨S64, .f32⟩
  | 9 => ⟨S100000x1, .i32⟩
  | 10 => ⟨S64, .f32⟩
  | 11 => ⟨S_, .f32⟩
  | 12 => ⟨S64, .f32⟩
  | 13 => ⟨S64, .f32⟩
  | 14 => ⟨S64x1, .f32⟩
  | 15 => ⟨S64x128, .f32⟩
  | 16 => ⟨S64x128, .f32⟩
  | _ => ⟨S100000x4, .f32⟩

abbrev hbmTy (i : Nat) : BufTy := match i / 128 with
  | 0 => hbmTy0_0 i
  | 1 => hbmTy0_1 i
  | _ => ⟨S100000x4, .f32⟩

abbrev bufTy : (tb : Table) → Fin (tcTables nBuf tb) → BufTy
  | .hbm, ⟨i, _⟩ => hbmTy i
  | _, _ => ⟨S100000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call1_cst : Ref sig .tc := ⟨.hbm, 67, rfl⟩
abbrev main_call1_v0 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_9 : Ref sig .tc := ⟨.hbm, 74, rfl⟩
abbrev main_v52 : Ref sig .tc := ⟨.hbm, 75, rfl⟩
abbrev main_cst_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_11 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_12 : Ref sig .tc := ⟨.hbm, 84, rfl⟩
abbrev main_call2_v0 : Ref sig .tc := ⟨.hbm, 85, rfl⟩
abbrev main_call2_v1 : Ref sig .tc := ⟨.hbm, 86, rfl⟩
abbrev main_v59 : Ref sig .tc := ⟨.hbm, 87, rfl⟩
abbrev main_c_13 : Ref sig .tc := ⟨.hbm, 88, rfl⟩
abbrev main_v60 : Ref sig .tc := ⟨.hbm, 89, rfl⟩
abbrev main_v61 : Ref sig .tc := ⟨.hbm, 90, rfl⟩
abbrev main_c_14 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_c_15 : Ref sig .tc := ⟨.hbm, 97, rfl⟩
abbrev main_v67 : Ref sig .tc := ⟨.hbm, 98, rfl⟩
abbrev main_v68 : Ref sig .tc := ⟨.hbm, 99, rfl⟩
abbrev main_c_16 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_c_17 : Ref sig .tc := ⟨.hbm, 107, rfl⟩
abbrev main_v75 : Ref sig .tc := ⟨.hbm, 108, rfl⟩
abbrev main_v76 : Ref sig .tc := ⟨.hbm, 109, rfl⟩
abbrev main_c_18 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_19 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_call3_cst : Ref sig .tc := ⟨.hbm, 126, rfl⟩
abbrev main_call3_v0 : Ref sig .tc := ⟨.hbm, 127, rfl⟩
abbrev main_v91 : Ref sig .tc := ⟨.hbm, 128, rfl⟩
abbrev main_cst_20 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_cst_21 : Ref sig .tc := ⟨.hbm, 133, rfl⟩
abbrev main_v95 : Ref sig .tc := ⟨.hbm, 134, rfl⟩
abbrev main_cst_22 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_cst_23 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S64x128 : S_.BroadcastsInDim S64x128 (![] : Fin 0 → Fin S64x128.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  dot_S100000x4_S4x128_S100000x128_1_0_0_1_n_n_wf : DotDims.WF S100000x4 S4x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1

variable [Facts₀]

def dot_S100000x4_S4x128_S100000x128_1_0_0_1_n_n : DotDims S100000x4 S4x128 S100000x128 where
  lhsContracting := [1]
  rhsContracting := [0]
  lhsNonContracting := [0]
  rhsNonContracting := [1]
  lhsBatch := []
  rhsBatch := []
  wf := dot_S100000x4_S4x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

class Facts : Prop extends Facts₀ where

variable [Facts]
-- ==== Proof.Spec.lean ====
/-
  The two programs as functions of their argument arrays.

  Both compute a two-layer graph convolution followed by a mean over each graph's nodes:
  a layer sends every node's features (a dense product `h = x · W`) along every edge, self loops included, scaled by
  dinv[source] · dinv[target], sums what arrives at each node, adds the bias and clips at zero; the pooled result is, per
  graph, the sum of its nodes' features divided by its node count (at least one).
  The reference does this with one gather, one product and one scatter-add over the 1 700 000 edges. The kernel pads the
  edge list with 3 936 edges from node 0 to node 0 of weight zero, takes the product in blocks of 8192 edges, computes the
  dense products in blocks of 2000 rows, and pools by a product with the 0/1 matrix "node r belongs to graph g".
  `Cert.ReferenceIdeal.Spec` names the reference's pieces, `Cert.KernelIdeal.Spec` the kernel's host pieces, and
  `Cert.GCN` the whole-array functions the kernel's five regions compute.
-/
import proofs.«400860_j54193897341258_1_alg».proof.Proof.Gen.KernelIdeal
import proofs.«400860_j54193897341258_1_alg».proof.Proof.Gen.ReferenceIdeal
import Idealize.ShloMosaic.Lib.ValueIdx

noncomputable section

open scoped BigOperators

/-! ## What the kernel's regions compute, as whole-array functions over the extended reals -/

namespace Cert.GCN

open Idealize.ShloMosaic Idealize.ShloMosaic.ValueIdx

/-- A dense product: row `i 0` of `x` against column `i 1` of `w`. -/
def linF (n k c : Nat) (x : (⟨2, ![n, k]⟩ : Shape).Idx → EReal) (w : (⟨2, ![k, c]⟩ : Shape).Idx → EReal) :
    (⟨2, ![n, c]⟩ : Shape).Idx → EReal :=
  fun i => ∑ q : Fin k, x (ix2 (i 0) q) * w (ix2 q (i 1))

/-- Bias row added, clipped at zero. -/
def brF (n c : Nat) (a : (⟨2, ![n, c]⟩ : Shape).Idx → EReal) (b : (⟨2, ![1, c]⟩ : Shape).Idx → EReal) :
    (⟨2, ![n, c]⟩ : Shape).Idx → EReal :=
  fun i => max (a i + b (ix2 0 (i 1))) 0

/-- Every row scaled by its entry of a column. -/
def mulColF (n c : Nat) (g : (⟨2, ![n, c]⟩ : Shape).Idx → EReal) (s : (⟨2, ![n, 1]⟩ : Shape).Idx → EReal) :
    (⟨2, ![n, c]⟩ : Shape).Idx → EReal :=
  fun i => g i * s (ix2 (i 0) 0)

/-- Per graph `i 0`, the sum over the nodes `r` of that graph of the clipped biased features. -/
def poolF (n g c : Nat) (a : (⟨2, ![n, c]⟩ : Shape).Idx → EReal) (b : (⟨2, ![1, c]⟩ : Shape).Idx → EReal)
    (bt : (⟨2, ![n, 1]⟩ : Shape).Idx → BitVec 32) : (⟨2, ![g, c]⟩ : Shape).Idx → EReal :=
  fun i => ∑ r : Fin n, (if bt (ix2 r 0) = BitVec.ofNat 32 (i 0).val then (1 : EReal) else 0) * max (a (ix2 r (i 1)) + b (ix2 0 (i 1))) 0

end Cert.GCN

/-! ## The reference's pieces -/

namespace Cert.ReferenceIdeal.Spec

open Cert.ReferenceIdeal Cert.ReferenceIdeal.Gen Idealize.ShloMosaic Idealize.ShloMosaic.TcCoe

variable {F : FTy → Type} [FloatOps F]

/-- Edge sources with one self loop per node appended. -/
def srcAll (ei : IVec S2x1600000 32) : IVec S1700000 32 :=
  concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0
/-- Edge targets with one self loop per node appended. -/
def dstAll (ei : IVec S2x1600000 32) : IVec S1700000 32 :=
  concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0
/-- In-degree of every node (self loop included): a one per edge summed at its target. -/
def deg (ei : IVec S2x1600000 32) : FVec F S100000 .f32 :=
  Host.scatterAdd scatter_S100000_S1700000x1_S1700000_n_0_0_1 (broadcastInDim S100000 ![] bcast_S_S100000 (constant S_ .f32 0x00000000#32)) (broadcastInDim S1700000x1 ![0] bcast_S1700000_S1700000x1_0 (dstAll ei)) (broadcastInDim S1700000 ![] bcast_S_S1700000 (constant S_ .f32 0x3F800000#32))
/-- deg^(-1/2) where the degree is positive, zero elsewhere. -/
def dinv (ei : IVec S2x1600000 32) : FVec F S100000 .f32 :=
  select (cmpf (F := F) .ogt (deg ei) (broadcastInDim S100000 ![] bcast_S_S100000 (constant S_ .f32 0x00000000#32))) (Host.rsqrt (deg ei)) (broadcastInDim S100000 ![] bcast_S_S100000 (id (constant S_ .f32 0x00000000#32)))
/-- A node index as the row gather reads it: a negative index counted from the end, as a column. -/
def gidx (v : IVec S1700000 32) : IVec S1700000x1 32 :=
  broadcastInDim S1700000x1 ![0] bcast_S1700000_S1700000x1_0 (select (cmpi .slt v (broadcastInDim S1700000 ![] bcast_S_S1700000 (constantI S_ 32 0#32))) (addi v (broadcastInDim S1700000 ![] bcast_S_S1700000 (constantI S_ 32 100000#32))) v)
/-- The symmetric normalisation of every edge: dinv at its source times dinv at its target. -/
def normAll (ei : IVec S2x1600000 32) : FVec F S1700000 .f32 :=
  mulf (Host.gather gather_S100000_S1700000x1_S1700000_n_0_n_n_0_1_1 (dinv (F := F) ei) (gidx (srcAll ei))) (Host.gather gather_S100000_S1700000x1_S1700000_n_0_n_n_0_1_1 (dinv (F := F) ei) (gidx (dstAll ei)))
/-- Nodes per graph, at least one, spread over the feature axis. -/
def cntMax (bt : IVec S100000 32) : FVec F S64x128 .f32 :=
  broadcastInDim S64x128 ![0, 1] bcast_S64x1_S64x128_0_1 (broadcastInDim S64x1 ![0] bcast_S64_S64x1_0 (maximumf (Host.scatterAdd scatter_S64_S100000x1_S100000_n_0_0_1 (broadcastInDim S64 ![] bcast_S_S64 (constant S_ .f32 0x00000000#32)) (broadcastInDim S100000x1 ![0] bcast_S100000_S100000x1_0 bt) (broadcastInDim S100000 ![] bcast_S_S100000 (constant S_ .f32 0x3F800000#32))) (broadcastInDim S64 ![] bcast_S_S64 (constant S_ .f32 0x3F800000#32))))

/-- One aggregation: gather the source rows, scale by the edge's normalisation, sum at the targets. -/
def conv (ei : IVec S2x1600000 32) (h : FVec F S100000x128 .f32) : FVec F S100000x128 .f32 :=
  Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 (dstAll ei)) (mulf (Host.gather gather_S100000x128_S1700000x1_S1700000x128_1_0_n_n_0_1_1128 h (gidx (srcAll ei))) (broadcastInDim S1700000x128 ![0, 1] bcast_S1700000x1_S1700000x128_0_1 (broadcastInDim S1700000x1 ![0] bcast_S1700000_S1700000x1_0 (normAll (F := F) ei))))
/-- Bias added along the feature axis, clipped at zero. -/
def biasRelu (a : FVec F S100000x128 .f32) (b : FVec F S128 .f32) : FVec F S100000x128 .f32 :=
  maximumf (addf a (broadcastInDim S100000x128 ![0, 1] bcast_S1x128_S100000x128_0_1 (broadcastInDim S1x128 ![1] bcast_S128_S1x128_1 b))) (broadcastInDim S100000x128 ![] bcast_S_S100000x128 (constant S_ .f32 0x00000000#32))
def lin1 (x : FVec F S100000x4 .f32) (w : FVec F S4x128 .f32) : FVec F S100000x128 .f32 :=
  Host.dotGeneral dot_S100000x4_S4x128_S100000x128_1_0_0_1_n_n none x w
def lin2 (h : FVec F S100000x128 .f32) (w : FVec F S128x128 .f32) : FVec F S100000x128 .f32 :=
  Host.dotGeneral dot_S100000x128_S128x128_S100000x128_1_0_0_1_n_n none h w
/-- Per graph, the sum of its nodes' rows. -/
def poolSum (h : FVec F S100000x128 .f32) (bt : IVec S100000 32) : FVec F S64x128 .f32 :=
  Host.scatterAdd scatter_S64x128_S100000x1_S100000x128_1_0_0_1 (broadcastInDim S64x128 ![] bcast_S_S64x128 (constant S_ .f32 0x00000000#32)) (broadcastInDim S100000x1 ![0] bcast_S100000_S100000x1_0 bt) h
/-- The reference's result as a function of the seven argument arrays. -/
def G (x : FVec F S100000x4 .f32) (ei : IVec S2x1600000 32) (bt : IVec S100000 32) (W1 : FVec F S4x128 .f32) (b1 : FVec F S128 .f32)
    (W2 : FVec F S128x128 .f32) (b2 : FVec F S128 .f32) : FVec F S64x128 .f32 :=
  Host.divf (poolSum (biasRelu (conv ei (lin2 (biasRelu (conv ei (lin1 x W1)) b1) W2)) b2) bt) (cntMax (F := F) bt)

end Cert.ReferenceIdeal.Spec

/-! ## The kernel's host pieces, and its result over the regions' functions -/

namespace Cert.KernelIdeal.Spec

open Cert.KernelIdeal Cert.KernelIdeal.Gen Idealize.ShloMosaic Idealize.ShloMosaic.TcCoe

variable {F : FTy → Type} [FloatOps F]

/-- Edge sources with one self loop per node appended. -/
def srcAll (ei : IVec S2x1600000 32) : IVec S1700000 32 :=
  concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0
/-- Edge targets with one self loop per node appended. -/
def dstAll (ei : IVec S2x1600000 32) : IVec S1700000 32 :=
  concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0
/-- In-degree of every node (self loop included): a one per edge summed at its target. -/
def deg (ei : IVec S2x1600000 32) : FVec F S100000 .f32 :=
  Host.scatterAdd scatter_S100000_S1700000x1_S1700000_n_0_0_1 (broadcastInDim S100000 ![] bcast_S_S100000 (constant S_ .f32 0x00000000#32)) (broadcastInDim S1700000x1 ![0] bcast_S1700000_S1700000x1_0 (dstAll ei)) (broadcastInDim S1700000 ![] bcast_S_S1700000 (constant S_ .f32 0x3F800000#32))
/-- deg^(-1/2) where the degree is positive, zero elsewhere. -/
def dinv (ei : IVec S2x1600000 32) : FVec F S100000 .f32 :=
  select (cmpf (F := F) .ogt (deg ei) (broadcastInDim S100000 ![] bcast_S_S100000 (constant S_ .f32 0x00000000#32))) (Host.rsqrt (deg ei)) (broadcastInDim S100000 ![] bcast_S_S100000 (id (constant S_ .f32 0x00000000#32)))
/-- A node index as the row gather reads it: a negative index counted from the end, as a column. -/
def gidx (v : IVec S1700000 32) : IVec S1700000x1 32 :=
  broadcastInDim S1700000x1 ![0] bcast_S1700000_S1700000x1_0 (select (cmpi .slt v (broadcastInDim S1700000 ![] bcast_S_S1700000 (constantI S_ 32 0#32))) (addi v (broadcastInDim S1700000 ![] bcast_S_S1700000 (constantI S_ 32 100000#32))) v)
/-- The symmetric normalisation of every edge: dinv at its source times dinv at its target. -/
def normAll (ei : IVec S2x1600000 32) : FVec F S1700000 .f32 :=
  mulf (Host.gather gather_S100000_S1700000x1_S1700000_n_0_n_n_0_1_1 (dinv (F := F) ei) (gidx (srcAll ei))) (Host.gather gather_S100000_S1700000x1_S1700000_n_0_n_n_0_1_1 (dinv (F := F) ei) (gidx (dstAll ei)))
/-- Nodes per graph, at least one, spread over the feature axis. -/
def cntMax (bt : IVec S100000 32) : FVec F S64x128 .f32 :=
  broadcastInDim S64x128 ![0, 1] bcast_S64x1_S64x128_0_1 (broadcastInDim S64x1 ![0] bcast_S64_S64x1_0 (maximumf (Host.scatterAdd scatter_S64_S100000x1_S100000_n_0_0_1 (broadcastInDim S64 ![] bcast_S_S64 (constant S_ .f32 0x00000000#32)) (broadcastInDim S100000x1 ![0] bcast_S100000_S100000x1_0 bt) (broadcastInDim S100000 ![] bcast_S_S100000 (constant S_ .f32 0x3F800000#32))) (broadcastInDim S64 ![] bcast_S_S64 (constant S_ .f32 0x3F800000#32))))

/-- The source list padded to a multiple of the edge block with node 0. -/
def sPad (ei : IVec S2x1600000 32) : IVec S1703936 32 :=
  concatenate S1703936 0 [⟨S1700000, srcAll ei⟩, ⟨S3936, broadcastInDim S3936 ![] bcast_S_S3936 (constantI S_ 32 0#32)⟩] concatenates_S1700000_S3936_S1703936_d0
/-- The target list padded with node 0. -/
def dPad (ei : IVec S2x1600000 32) : IVec S1703936 32 :=
  concatenate S1703936 0 [⟨S1700000, dstAll ei⟩, ⟨S3936, broadcastInDim S3936 ![] bcast_S_S3936 (constantI S_ 32 0#32)⟩] concatenates_S1700000_S3936_S1703936_d0
/-- The normalisation padded with zeros, as a column. -/
def normCol (ei : IVec S2x1600000 32) : FVec F S1703936x1 .f32 :=
  broadcastInDim S1703936x1 ![0] bcast_S1703936_S1703936x1_0 (concatenate S1703936 0 [⟨S1700000, normAll (F := F) ei⟩, ⟨S3936, broadcastInDim S3936 ![] bcast_S_S3936 (constant S_ .f32 0x00000000#32)⟩] concatenates_S1700000_S3936_S1703936_d0)
/-- A padded node index as the row gather reads it. -/
def gidxP (v : IVec S1703936 32) : IVec S1703936x1 32 :=
  broadcastInDim S1703936x1 ![0] bcast_S1703936_S1703936x1_0 (select (cmpi .slt v (broadcastInDim S1703936 ![] bcast_S_S1703936 (constantI S_ 32 0#32))) (addi v (broadcastInDim S1703936 ![] bcast_S_S1703936 (constantI S_ 32 100000#32))) v)
/-- The padded gather of source rows. -/
def gath (h : FVec F S100000x128 .f32) (ei : IVec S2x1600000 32) : FVec F S1703936x128 .f32 :=
  Host.gather gather_S100000x128_S1703936x1_S1703936x128_1_0_n_n_0_1_1128 h (gidxP (sPad ei))
/-- The padded scatter-add at the targets. -/
def scat (ei : IVec S2x1600000 32) (u : FVec F S1703936x128 .f32) : FVec F S100000x128 .f32 :=
  Host.scatterAdd scatter_S100000x128_S1703936x1_S1703936x128_1_0_0_1 (broadcastInDim S100000x128 ![] bcast_S_S100000x128 (constant S_ .f32 0x00000000#32)) (broadcastInDim S1703936x1 ![0] bcast_S1703936_S1703936x1_0 (dPad ei)) u
/-- A bias as a one-row matrix. -/
def row (b : FVec F S128 .f32) : FVec F S1x128 .f32 := shapeCast S1x128 b shapeCasts_S128_S1x128
/-- The graph ids as a column. -/
def col (bt : IVec S100000 32) : IVec S100000x1 32 := shapeCast S100000x1 bt shapeCasts_S100000_S100000x1

open Cert.GCN in
/-- The kernel's result over the extended reals: its host operations around the five regions' whole-array functions. -/
def KOut (x : FVec Ideal S100000x4 .f32) (ei : IVec S2x1600000 32) (bt : IVec S100000 32) (W1 : FVec Ideal S4x128 .f32) (b1 : FVec Ideal S128 .f32)
    (W2 : FVec Ideal S128x128 .f32) (b2 : FVec Ideal S128 .f32) : FVec Ideal S64x128 .f32 :=
  Host.divf (F := Ideal)
    (poolF 100000 64 128
      (scat (F := Ideal) ei (mulColF 1703936 128 (gath (F := Ideal) (linF 100000 128 128 (brF 100000 128 (scat (F := Ideal) ei (mulColF 1703936 128 (gath (F := Ideal) (linF 100000 4 128 x W1) ei) (normCol (F := Ideal) ei))) (row (F := Ideal) b1)) W2) ei) (normCol (F := Ideal) ei)))
      (row (F := Ideal) b2) (col bt))
    (cntMax (F := Ideal) bt)

end Cert.KernelIdeal.Spec

end
-- ==== Proof.RefValue.lean ====
import proofs.«400860_j54193897341258_1_alg».proof.Proof.RefRun
import proofs.«400860_j54193897341258_1_alg».proof.Proof.Spec

set_option maxRecDepth 16384

noncomputable section

open scoped BigOperators

namespace Cert.ReferenceIdeal.RefValue

open Cert.ReferenceIdeal Cert.ReferenceIdeal.Gen Idealize.ShloMosaic Idealize.ShloMosaic.TcCoe

variable {F : FTy → Type} [FloatOps F]

/-- The reference run's composed term is the named pieces put together. -/
theorem ref_value (m : (ℓ : Loc nD τ sig) → Buf (Elt F) ℓ) (c : Dev nD) :
    Cert.ReferenceIdeal.ValueP.res_main_v103 m c
      = Cert.ReferenceIdeal.Spec.G (F := F) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) := by
  unfold Cert.ReferenceIdeal.ValueP.res_main_v103 Cert.ReferenceIdeal.Spec.G Cert.ReferenceIdeal.Spec.poolSum Cert.ReferenceIdeal.Spec.biasRelu
    Cert.ReferenceIdeal.Spec.conv Cert.ReferenceIdeal.Spec.lin1 Cert.ReferenceIdeal.Spec.lin2 Cert.ReferenceIdeal.Spec.cntMax
    Cert.ReferenceIdeal.Spec.normAll Cert.ReferenceIdeal.Spec.gidx Cert.ReferenceIdeal.Spec.dinv Cert.ReferenceIdeal.Spec.deg
    Cert.ReferenceIdeal.Spec.srcAll Cert.ReferenceIdeal.Spec.dstAll
  rfl

end Cert.ReferenceIdeal.RefValue

end
-- ==== Proof.LibRows.lean ====
import Idealize.ShloMosaic.PureOps.Ideal
import Idealize.ShloMosaic.PureOps.Ideal.Laws
import Idealize.ShloMosaic.Lib.ValueIdx

set_option maxRecDepth 16384

noncomputable section

open scoped BigOperators

/-! Row gathers and row scatter-adds of a matrix, read at an index: the dimension numbers of `x[idx]` and of
    `segment_sum` over the rows of an `[A, C]` array with an `[N, 1]` column of row numbers. -/
namespace Cert.LibRows

open Idealize.ShloMosaic Idealize.ShloMosaic.ValueIdx

/-- A scatter lands on an index exactly when start plus window coordinate is that index on every axis. -/
theorem resultIdx?_eq_some_iff {s si u : Shape} (d : ScatterDims s si u) {w : Nat} (j : u.Idx) (idx : IVec si w) (i : s.Idx) :
    d.resultIdx? j idx = some i ↔ ∀ a, d.start j idx a + d.window j a = ((i a).val : Int) := by
  unfold ScatterDims.resultIdx?
  split
  · rename_i h
    constructor
    · intro heq a
      have hi := Option.some.inj heq
      rw [← hi]
      exact (Int.toNat_of_nonneg (h a).1).symm
    · intro hall
      congr 1
      funext a
      refine Fin.ext ?_
      show (d.start j idx a + d.window j a).toNat = (i a).val
      rw [hall a]; exact Int.toNat_natCast _
  · rename_i h
    constructor
    · intro heq; cases heq
    · intro hall
      exfalso; apply h; intro a
      rw [hall a]
      exact ⟨Int.natCast_nonneg _, by exact_mod_cast (i a).isLt⟩

/-- A scatter-add of rows, read at an index: the operand's element plus the sum, over the update rows whose row number
    (read signed) is this row, of the update's element in this column. A row number outside `[0, A)` matches no row. -/
theorem scatterAdd_rows_apply {A C N w : Nat} {φ : FTy} (d : ScatterDims ⟨2, ![A, C]⟩ ⟨2, ![N, 1]⟩ ⟨2, ![N, C]⟩)
    (h1 : d.updateWindowDims = [1]) (h2 : d.insertedWindowDims = [0]) (h3 : d.scatterDimsToOperandDims = [0])
    (h4 : d.indexVectorDim = 1)
    (x : FVec Ideal ⟨2, ![A, C]⟩ φ) (idx : IVec ⟨2, ![N, 1]⟩ w) (upd : FVec Ideal ⟨2, ![N, C]⟩ φ) (a : Fin A) (c : Fin C) :
    Host.scatterAdd d x idx upd (ix2 a c)
      = x (ix2 a c) + ∑ e : Fin N, if (idx (ix2 e 0)).toInt = (a.val : Int) then upd (ix2 e c) else 0 := by
  obtain ⟨uw, iw, sd, iv, wf⟩ := d
  simp only at h1 h2 h3 h4
  subst h1 h2 h3 h4
  generalize hD : (⟨[1], [0], [0], 1, wf⟩ : ScatterDims ⟨2, ![A, C]⟩ ⟨2, ![N, 1]⟩ ⟨2, ![N, C]⟩) = D
  have e1 : D.updateWindowDims = [1] := by subst hD; rfl
  have e2 : D.insertedWindowDims = [0] := by subst hD; rfl
  have e3 : D.scatterDimsToOperandDims = [0] := by subst hD; rfl
  -- the start and the window coordinate on the two axes
  have hs0 : ∀ (e : Fin N) (c' : Fin C), D.start (ix2 e c') idx 0 = (idx (ix2 e 0)).toInt := by
    intro e c'
    unfold ScatterDims.start
    have hm : (0 : Fin 2) ∈ D.scatterDimsToOperandDims := by rw [e3]; exact List.mem_singleton.mpr rfl
    rw [dif_pos hm]
    have hsi : D.siIdx (ix2 e c') ⟨List.idxOf (0 : Fin 2) D.scatterDimsToOperandDims, List.idxOf_lt_length_iff.2 hm⟩ = ix2 e 0 := by
      subst hD
      funext b; refine Fin.ext ?_
      match b with
      | ⟨0, _⟩ => rfl
      | ⟨1, _⟩ => rfl
    rw [hsi]
  have hs1 : ∀ (e : Fin N) (c' : Fin C), D.start (ix2 e c') idx 1 = 0 := by
    intro e c'
    unfold ScatterDims.start
    rw [dif_neg (by rw [e3]; intro h; exact absurd (congrArg Fin.val (List.mem_singleton.mp h)) (show (1 : Nat) ≠ 0 from Nat.one_ne_zero))]
  have hw0 : ∀ (e : Fin N) (c' : Fin C), D.window (ix2 e c') 0 = 0 := by
    intro e c'
    unfold ScatterDims.window
    rw [dif_neg (by
      intro h
      have := (List.mem_filter.mp h).2
      rw [e2] at this
      simp at this)]
  have hw1 : ∀ (e : Fin N) (c' : Fin C), D.window (ix2 e c') 1 = c'.val := by
    intro e c'
    subst hD
    rfl
  have hiff : ∀ (e : Fin N) (c' : Fin C), D.resultIdx? (ix2 e c') idx = some (ix2 a c)
      ↔ ((idx (ix2 e 0)).toInt = (a.val : Int) ∧ c' = c) := by
    intro e c'
    rw [resultIdx?_eq_some_iff]
    constructor
    · intro h
      have h0 : D.start (ix2 e c') idx 0 + D.window (ix2 e c') 0 = ((a.val : Nat) : Int) := h 0
      have h1 : D.start (ix2 e c') idx 1 + D.window (ix2 e c') 1 = ((c.val : Nat) : Int) := h 1
      rw [hs0, hw0] at h0
      rw [hs1, hw1] at h1
      refine ⟨by simpa using h0, Fin.ext ?_⟩
      have : ((c'.val : Nat) : Int) = (c.val : Int) := by simpa using h1
      exact_mod_cast this
    · rintro ⟨h0, rfl⟩ b
      match b with
      | ⟨0, _⟩ =>
        show D.start (ix2 e c') idx 0 + D.window (ix2 e c') 0 = _
        rw [hs0, hw0, h0]; simp
      | ⟨1, _⟩ =>
        show D.start (ix2 e c') idx 1 + D.window (ix2 e c') 1 = _
        rw [hs1, hw1]; simp
  show Ideal.hostScatterAdd D x idx upd (ix2 a c) = _
  unfold Ideal.hostScatterAdd
  congr 1
  rw [Finset.sum_filter, sum_idx2]
  refine Finset.sum_congr rfl fun e _ => ?_
  simp only [hiff]
  by_cases hA : (idx (ix2 e 0)).toInt = (a.val : Int)
  · simp only [hA, true_and, if_true]
    rw [Finset.sum_ite_eq' Finset.univ c]
    simp
  · simp only [hA, false_and, if_false]
    exact Finset.sum_const_zero

/-- A gather of rows, read at an index: the operand's row at the row number read signed and clamped into `[0, A - 1]`. -/
theorem gather_rows_apply {A C N w : Nat} {α : Type} (hA : 0 < A) (d : GatherDims ⟨2, ![A, C]⟩ ⟨2, ![N, 1]⟩ ⟨2, ![N, C]⟩)
    (h1 : d.offsetDims = [1]) (h2 : d.collapsedSliceDims = [0]) (h3 : d.operandBatchingDims = [])
    (h4 : d.startIndicesBatchingDims = []) (h5 : d.startIndexMap = [0]) (h6 : d.indexVectorDim = 1) (h7 : d.sliceSizes = ![1, C])
    (x : (⟨2, ![A, C]⟩ : Shape).Idx → α) (idx : IVec ⟨2, ![N, 1]⟩ w) (e : Fin N) (c : Fin C) :
    Host.gather d x idx (ix2 e c) = x (ix2 ⟨min (idx (ix2 e 0)).toInt.toNat (A - 1), by omega⟩ c) := by
  obtain ⟨od, cd, ob, sb, sm, iv, ss, wf⟩ := d
  simp only at h1 h2 h3 h4 h5 h6 h7
  subst h1 h2 h3 h4 h5 h6 h7
  generalize hD : (⟨[1], [0], [], [], [0], 1, ![1, C], wf⟩ : GatherDims ⟨2, ![A, C]⟩ ⟨2, ![N, 1]⟩ ⟨2, ![N, C]⟩) = D
  have e1 : D.offsetDims = [1] := by subst hD; rfl
  have e2 : D.collapsedSliceDims = [0] := by subst hD; rfl
  have e3 : D.operandBatchingDims = [] := by subst hD; rfl
  have e5 : D.startIndexMap = [0] := by subst hD; rfl
  unfold Host.gather
  congr 1
  funext a
  refine Fin.ext ?_
  match a with
  | ⟨0, _⟩ =>
    show D.start (ix2 e c) idx 0 + D.batchCoord (ix2 e c) 0 + D.offCoord (ix2 e c) 0 = _
    rw [GatherDims.batchCoord_eq_zero _ _ _ (by rw [e3]; exact List.not_mem_nil),
      GatherDims.offCoord_eq_zero _ _ _ (fun h => ((GatherDims.mem_sKept _ _).mp h).1 (by rw [e2]; exact List.mem_singleton.mpr rfl))]
    simp only [Nat.add_zero]
    unfold GatherDims.start
    have hm : (0 : Fin 2) ∈ D.startIndexMap := by rw [e5]; exact List.mem_singleton.mpr rfl
    rw [dif_pos hm]
    have hsi : D.siIdx (ix2 e c) ⟨List.idxOf (0 : Fin 2) D.startIndexMap, List.idxOf_lt_length_iff.2 hm⟩ = ix2 e 0 := by
      subst hD
      funext b; refine Fin.ext ?_
      match b with
      | ⟨0, _⟩ => rfl
      | ⟨1, _⟩ => rfl
    rw [hsi]
    subst hD
    rfl
  | ⟨1, _⟩ =>
    show D.start (ix2 e c) idx 1 + D.batchCoord (ix2 e c) 1 + D.offCoord (ix2 e c) 1 = c.val
    rw [GatherDims.batchCoord_eq_zero _ _ _ (by rw [e3]; exact List.not_mem_nil)]
    have hs : D.start (ix2 e c) idx 1 = 0 := by
      unfold GatherDims.start
      rw [dif_neg (by rw [e5]; intro h; exact absurd (congrArg Fin.val (List.mem_singleton.mp h)) (show (1 : Nat) ≠ 0 from Nat.one_ne_zero))]
    rw [hs]
    subst hD
    simp only [Nat.add_zero, Nat.zero_add]
    rfl

end Cert.LibRows

end
-- ==== Proof.ConvPad.lean ====
import proofs.«400860_j54193897341258_1_alg».proof.Proof.Spec
import proofs.«400860_j54193897341258_1_alg».proof.Proof.LibRows
import Idealize.ShloMosaic.Lib.Pipeline.Value
import Idealize.ShloMosaic.Lib.ValueIdx
import Idealize.ShloMosaic.Lib.ValueLayout

set_option maxRecDepth 16384

noncomputable section

open scoped BigOperators

/-! The padded aggregation is the aggregation: the 3 936 padding edges carry weight zero, so whatever row they gather
    and wherever they land they add nothing; on the first 1 700 000 edges the padded lists are the lists. -/
namespace Cert.ConvPad

open Cert.GCN Idealize.ShloMosaic Idealize.ShloMosaic.ValueIdx

/-! ### The two programs build the same edge lists -/

section Lists
variable {F : FTy → Type} [FloatOps F]

/-- The sources with the self loops appended: one term under two names. -/
theorem srcAll_eq (ei : IVec Cert.KernelIdeal.S2x1600000 32) :
    Cert.KernelIdeal.Spec.srcAll ei = Cert.ReferenceIdeal.Spec.srcAll ei := rfl

/-- The targets with the self loops appended: one term under two names. -/
theorem dstAll_eq (ei : IVec Cert.KernelIdeal.S2x1600000 32) :
    Cert.KernelIdeal.Spec.dstAll ei = Cert.ReferenceIdeal.Spec.dstAll ei := rfl

/-- The edge weights: one term under two names. -/
theorem normAll_eq (ei : IVec Cert.KernelIdeal.S2x1600000 32) :
    Cert.KernelIdeal.Spec.normAll (F := F) ei = Cert.ReferenceIdeal.Spec.normAll (F := F) ei := rfl

end Lists

/-! ### The padded edge range is the edge range followed by the padding -/

/-- An edge as an edge of the padded list. -/
def inl (e : Fin 1700000) : Fin 1703936 := ⟨e.val, by omega⟩
/-- A padding place as a place of the padded list. -/
def inr (t : Fin 3936) : Fin 1703936 := ⟨1700000 + t.val, by omega⟩

/-- A sum over the padded range whose padding terms vanish is the sum over the edges. -/
theorem sum_pad (f : Fin 1703936 → EReal) (hf : ∀ t : Fin 3936, f (inr t) = 0) :
    ∑ e, f e = ∑ e : Fin 1700000, f (inl e) :=
  Fin.sum_trunc (a := 1700000) (b := 3936) f hf

/-! ### Spreading a list to a column and a column over the features, read at an index -/

/-- A list spread to a column reads the list's entry. -/
theorem col_apply {α : Type} {N : Nat} (hN : ¬ N = 1)
    (hb : (⟨1, ![N]⟩ : Shape).BroadcastsInDim ⟨2, ![N, 1]⟩ ![0]) (v : (⟨1, ![N]⟩ : Shape).Idx → α) (e : Fin N) :
    broadcastInDim ⟨2, ![N, 1]⟩ ![0] hb v (ix2 e 0) = v (ix1 e) :=
  broadcastInDim_apply _ hb v _ (ix1 e) (fun a => by
    match a with
    | ⟨0, _⟩ => exact (if_neg hN).symm)

/-- A column spread over the feature axis reads the column's entry of that row. -/
theorem colSpread_apply {α : Type} {N C : Nat} (hN : ¬ N = 1)
    (hb : (⟨2, ![N, 1]⟩ : Shape).BroadcastsInDim ⟨2, ![N, C]⟩ ![0, 1]) (v : (⟨2, ![N, 1]⟩ : Shape).Idx → α)
    (e : Fin N) (c : Fin C) :
    broadcastInDim ⟨2, ![N, C]⟩ ![0, 1] hb v (ix2 e c) = v (ix2 e 0) :=
  broadcastInDim_apply _ hb v _ (ix2 e 0) (fun a => by
    match a with
    | ⟨0, _⟩ => exact (if_neg hN).symm
    | ⟨1, _⟩ => exact (if_pos rfl).symm)

/-! ### A padded list, read in its two parts -/

/-- On the first 1 700 000 places a padded list is the list. -/
theorem pad_left {α : Type} (x : Cert.KernelIdeal.S1700000.Idx → α) (y : Cert.KernelIdeal.S3936.Idx → α) (e : Fin 1700000) :
    concatenate Cert.KernelIdeal.S1703936 0 [⟨Cert.KernelIdeal.S1700000, x⟩, ⟨Cert.KernelIdeal.S3936, y⟩]
        Cert.KernelIdeal.Gen.concatenates_S1700000_S3936_S1703936_d0 (ix1 (inl e)) = x (ix1 e) :=
  concatenate_pair_apply_left (0 : Fin 1) x y _ (ix1 (inl e)) rfl (ix1 e) (fun b => by
    match b with
    | ⟨0, _⟩ => rfl)

/-- On the last 3 936 places it is the padding. -/
theorem pad_right {α : Type} (x : Cert.KernelIdeal.S1700000.Idx → α) (y : Cert.KernelIdeal.S3936.Idx → α) (t : Fin 3936) :
    concatenate Cert.KernelIdeal.S1703936 0 [⟨Cert.KernelIdeal.S1700000, x⟩, ⟨Cert.KernelIdeal.S3936, y⟩]
        Cert.KernelIdeal.Gen.concatenates_S1700000_S3936_S1703936_d0 (ix1 (inr t)) = y (ix1 t) :=
  concatenate_pair_apply_right (0 : Fin 1) x y _ (ix1 (inr t)) rfl rfl (ix1 t)
    (fun b hb => by
      match b with
      | ⟨0, _⟩ => exact absurd rfl hb)
    (by show t.val + 1700000 = 1700000 + t.val; omega)

/-! ### The kernel's padded lists on the edges and on the padding -/

/-- The padded sources on an edge are the reference's sources. -/
theorem sPad_left (ei : IVec Cert.KernelIdeal.S2x1600000 32) (e : Fin 1700000) :
    Cert.KernelIdeal.Spec.sPad ei (ix1 (inl e)) = Cert.ReferenceIdeal.Spec.srcAll ei (ix1 e) :=
  (pad_left _ _ e).trans (congrFun (srcAll_eq ei) (ix1 e))

/-- The padded targets on an edge are the reference's targets. -/
theorem dPad_left (ei : IVec Cert.KernelIdeal.S2x1600000 32) (e : Fin 1700000) :
    Cert.KernelIdeal.Spec.dPad ei (ix1 (inl e)) = Cert.ReferenceIdeal.Spec.dstAll ei (ix1 e) :=
  (pad_left _ _ e).trans (congrFun (dstAll_eq ei) (ix1 e))

/-- The padded weight column on an edge is the reference's weight. -/
theorem normCol_left (ei : IVec Cert.KernelIdeal.S2x1600000 32) (e : Fin 1700000) :
    Cert.KernelIdeal.Spec.normCol (F := Ideal) ei (ix2 (inl e) 0) = Cert.ReferenceIdeal.Spec.normAll (F := Ideal) ei (ix1 e) :=
  (col_apply (N := 1703936) (by omega) _ _ (inl e)).trans
    ((pad_left _ _ e).trans (congrFun (normAll_eq (F := Ideal) ei) (ix1 e)))

/-- The padded weight column on the padding is zero. -/
theorem normCol_right (ei : IVec Cert.KernelIdeal.S2x1600000 32) (t : Fin 3936) :
    Cert.KernelIdeal.Spec.normCol (F := Ideal) ei (ix2 (inr t) 0) = 0 :=
  (col_apply (N := 1703936) (by omega) _ _ (inr t)).trans
    ((pad_right _ _ t).trans Ideal.ofBits_zero_f32)

/-! ### The row a gather reads -/

/-- A node number as the row gather reads it: counted from the end when negative. -/
def wrap (x : BitVec 32) : BitVec 32 := Scalar.select (IntOp.cmpi .slt x 0#32) (IntOp.addi x 100000#32) x

/-- The row of the 100 000 a gather reads for a node number: the wrapped number read signed, clamped into range. -/
def row (x : BitVec 32) : Fin 100000 := ⟨min (wrap x).toInt.toNat (100000 - 1), by omega⟩

/-- The kernel's index column reads the wrapped padded number. -/
theorem gidxP_apply (v : IVec Cert.KernelIdeal.S1703936 32) (e : Fin 1703936) :
    Cert.KernelIdeal.Spec.gidxP v (ix2 e 0) = wrap (v (ix1 e)) :=
  col_apply (N := 1703936) (by omega) _ _ e

/-- The reference's index column reads the wrapped number. -/
theorem gidx_apply (v : IVec Cert.ReferenceIdeal.S1700000 32) (e : Fin 1700000) :
    Cert.ReferenceIdeal.Spec.gidx v (ix2 e 0) = wrap (v (ix1 e)) :=
  col_apply (N := 1700000) (by omega) _ _ e

/-- The kernel's gather reads the row of the padded source. -/
theorem gath_apply (h : FVec Ideal Cert.KernelIdeal.S100000x128 .f32) (ei : IVec Cert.KernelIdeal.S2x1600000 32)
    (e : Fin 1703936) (c : Fin 128) :
    Cert.KernelIdeal.Spec.gath (F := Ideal) h ei (ix2 e c) = h (ix2 (row (Cert.KernelIdeal.Spec.sPad ei (ix1 e))) c) :=
  (Cert.LibRows.gather_rows_apply (A := 100000) (C := 128) (N := 1703936) (by omega)
      Cert.KernelIdeal.gather_S100000x128_S1703936x1_S1703936x128_1_0_n_n_0_1_1128 rfl rfl rfl rfl rfl rfl rfl
      h (Cert.KernelIdeal.Spec.gidxP (Cert.KernelIdeal.Spec.sPad ei)) e c).trans
    (congrArg (fun r : Fin 100000 => h (ix2 r c))
      (Fin.ext (congrArg (fun x : BitVec 32 => min x.toInt.toNat (100000 - 1)) (gidxP_apply _ e))))

/-- The reference's gather reads the row of the source. -/
theorem gathR_apply (h : FVec Ideal Cert.ReferenceIdeal.S100000x128 .f32) (ei : IVec Cert.ReferenceIdeal.S2x1600000 32)
    (e : Fin 1700000) (c : Fin 128) :
    Host.gather Cert.ReferenceIdeal.gather_S100000x128_S1700000x1_S1700000x128_1_0_n_n_0_1_1128 h
        (Cert.ReferenceIdeal.Spec.gidx (Cert.ReferenceIdeal.Spec.srcAll ei)) (ix2 e c)
      = h (ix2 (row (Cert.ReferenceIdeal.Spec.srcAll ei (ix1 e))) c) :=
  (Cert.LibRows.gather_rows_apply (A := 100000) (C := 128) (N := 1700000) (by omega)
      Cert.ReferenceIdeal.gather_S100000x128_S1700000x1_S1700000x128_1_0_n_n_0_1_1128 rfl rfl rfl rfl rfl rfl rfl
      h (Cert.ReferenceIdeal.Spec.gidx (Cert.ReferenceIdeal.Spec.srcAll ei)) e c).trans
    (congrArg (fun r : Fin 100000 => h (ix2 r c))
      (Fin.ext (congrArg (fun x : BitVec 32 => min x.toInt.toNat (100000 - 1)) (gidx_apply _ e))))

/-! ### The two aggregations at a node and a feature -/

/-- The kernel's scatter-add: the sum over the padded places that land on the node. -/
theorem scat_apply (ei : IVec Cert.KernelIdeal.S2x1600000 32) (u : FVec Ideal Cert.KernelIdeal.S1703936x128 .f32)
    (a : Fin 100000) (c : Fin 128) :
    Cert.KernelIdeal.Spec.scat (F := Ideal) ei u (ix2 a c)
      = ∑ e : Fin 1703936, if (Cert.KernelIdeal.Spec.dPad ei (ix1 e)).toInt = (a.val : Int) then u (ix2 e c) else 0 := by
  refine (Cert.LibRows.scatterAdd_rows_apply (A := 100000) (C := 128) (N := 1703936)
      Cert.KernelIdeal.scatter_S100000x128_S1703936x1_S1703936x128_1_0_0_1 rfl rfl rfl rfl _ _ u a c).trans ?_
  refine (congrArg (· + _) Ideal.ofBits_zero_f32).trans ((zero_add _).trans ?_)
  refine Finset.sum_congr rfl (fun e _ => ?_)
  rw [col_apply (N := 1703936) (by omega) _ _ e]

/-- The reference's aggregation: the sum over the edges that land on the node of the source's row times the weight. -/
theorem conv_apply (ei : IVec Cert.ReferenceIdeal.S2x1600000 32) (h : FVec Ideal Cert.ReferenceIdeal.S100000x128 .f32)
    (a : Fin 100000) (c : Fin 128) :
    Cert.ReferenceIdeal.Spec.conv (F := Ideal) ei h (ix2 a c)
      = ∑ e : Fin 1700000, if (Cert.ReferenceIdeal.Spec.dstAll ei (ix1 e)).toInt = (a.val : Int)
          then h (ix2 (row (Cert.ReferenceIdeal.Spec.srcAll ei (ix1 e))) c) * Cert.ReferenceIdeal.Spec.normAll (F := Ideal) ei (ix1 e) else 0 := by
  refine (Cert.LibRows.scatterAdd_rows_apply (A := 100000) (C := 128) (N := 1700000)
      Cert.ReferenceIdeal.scatter_S100000x128_S1700000x1_S1700000x128_1_0_0_1 rfl rfl rfl rfl _ _ _ a c).trans ?_
  refine (congrArg (· + _) Ideal.ofBits_zero_f32).trans ((zero_add _).trans ?_)
  refine Finset.sum_congr rfl (fun e _ => ?_)
  rw [col_apply (N := 1700000) (by omega) _ _ e]
  refine if_congr Iff.rfl ?_ rfl
  refine (mulf_apply _ _ _).trans ?_
  rw [gathR_apply, colSpread_apply (N := 1700000) (C := 128) (by omega) _ _ e c, col_apply (N := 1700000) (by omega) _ _ e]

theorem conv_pad (ei : IVec Cert.KernelIdeal.S2x1600000 32) (h : FVec Ideal Cert.KernelIdeal.S100000x128 .f32) :
    Cert.KernelIdeal.Spec.scat (F := Ideal) ei
        (mulColF 1703936 128 (Cert.KernelIdeal.Spec.gath (F := Ideal) h ei) (Cert.KernelIdeal.Spec.normCol (F := Ideal) ei))
      = Cert.ReferenceIdeal.Spec.conv (F := Ideal) ei h := by
  funext j
  obtain ⟨a, c, rfl⟩ : ∃ (a : Fin 100000) (c : Fin 128), j = ix2 a c := ⟨j 0, j 1, eq_ix2 j⟩
  refine (scat_apply ei _ a c).trans ((sum_pad _ (fun t => ?_)).trans ((Finset.sum_congr rfl (fun e _ => ?_)).trans (conv_apply ei h a c).symm))
  · -- a padding place: its weight is zero, so its term is zero whichever node it lands on
    show (if _ then Cert.KernelIdeal.Spec.gath (F := Ideal) h ei (ix2 (inr t) c) * Cert.KernelIdeal.Spec.normCol (F := Ideal) ei (ix2 (inr t) 0) else 0) = 0
    rw [normCol_right, mul_zero, ite_self]
  · -- an edge: the padded lists are the lists there
    show (if _ then Cert.KernelIdeal.Spec.gath (F := Ideal) h ei (ix2 (inl e) c) * Cert.KernelIdeal.Spec.normCol (F := Ideal) ei (ix2 (inl e) 0) else 0) = _
    rw [dPad_left, gath_apply, sPad_left, normCol_left]

end Cert.ConvPad

end
-- ==== Proof.Bridge.lean ====
import proofs.«400860_j54193897341258_1_alg».proof.Proof.Spec
import proofs.«400860_j54193897341258_1_alg».proof.Proof.LibRows
import Idealize.ShloMosaic.Lib.Pipeline.Value
import Idealize.ShloMosaic.Lib.ValueIdx
import Idealize.ShloMosaic.Lib.ValueLayout
import Idealize.ShloMosaic.Lib.IdealHost
import Idealize.ShloMosaic.Lib.KernelVsHost
import Idealize.ShloMosaic.Lib.StackMember
import Idealize.ShloMosaic.PureOps.Ideal.Laws

set_option maxRecDepth 16384

noncomputable section

open scoped BigOperators

/-! The regions' whole-array functions are the reference's host operations, index by index. -/
namespace Cert.Bridge

open Cert.GCN Idealize.ShloMosaic Idealize.ShloMosaic.ValueIdx

/-! ## Layout operations of a vector read at an index -/

section Layout
variable {α : Type}

/-- A vector laid along the one row of a one-row matrix reads, at (u, q), the vector at q. -/
theorem bcast_vec_row_apply {n : Nat} (h : (⟨1, ![n]⟩ : Shape).BroadcastsInDim ⟨2, ![1, n]⟩ ![1])
    (b : (⟨1, ![n]⟩ : Shape).Idx → α) (u : Fin 1) (q : Fin n) :
    broadcastInDim ⟨2, ![1, n]⟩ ![1] h b (ix2 u q) = b (ix1 q) := by
  refine broadcastInDim_apply ![1] h b (ix2 u q) (ix1 q) ?_
  intro a
  match a with
  | ⟨0, _⟩ =>
    show q.val = if n = 1 then 0 else q.val
    split
    · have := q.isLt; omega
    · rfl

/-- A vector laid down the one column of a one-column matrix reads, at (r, u), the vector at r. -/
theorem bcast_vec_col_apply {n : Nat} (h : (⟨1, ![n]⟩ : Shape).BroadcastsInDim ⟨2, ![n, 1]⟩ ![0])
    (b : (⟨1, ![n]⟩ : Shape).Idx → α) (r : Fin n) (u : Fin 1) :
    broadcastInDim ⟨2, ![n, 1]⟩ ![0] h b (ix2 r u) = b (ix1 r) := by
  refine broadcastInDim_apply ![0] h b (ix2 r u) (ix1 r) ?_
  intro a
  match a with
  | ⟨0, _⟩ =>
    show r.val = if n = 1 then 0 else r.val
    split
    · have := r.isLt; omega
    · rfl

/-- A vector cast to a one-column matrix reads, at (r, u), the vector at r: the row-major positions agree. -/
theorem cast_vec_col_apply {n : Nat} (h : (⟨1, ![n]⟩ : Shape).ShapeCasts ⟨2, ![n, 1]⟩)
    (b : (⟨1, ![n]⟩ : Shape).Idx → α) (r : Fin n) (u : Fin 1) :
    shapeCast ⟨2, ![n, 1]⟩ b h (ix2 r u) = b (ix1 r) :=
  shapeCast_apply b h _ _ (by
    have hu : u.val = 0 := by omega
    rw [Shape.rowMajor_val_two, Shape.rowMajor_val_one]
    show r.val = r.val * 1 + u.val
    rw [hu, Nat.mul_one, Nat.add_zero])

end Layout

/-! ## A graph id as a word and as a signed number -/

/-- A 32-bit word is the word of a number below 64 exactly when its signed value is that number. -/
theorem word_eq_ofNat_iff (w : BitVec 32) (g : Nat) (hg : g < 64) : w = BitVec.ofNat 32 g ↔ w.toInt = (g : Int) := by
  have h : (BitVec.ofNat 32 g).toInt = (g : Int) := by
    rw [BitVec.toInt_eq_toNat_cond, BitVec.toNat_ofNat]
    have : g % 2 ^ 32 = g := Nat.mod_eq_of_lt (by omega)
    rw [this]
    split
    · rfl
    · omega
  constructor
  · rintro rfl; exact h
  · intro hw; exact BitVec.eq_of_toInt_eq (hw.trans h.symm)

/-! ## The five identities -/

/-- The first dense product is the host's contraction. -/
theorem lin1_eq (x : FVec Ideal Cert.ReferenceIdeal.S100000x4 .f32) (w : FVec Ideal Cert.ReferenceIdeal.S4x128 .f32) :
    linF 100000 4 128 x w = Cert.ReferenceIdeal.Spec.lin1 (F := Ideal) x w := by
  funext i
  obtain ⟨p, q, rfl⟩ : ∃ (p : Fin 100000) (q : Fin 128), i = ix2 p q := ⟨i 0, i 1, eq_ix2 i⟩
  exact (StackMember.dotGeneral_plain_apply (m := 100000) (n := 128) (k := 4) none x w p q).symm

/-- The second dense product is the host's contraction. -/
theorem lin2_eq (h : FVec Ideal Cert.ReferenceIdeal.S100000x128 .f32) (w : FVec Ideal Cert.ReferenceIdeal.S128x128 .f32) :
    linF 100000 128 128 h w = Cert.ReferenceIdeal.Spec.lin2 (F := Ideal) h w := by
  funext i
  obtain ⟨p, q, rfl⟩ : ∃ (p : Fin 100000) (q : Fin 128), i = ix2 p q := ⟨i 0, i 1, eq_ix2 i⟩
  exact (StackMember.dotGeneral_plain_apply (m := 100000) (n := 128) (k := 128) none h w p q).symm

/-- The bias row and the host's broadcast bias at an index, and the host's zero. -/
theorem biasRelu_apply (a : FVec Ideal Cert.ReferenceIdeal.S100000x128 .f32) (b : FVec Ideal Cert.ReferenceIdeal.S128 .f32)
    (p : Fin 100000) (q : Fin 128) :
    Cert.ReferenceIdeal.Spec.biasRelu (F := Ideal) a b (ix2 p q)
      = max (a (ix2 p q) + Cert.KernelIdeal.Spec.row (F := Ideal) b (ix2 0 q)) 0 := by
  unfold Cert.ReferenceIdeal.Spec.biasRelu Cert.KernelIdeal.Spec.row
  rw [maximumf_apply, addf_apply, broadcastInDim_oneRow_apply, bcast_vec_row_apply, broadcastInDim_scalar_apply,
    constant_apply, Ideal.ofBits_zero_f32, shapeCast_a_1a_apply]

/-- Bias (as the kernel's one-row matrix) added and clipped is the host's broadcast, sum and maximum. -/
theorem brF_eq (a : FVec Ideal Cert.ReferenceIdeal.S100000x128 .f32) (b : FVec Ideal Cert.ReferenceIdeal.S128 .f32) :
    brF 100000 128 a (Cert.KernelIdeal.Spec.row (F := Ideal) b) = Cert.ReferenceIdeal.Spec.biasRelu (F := Ideal) a b := by
  funext i
  obtain ⟨p, q, rfl⟩ : ∃ (p : Fin 100000) (q : Fin 128), i = ix2 p q := ⟨i 0, i 1, eq_ix2 i⟩
  exact (biasRelu_apply a b p q).symm

/-- The sum over a graph's nodes, written with the 0/1 membership factor, is the host's scatter-add of the clipped
    biased rows at the graph ids: a graph id outside `[0, 64)` matches no graph on either side. -/
theorem pool_eq (a : FVec Ideal Cert.ReferenceIdeal.S100000x128 .f32) (b : FVec Ideal Cert.ReferenceIdeal.S128 .f32)
    (bt : IVec Cert.ReferenceIdeal.S100000 32) :
    poolF 100000 64 128 a (Cert.KernelIdeal.Spec.row (F := Ideal) b) (Cert.KernelIdeal.Spec.col bt)
      = Cert.ReferenceIdeal.Spec.poolSum (F := Ideal) (Cert.ReferenceIdeal.Spec.biasRelu (F := Ideal) a b) bt := by
  funext i
  obtain ⟨g, c, rfl⟩ : ∃ (g : Fin 64) (c : Fin 128), i = ix2 g c := ⟨i 0, i 1, eq_ix2 i⟩
  unfold Cert.ReferenceIdeal.Spec.poolSum
  rw [Cert.LibRows.scatterAdd_rows_apply Cert.ReferenceIdeal.scatter_S64x128_S100000x1_S100000x128_1_0_0_1 rfl rfl rfl rfl,
    broadcastInDim_scalar_apply, constant_apply, Ideal.ofBits_zero_f32, zero_add]
  show (∑ r : Fin 100000, (if Cert.KernelIdeal.Spec.col bt (ix2 r 0) = BitVec.ofNat 32 g.val then (1 : EReal) else 0)
      * max (a (ix2 r c) + Cert.KernelIdeal.Spec.row (F := Ideal) b (ix2 0 c)) 0) = _
  refine Finset.sum_congr rfl fun r _ => ?_
  rw [biasRelu_apply, bcast_vec_col_apply]
  unfold Cert.KernelIdeal.Spec.col
  rw [cast_vec_col_apply]
  by_cases hw : bt (ix1 r) = BitVec.ofNat 32 g.val
  · rw [if_pos hw, if_pos ((word_eq_ofNat_iff _ _ g.isLt).mp hw), one_mul]
  · rw [if_neg hw, if_neg (fun h => hw ((word_eq_ofNat_iff _ _ g.isLt).mpr h)), zero_mul]

/-- The node counts are the same host operations in both programs. -/
theorem cntMax_eq (bt : IVec Cert.ReferenceIdeal.S100000 32) :
    Cert.KernelIdeal.Spec.cntMax (F := Ideal) bt = Cert.ReferenceIdeal.Spec.cntMax (F := Ideal) bt := by
  rfl

end Cert.Bridge

end
-- ==== Proof.RegLin.lean ====
import proofs.«400860_j54193897341258_1_alg».proof.Proof.Gen.KernelIdeal.Frame
import proofs.«400860_j54193897341258_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.RegLin

open Cert.KernelIdeal Cert.KernelIdeal.Gen Cert.GCN Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-! ## Region 0: the dense product of the input rows with the first weight array -/

/-- The zero offsets of a whole-buffer access, as a constant function. -/
theorem zeroOff : (![0, 0] : Fin 2 → Nat) = fun _ => 0 :=
  funext fun a => by match a with | ⟨0, _⟩ => rfl | ⟨1, _⟩ => rfl

/-- A dense product read at (p, q). -/
theorem linF_ix2 (n k c : Nat) (x : (⟨2, ![n, k]⟩ : Shape).Idx → EReal) (w : (⟨2, ![k, c]⟩ : Shape).Idx → EReal)
    (p : Fin n) (q : Fin c) : linF n k c x w (ix2 p q) = ∑ r : Fin k, x (ix2 p r) * w (ix2 r q) := rfl

/-- The 2000×4 by 4×128 product contracts the left operand's second axis: its left index at output (p, q) and
    contraction coordinate r is (p, r). -/
theorem lhs4 (p : Fin 2000) (q : Fin 128) (r : Fin 4) :
    dot_S2000x4_S4x128_S2000x128_1_0_0_1_n_n.lhsIdx (ix2 p q)
      ((contrEquiv1 dot_S2000x4_S4x128_S2000x128_1_0_0_1_n_n 4 rfl rfl).symm r) = ix2 p r := by
  have cr := contrEquiv1_symm_val dot_S2000x4_S4x128_S2000x128_1_0_0_1_n_n 4 rfl rfl r
  funext ax; apply Fin.ext
  match ax with
  | ⟨0, _⟩ => simp [DotDims.lhsIdx, dot_S2000x4_S4x128_S2000x128_1_0_0_1_n_n]; rfl
  | ⟨1, _⟩ => simp [DotDims.lhsIdx, dot_S2000x4_S4x128_S2000x128_1_0_0_1_n_n]; exact cr

/-- Its right index there is (r, q). -/
theorem rhs4 (p : Fin 2000) (q : Fin 128) (r : Fin 4) :
    dot_S2000x4_S4x128_S2000x128_1_0_0_1_n_n.rhsIdx (ix2 p q)
      ((contrEquiv1 dot_S2000x4_S4x128_S2000x128_1_0_0_1_n_n 4 rfl rfl).symm r) = ix2 r q := by
  have cr := contrEquiv1_symm_val dot_S2000x4_S4x128_S2000x128_1_0_0_1_n_n 4 rfl rfl r
  funext ax; apply Fin.ext
  match ax with
  | ⟨0, _⟩ => simp [DotDims.rhsIdx, dot_S2000x4_S4x128_S2000x128_1_0_0_1_n_n]; exact cr
  | ⟨1, _⟩ => simp [DotDims.rhsIdx, dot_S2000x4_S4x128_S2000x128_1_0_0_1_n_n]; rfl

/-- The body's stored value at (p, q): over the extended reals the narrowing of the operands is the identity and the
    product onto the zero accumulator is the plain sum over the contracted coordinate. -/
theorem linPay_apply (x0 : FVec Ideal S2000x4 .f32) (x1 : FVec Ideal S4x128 .f32) (p : Fin 2000) (q : Fin 128) :
    k0_pay1 (F := Ideal) x0 x1 (ix2 p q) = ∑ r : Fin 4, x0 (ix2 p r) * x1 (ix2 r q) := by
  unfold k0_pay1
  show FloatOps.matmul dot_S2000x4_S4x128_S2000x128_1_0_0_1_n_n none (truncf .bf16 x0 bitsLt_bf16_f32)
    (truncf .bf16 x1 bitsLt_bf16_f32) (constant S2000x128 .f32 0x00000000#32) (ix2 p q) = _
  rw [Ideal.matmul_constant_zero_apply,
    ← Equiv.sum_comp (contrEquiv1 dot_S2000x4_S4x128_S2000x128_1_0_0_1_n_n 4 rfl rfl).symm]
  refine Finset.sum_congr rfl fun r _ => ?_
  rw [lhs4, rhs4]
  rfl

/-- The printed index maps of region 0, decided over its 50 grid points: the row blocks of the input and of the output
    move with the point, the weight array's one block stays. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the dense product of the two input arrays as the region finds them:
    row `p` of the block is row `2000 t + p` of the arrays, and the weight array's one block is the array. -/
theorem flushed0 (c : Dev nD) (t : Fin cfg0.N) :
    (dat0 (F := Ideal) V c).flushed 2 t
      = ((cfg0.win 2).blk t).view.read (Elt Ideal) (linF 100000 4 128 (V c main_arg0) (V c main_arg3)) := by
  show (cfg0.win 2).cut (grid0.coords t) ((dat0 V c).after 2 t) = _
  rw [after0_2]
  unfold out0_2
  rw [View.canon_unit_zero zeroOff]
  simp only [View.ld_unit_zero (S := S2000x4) zeroOff, View.ld_unit_zero (S := S4x128) zeroOff]
  obtain ⟨e0, e1, e2, e3, e4, e5⟩ := idx0 t
  have htN : t.val < 50 := lt_of_lt_of_eq t.isLt N_0
  funext j
  obtain ⟨p, q, rfl⟩ : ∃ (p : Fin 2000) (q : Fin 128), j = ix2 p q := ⟨j 0, j 1, eq_ix2 j⟩
  obtain ⟨P, hP⟩ : ∃ P : Fin 100000, P.val = t.val * 2000 + p.val := ⟨⟨t.val * 2000 + p.val, by omega⟩, rfl⟩
  have hE : ((cfg0.win 2).blk t).view.emb (ix2 p q) = ix2 P q := by
    funext a; apply Fin.ext
    match a with
    | ⟨0, _⟩ => show win0_2.index t (0 : Fin 2) * 2000 + 1 * p.val = P.val; omega
    | ⟨1, _⟩ => show win0_2.index t (1 : Fin 2) * 128 + 1 * q.val = q.val; omega
  show k0_pay1 (F := Ideal) (iblk0 V c 0 t) (iblk0 V c 1 t) (ix2 p q)
    = linF 100000 4 128 (V c main_arg0) (V c main_arg3) (((cfg0.win 2).blk t).view.emb (ix2 p q))
  rw [hE, linF_ix2]
  refine (linPay_apply _ _ p q).trans ?_
  refine Finset.sum_congr rfl fun r _ => ?_
  have h0 : ((cfg0.win 0).blk t).view.emb (ix2 p r) = ix2 P r := by
    funext a; apply Fin.ext
    match a with
    | ⟨0, _⟩ => show win0_0.index t (0 : Fin 2) * 2000 + 1 * p.val = P.val; omega
    | ⟨1, _⟩ => show win0_0.index t (1 : Fin 2) * 4 + 1 * r.val = r.val; omega
  have h1 : ((cfg0.win 1).blk t).view.emb (ix2 r q) = ix2 r q := by
    funext a; apply Fin.ext
    match a with
    | ⟨0, _⟩ => show win0_1.index t (0 : Fin 2) * 4 + 1 * r.val = r.val; omega
    | ⟨1, _⟩ => show win0_1.index t (1 : Fin 2) * 128 + 1 * q.val = q.val; omega
  have a0 : iblk0 V c 0 t (ix2 p r) = V c main_arg0 (ix2 P r) := by
    show V c main_arg0 (((cfg0.win 0).blk t).view.emb (ix2 p r)) = _
    rw [h0]
  have a1 : iblk0 V c 1 t (ix2 r q) = V c main_arg3 (ix2 r q) := by
    show V c main_arg3 (((cfg0.win 1).blk t).view.emb (ix2 r q)) = _
    rw [h1]
  rw [a0, a1]

/-- An index of the output array is in point `t`'s block iff each coordinate is in the block's range on its axis. -/
theorem mem_blk0 (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v37).slice (win0_2.rect t)).set ↔ _
  rw [View.set_slice_whole, Rect.mem_set_unit]
  exact Iff.rfl

/-- Every row of the output array is in the block of the point its row number divided by 2000 names. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have ht : (i 0).val / 2000 < cfg0.N := by show (i 0).val / 2000 < 50; omega
  obtain ⟨e0, e1, e2, e3, e4, e5⟩ := idx0 ⟨(i 0).val / 2000, ht⟩
  refine ⟨⟨(i 0).val / 2000, ht⟩, flush0_2 _, ?_⟩
  rw [mem_blk0]
  intro a
  match a with
  | ⟨0, _⟩ =>
    show win0_2.index ⟨(i 0).val / 2000, ht⟩ (0 : Fin 2) * 2000 ≤ (i 0).val ∧ (i 0).val < win0_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win0_2.index ⟨(i 0).val / 2000, ht⟩ (1 : Fin 2) * 128 ≤ (i 1).val ∧ (i 1).val < win0_2.index ⟨(i 0).val / 2000, ht⟩ (1 : Fin 2) * 128 + 128
    rw [e5]; omega

/-- Region 0 leaves in its output array the dense product of its two input arrays as the region finds them. -/
theorem final0 (c : Dev nD) :
    (dat0 (F := Ideal) V c).arrAt 2 cfg0.N = linF 100000 4 128 (V c main_arg0) (V c main_arg3) :=
  (dat0 (F := Ideal) V c).arrAt_eq_of_cover 2 _ (fun t _ => flushed0 V c t) cover0

/-! ## Region 2: the dense product of the clipped biased rows with the second weight array -/

/-- The 2000×128 by 128×128 product contracts the left operand's second axis: its left index at output (p, q) and
    contraction coordinate r is (p, r). -/
theorem lhs128 (p : Fin 2000) (q : Fin 128) (r : Fin 128) :
    dot_S2000x128_S128x128_S2000x128_1_0_0_1_n_n.lhsIdx (ix2 p q)
      ((contrEquiv1 dot_S2000x128_S128x128_S2000x128_1_0_0_1_n_n 128 rfl rfl).symm r) = ix2 p r := by
  have cr := contrEquiv1_symm_val dot_S2000x128_S128x128_S2000x128_1_0_0_1_n_n 128 rfl rfl r
  funext ax; apply Fin.ext
  match ax with
  | ⟨0, _⟩ => simp [DotDims.lhsIdx, dot_S2000x128_S128x128_S2000x128_1_0_0_1_n_n]; rfl
  | ⟨1, _⟩ => simp [DotDims.lhsIdx, dot_S2000x128_S128x128_S2000x128_1_0_0_1_n_n]; exact cr

/-- Its right index there is (r, q). -/
theorem rhs128 (p : Fin 2000) (q : Fin 128) (r : Fin 128) :
    dot_S2000x128_S128x128_S2000x128_1_0_0_1_n_n.rhsIdx (ix2 p q)
      ((contrEquiv1 dot_S2000x128_S128x128_S2000x128_1_0_0_1_n_n 128 rfl rfl).symm r) = ix2 r q := by
  have cr := contrEquiv1_symm_val dot_S2000x128_S128x128_S2000x128_1_0_0_1_n_n 128 rfl rfl r
  funext ax; apply Fin.ext
  match ax with
  | ⟨0, _⟩ => simp [DotDims.rhsIdx, dot_S2000x128_S128x128_S2000x128_1_0_0_1_n_n]; exact cr
  | ⟨1, _⟩ => simp [DotDims.rhsIdx, dot_S2000x128_S128x128_S2000x128_1_0_0_1_n_n]; rfl

/-- The one bias row spread over the 2000 rows of a block reads, at (p, r), the row at r. -/
theorem biasRow_apply (v : FVec Ideal S1x128 .f32) (p : Fin 2000) (r : Fin 128) :
    broadcastTo S2000x128 v broadcasts_S1x128_S2000x128 (ix2 p r) = v (ix2 (0 : Fin 1) r) := by
  refine broadcastTo_apply v broadcasts_S1x128_S2000x128 (ix2 p r) (ix2 (0 : Fin 1) r) fun ax => ?_
  match ax with
  | ⟨0, _⟩ => rfl
  | ⟨1, _⟩ => rfl

/-- The body's stored value at (p, q): the bias row added to the block, the maximum with zero, then (the narrowing
    being the identity over the extended reals) the plain sum over the contracted coordinate against the weights. -/
theorem brLinPay_apply (x0 : FVec Ideal S2000x128 .f32) (x1 : FVec Ideal S1x128 .f32) (x2 : FVec Ideal S128x128 .f32)
    (p : Fin 2000) (q : Fin 128) :
    k2_pay1 (F := Ideal) x0 x1 x2 (ix2 p q)
      = ∑ r : Fin 128, max (x0 (ix2 p r) + x1 (ix2 (0 : Fin 1) r)) 0 * x2 (ix2 r q) := by
  unfold k2_pay1
  show FloatOps.matmul dot_S2000x128_S128x128_S2000x128_1_0_0_1_n_n none
      (truncf .bf16 (maximumf (addf (shapeCast S2000x128 x0 shapeCasts_S2000x128_S2000x128)
          (broadcastTo S2000x128 (shapeCast S1x128 x1 shapeCasts_S1x128_S1x128) broadcasts_S1x128_S2000x128))
        (broadcast S2000x128 (Scalar.ofBits .f32 0x00000000#32))) bitsLt_bf16_f32)
      (truncf .bf16 x2 bitsLt_bf16_f32) (constant S2000x128 .f32 0x00000000#32) (ix2 p q) = _
  rw [Ideal.matmul_constant_zero_apply,
    ← Equiv.sum_comp (contrEquiv1 dot_S2000x128_S128x128_S2000x128_1_0_0_1_n_n 128 rfl rfl).symm]
  refine Finset.sum_congr rfl fun r _ => ?_
  rw [lhs128, rhs128]
  show max (shapeCast S2000x128 x0 shapeCasts_S2000x128_S2000x128 (ix2 p r)
      + broadcastTo S2000x128 (shapeCast S1x128 x1 shapeCasts_S1x128_S1x128) broadcasts_S1x128_S2000x128 (ix2 p r))
      (Ideal.ofBits .f32 0x00000000#32) * x2 (ix2 r q) = _
  rw [shapeCast_self, shapeCast_self, biasRow_apply, Ideal.ofBits_zero_f32]

/-- The printed index maps of region 2, decided over its 50 grid points: the row blocks of the input and of the output
    move with the point, the bias row's and the weight array's one block stay. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- A dense product of clipped biased rows read at (P, q). -/
theorem linF_brF_ix2 (n k c : Nat) (a : (⟨2, ![n, k]⟩ : Shape).Idx → EReal) (b : (⟨2, ![1, k]⟩ : Shape).Idx → EReal)
    (w : (⟨2, ![k, c]⟩ : Shape).Idx → EReal) (P : Fin n) (q : Fin c) :
    linF n k c (brF n k a b) w (ix2 P q) = ∑ r : Fin k, max (a (ix2 P r) + b (ix2 (0 : Fin 1) r)) 0 * w (ix2 r q) := rfl

/-- What point `t` writes back is block `t` of the dense product of the clipped biased input with the weight array:
    row `p` of the block is row `2000 t + p` of the arrays, and the bias row's and the weight array's one block are
    the arrays. -/
theorem flushed2 (c : Dev nD) (t : Fin cfg2.N) :
    (dat2 (F := Ideal) V c).flushed 3 t
      = ((cfg2.win 3).blk t).view.read (Elt Ideal)
          (linF 100000 128 128 (brF 100000 128 (V c main_v48) (V c main_v49)) (V c main_arg5)) := by
  show (cfg2.win 3).cut (grid2.coords t) ((dat2 V c).after 3 t) = _
  rw [after2_3]
  unfold out2_3
  rw [View.canon_unit_zero zeroOff]
  simp only [View.ld_unit_zero (S := S2000x128) zeroOff, View.ld_unit_zero (S := S1x128) zeroOff,
    View.ld_unit_zero (S := S128x128) zeroOff]
  obtain ⟨e0, e1, e2, e3, e4, e5, e6, e7⟩ := idx2 t
  have htN : t.val < 50 := lt_of_lt_of_eq t.isLt N_2
  funext j
  obtain ⟨p, q, rfl⟩ : ∃ (p : Fin 2000) (q : Fin 128), j = ix2 p q := ⟨j 0, j 1, eq_ix2 j⟩
  obtain ⟨P, hP⟩ : ∃ P : Fin 100000, P.val = t.val * 2000 + p.val := ⟨⟨t.val * 2000 + p.val, by omega⟩, rfl⟩
  have hE : ((cfg2.win 3).blk t).view.emb (ix2 p q) = ix2 P q := by
    funext a; apply Fin.ext
    match a with
    | ⟨0, _⟩ => show win2_3.index t (0 : Fin 2) * 2000 + 1 * p.val = P.val; omega
    | ⟨1, _⟩ => show win2_3.index t (1 : Fin 2) * 128 + 1 * q.val = q.val; omega
  show k2_pay1 (F := Ideal) (iblk2 V c 0 t) (iblk2 V c 1 t) (iblk2 V c 2 t) (ix2 p q)
    = linF 100000 128 128 (brF 100000 128 (V c main_v48) (V c main_v49)) (V c main_arg5)
        (((cfg2.win 3).blk t).view.emb (ix2 p q))
  rw [hE, linF_brF_ix2]
  refine (brLinPay_apply _ _ _ p q).trans ?_
  refine Finset.sum_congr rfl fun r _ => ?_
  have h0 : ((cfg2.win 0).blk t).view.emb (ix2 p r) = ix2 P r := by
    funext a; apply Fin.ext
    match a with
    | ⟨0, _⟩ => show win2_0.index t (0 : Fin 2) * 2000 + 1 * p.val = P.val; omega
    | ⟨1, _⟩ => show win2_0.index t (1 : Fin 2) * 128 + 1 * r.val = r.val; omega
  have h1 : ((cfg2.win 1).blk t).view.emb (ix2 (0 : Fin 1) r) = ix2 (0 : Fin 1) r := by
    funext a; apply Fin.ext
    match a with
    | ⟨0, _⟩ => show win2_1.index t (0 : Fin 2) * 1 + 1 * 0 = 0; omega
    | ⟨1, _⟩ => show win2_1.index t (1 : Fin 2) * 128 + 1 * r.val = r.val; omega
  have h2 : ((cfg2.win 2).blk t).view.emb (ix2 r q) = ix2 r q := by
    funext a; apply Fin.ext
    match a with
    | ⟨0, _⟩ => show win2_2.index t (0 : Fin 2) * 128 + 1 * r.val = r.val; omega
    | ⟨1, _⟩ => show win2_2.index t (1 : Fin 2) * 128 + 1 * q.val = q.val; omega
  have a0 : iblk2 V c 0 t (ix2 p r) = V c main_v48 (ix2 P r) := by
    show V c main_v48 (((cfg2.win 0).blk t).view.emb (ix2 p r)) = _
    rw [h0]
  have a1 : iblk2 V c 1 t (ix2 (0 : Fin 1) r) = V c main_v49 (ix2 (0 : Fin 1) r) := by
    show V c main_v49 (((cfg2.win 1).blk t).view.emb (ix2 (0 : Fin 1) r)) = _
    rw [h1]
  have a2 : iblk2 V c 2 t (ix2 r q) = V c main_arg5 (ix2 r q) := by
    show V c main_arg5 (((cfg2.win 2).blk t).view.emb (ix2 r q)) = _
    rw [h2]
  rw [a0, a1, a2]

/-- An index of the output array is in point `t`'s block iff each coordinate is in the block's range on its axis. -/
theorem mem_blk2 (t : Fin cfg2.N) (i : S100000x128.Idx) :
    i ∈ ((cfg2.win 3).blk t).view.set ↔ ∀ a : Fin 2, win2_3.index t a * S2000x128.size a ≤ (i a).val ∧ (i a).val < win2_3.index t a * S2000x128.size a + S2000x128.size a := by
  show i ∈ ((View.whole main_v50).slice (win2_3.rect t)).set ↔ _
  rw [View.set_slice_whole, Rect.mem_set_unit]
  exact Iff.rfl

/-- Every row of the output array is in the block of the point its row number divided by 2000 names. -/
theorem cover2 (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  have ht : (i 0).val / 2000 < cfg2.N := by show (i 0).val / 2000 < 50; omega
  obtain ⟨e0, e1, e2, e3, e4, e5, e6, e7⟩ := idx2 ⟨(i 0).val / 2000, ht⟩
  refine ⟨⟨(i 0).val / 2000, ht⟩, flush2_3 _, ?_⟩
  rw [mem_blk2]
  intro a
  match a with
  | ⟨0, _⟩ =>
    show win2_3.index ⟨(i 0).val / 2000, ht⟩ (0 : Fin 2) * 2000 ≤ (i 0).val ∧ (i 0).val < win2_3.index ⟨(i 0).val / 2000, ht⟩ (0 : Fin 2) * 2000 + 2000
    rw [e6]; show (i 0).val / 2000 * 2000 ≤ (i 0).val ∧ (i 0).val < (i 0).val / 2000 * 2000 + 2000; omega
  | ⟨1, _⟩ =>
    show win2_3.index ⟨(i 0).val / 2000, ht⟩ (1 : Fin 2) * 128 ≤ (i 1).val ∧ (i 1).val < win2_3.index ⟨(i 0).val / 2000, ht⟩ (1 : Fin 2) * 128 + 128
    rw [e7]; omega

/-- Region 2 leaves the dense product of the clipped biased input with the weight array. -/
theorem final2 (c : Dev nD) :
    (dat2 (F := Ideal) V c).arrAt 3 cfg2.N = linF 100000 128 128 (brF 100000 128 (V c main_v48) (V c main_v49)) (V c main_arg5) :=
  (dat2 (F := Ideal) V c).arrAt_eq_of_cover 3 _ (fun t _ => flushed2 V c t) cover2

end Cert.KernelIdeal.RegLin

end
-- ==== Proof.RegMul.lean ====
import proofs.«400860_j54193897341258_1_alg».proof.Proof.Gen.KernelIdeal.Frame
import proofs.«400860_j54193897341258_1_alg».proof.Proof.Spec
import Idealize.ShloMosaic.Lib.Pipeline.Value
import Idealize.ShloMosaic.Lib.ValueIdx
import Idealize.ShloMosaic.Lib.ValueLayout

set_option maxRecDepth 16384

noncomputable section

open scoped BigOperators

namespace Cert.KernelIdeal.RegMul

open Cert.KernelIdeal Cert.KernelIdeal.Gen Cert.GCN Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-! ## Region 1: the first layer's gathered rows times the normalisation column -/

/-- The zero offset of a whole-block access. -/
theorem hz : (![0, 0] : Fin 2 → Nat) = fun _ => 0 := funext fun a => by fin_cases a <;> rfl

/-- The product block at row p, lane q: the row block's entry times the column block's entry of row p. -/
theorem pay1_apply (x0 : Vec Ideal S8192x128 .f32) (x1 : Vec Ideal S8192x1 .f32) (p : Fin 8192) (q : Fin 128) :
    k1_pay1 (F := Ideal) x0 x1 (ix2 p q) = x0 (ix2 p q) * x1 (ix2 p 0) := by
  unfold k1_pay1
  show (shapeCast S8192x128 x0 shapeCasts_S8192x128_S8192x128) (ix2 p q) * (broadcastTo S8192x128 (shapeCast S8192x1 x1 shapeCasts_S8192x1_S8192x1) broadcasts_S8192x1_S8192x128) (ix2 p q) = _
  rw [shapeCast_self, shapeCast_self]
  refine congrArg (fun z => x0 (ix2 p q) * z) ?_
  refine broadcastTo_apply x1 broadcasts_S8192x1_S8192x128 (ix2 p q) (ix2 p 0) (fun a => ?_)
  match a with
  | ⟨0, _⟩ => rfl
  | ⟨1, _⟩ => rfl

/-- A block entry of the product is the whole-array product's entry, once the two blocks' entries are the arrays'. -/
theorem pay1_block (x0 : Vec Ideal S8192x128 .f32) (x1 : Vec Ideal S8192x1 .f32)
    (g : S1703936x128.Idx → EReal) (s : S1703936x1.Idx → EReal) (y : S8192x128.Idx) (i : S1703936x128.Idx)
    (h0 : x0 y = g i) (h1 : x1 (ix2 (y 0) 0) = s (ix2 (i 0) 0)) :
    k1_pay1 (F := Ideal) x0 x1 y = mulColF 1703936 128 g s i := by
  obtain ⟨p, q, rfl⟩ : ∃ (p : Fin 8192) (q : Fin 128), y = ix2 p q := ⟨y 0, y 1, eq_ix2 y⟩
  exact (pay1_apply x0 x1 p q).trans (congrArg₂ (fun a b : EReal => a * b) h0 h1)

theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

theorem flushed1_eq (c : Dev nD) (t : Fin cfg1.N) :
    (dat1 (F := Ideal) V c).flushed 2 t = ((cfg1.win 2).blk t).view.read (Elt Ideal) (mulColF 1703936 128 (V c main_v44) (V c main_v36)) := by
  show (cfg1.win 2).cut (grid1.coords t) ((dat1 (F := Ideal) V c).after 2 t) = _
  rw [after1_2]
  unfold out1_2
  rw [View.canon_unit_zero hz]
  simp only [View.ld_unit_zero (S := S8192x128) hz, View.ld_unit_zero (S := S8192x1) hz]
  obtain ⟨e0, e1, e2, e3, e4, e5⟩ := idx_facts1 t
  funext j
  show k1_pay1 (F := Ideal) (iblk1 V c 0 t) (iblk1 V c 1 t) j = mulColF 1703936 128 (V c main_v44) (V c main_v36) (((cfg1.win 2).blk t).view.emb j)
  refine pay1_block (iblk1 V c 0 t) (iblk1 V c 1 t) (V c main_v44) (V c main_v36) j (((cfg1.win 2).blk t).view.emb j) ?_ ?_
  · show V c main_v44 (((cfg1.win 0).blk t).view.emb j) = V c main_v44 (((cfg1.win 2).blk t).view.emb j)
    refine congrArg (V c main_v44) (funext fun a => Fin.ext ?_)
    match a with
    | ⟨0, _⟩ => show win1_0.index t (0 : Fin 2) * 8192 + 1 * (j 0).val = win1_2.index t (0 : Fin 2) * 8192 + 1 * (j 0).val; omega
    | ⟨1, _⟩ => show win1_0.index t (1 : Fin 2) * 128 + 1 * (j 1).val = win1_2.index t (1 : Fin 2) * 128 + 1 * (j 1).val; omega
  · show V c main_v36 (((cfg1.win 1).blk t).view.emb (ix2 (j 0) 0)) = V c main_v36 (ix2 (((cfg1.win 2).blk t).view.emb j 0) 0)
    refine congrArg (V c main_v36) (funext fun a => Fin.ext ?_)
    match a with
    | ⟨0, _⟩ => show win1_1.index t (0 : Fin 2) * 8192 + 1 * (j 0).val = win1_2.index t (0 : Fin 2) * 8192 + 1 * (j 0).val; omega
    | ⟨1, _⟩ => show win1_1.index t (1 : Fin 2) * 1 + 1 * 0 = 0; omega

/-- An index of the array is in point t's block iff each coordinate is in the block's range on its axis. -/
theorem mem_blk1 (t : Fin cfg1.N) (i : S1703936x128.Idx) :
    i ∈ ((cfg1.win 2).blk t).view.set ↔ ∀ a : Fin 2, win1_2.index t a * S8192x128.size a ≤ (i a).val ∧ (i a).val < win1_2.index t a * S8192x128.size a + S8192x128.size a := by
  show i ∈ ((View.whole main_v45).slice (win1_2.rect t)).set ↔ _
  rw [View.set_slice_whole, Rect.mem_set_unit]
  exact Iff.rfl

/-- Row r of the array lies in the block of point r / 8192: the 208 blocks of 8192 rows tile the 1703936 rows. -/
theorem cover1 (i : S1703936x128.Idx) : ∃ t : Fin cfg1.N, (cfg1.win 2).flush t = true ∧ i ∈ ((cfg1.win 2).blk t).view.set := by
  have hi0 : (i 0).val < 1703936 := (i 0).isLt
  have hi1 : (i 1).val < 128 := (i 1).isLt
  have hN : cfg1.N = 208 := by decide
  let t : Fin cfg1.N := ⟨(i 0).val / 8192, by rw [hN]; omega⟩
  obtain ⟨e0, e1, e2, e3, e4, e5⟩ := idx_facts1 t
  have ht : t.val = (i 0).val / 8192 := rfl
  refine ⟨t, flush1_2 t, ?_⟩
  rw [mem_blk1]
  intro a
  match a with
  | ⟨0, _⟩ => show win1_2.index t (0 : Fin 2) * 8192 ≤ (i 0).val ∧ (i 0).val < win1_2.index t (0 : Fin 2) * 8192 + 8192; omega
  | ⟨1, _⟩ => show win1_2.index t (1 : Fin 2) * 128 ≤ (i 1).val ∧ (i 1).val < win1_2.index t (1 : Fin 2) * 128 + 128; omega

/-- Region 1 leaves every gathered row scaled by its entry of the normalisation column. -/
theorem final1 (c : Dev nD) :
    (dat1 (F := Ideal) V c).arrAt 2 cfg1.N = mulColF 1703936 128 (V c main_v44) (V c main_v36) :=
  (dat1 (F := Ideal) V c).arrAt_eq_of_cover 2 (mulColF 1703936 128 (V c main_v44) (V c main_v36))
    (fun t _ => flushed1_eq V c t) cover1

/-! ## Region 3: the second layer's gathered rows times the same column -/

/-- The product block at row p, lane q: the row block's entry times the column block's entry of row p. -/
theorem pay3_apply (x0 : Vec Ideal S8192x128 .f32) (x1 : Vec Ideal S8192x1 .f32) (p : Fin 8192) (q : Fin 128) :
    k3_pay1 (F := Ideal) x0 x1 (ix2 p q) = x0 (ix2 p q) * x1 (ix2 p 0) := by
  unfold k3_pay1
  show (shapeCast S8192x128 x0 shapeCasts_S8192x128_S8192x128) (ix2 p q) * (broadcastTo S8192x128 (shapeCast S8192x1 x1 shapeCasts_S8192x1_S8192x1) broadcasts_S8192x1_S8192x128) (ix2 p q) = _
  rw [shapeCast_self, shapeCast_self]
  refine congrArg (fun z => x0 (ix2 p q) * z) ?_
  refine broadcastTo_apply x1 broadcasts_S8192x1_S8192x128 (ix2 p q) (ix2 p 0) (fun a => ?_)
  match a with
  | ⟨0, _⟩ => rfl
  | ⟨1, _⟩ => rfl

/-- A block entry of the product is the whole-array product's entry, once the two blocks' entries are the arrays'. -/
theorem pay3_block (x0 : Vec Ideal S8192x128 .f32) (x1 : Vec Ideal S8192x1 .f32)
    (g : S1703936x128.Idx → EReal) (s : S1703936x1.Idx → EReal) (y : S8192x128.Idx) (i : S1703936x128.Idx)
    (h0 : x0 y = g i) (h1 : x1 (ix2 (y 0) 0) = s (ix2 (i 0) 0)) :
    k3_pay1 (F := Ideal) x0 x1 y = mulColF 1703936 128 g s i := by
  obtain ⟨p, q, rfl⟩ : ∃ (p : Fin 8192) (q : Fin 128), y = ix2 p q := ⟨y 0, y 1, eq_ix2 y⟩
  exact (pay3_apply x0 x1 p q).trans (congrArg₂ (fun a b : EReal => a * b) h0 h1)

theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

theorem flushed3_eq (c : Dev nD) (t : Fin cfg3.N) :
    (dat3 (F := Ideal) V c).flushed 2 t = ((cfg3.win 2).blk t).view.read (Elt Ideal) (mulColF 1703936 128 (V c main_v57) (V c main_v36)) := by
  show (cfg3.win 2).cut (grid3.coords t) ((dat3 (F := Ideal) V c).after 2 t) = _
  rw [after3_2]
  unfold out3_2
  rw [View.canon_unit_zero hz]
  simp only [View.ld_unit_zero (S := S8192x128) hz, View.ld_unit_zero (S := S8192x1) hz]
  obtain ⟨e0, e1, e2, e3, e4, e5⟩ := idx_facts3 t
  funext j
  show k3_pay1 (F := Ideal) (iblk3 V c 0 t) (iblk3 V c 1 t) j = mulColF 1703936 128 (V c main_v57) (V c main_v36) (((cfg3.win 2).blk t).view.emb j)
  refine pay3_block (iblk3 V c 0 t) (iblk3 V c 1 t) (V c main_v57) (V c main_v36) j (((cfg3.win 2).blk t).view.emb j) ?_ ?_
  · show V c main_v57 (((cfg3.win 0).blk t).view.emb j) = V c main_v57 (((cfg3.win 2).blk t).view.emb j)
    refine congrArg (V c main_v57) (funext fun a => Fin.ext ?_)
    match a with
    | ⟨0, _⟩ => show win3_0.index t (0 : Fin 2) * 8192 + 1 * (j 0).val = win3_2.index t (0 : Fin 2) * 8192 + 1 * (j 0).val; omega
    | ⟨1, _⟩ => show win3_0.index t (1 : Fin 2) * 128 + 1 * (j 1).val = win3_2.index t (1 : Fin 2) * 128 + 1 * (j 1).val; omega
  · show V c main_v36 (((cfg3.win 1).blk t).view.emb (ix2 (j 0) 0)) = V c main_v36 (ix2 (((cfg3.win 2).blk t).view.emb j 0) 0)
    refine congrArg (V c main_v36) (funext fun a => Fin.ext ?_)
    match a with
    | ⟨0, _⟩ => show win3_1.index t (0 : Fin 2) * 8192 + 1 * (j 0).val = win3_2.index t (0 : Fin 2) * 8192 + 1 * (j 0).val; omega
    | ⟨1, _⟩ => show win3_1.index t (1 : Fin 2) * 1 + 1 * 0 = 0; omega

/-- An index of the array is in point t's block iff each coordinate is in the block's range on its axis. -/
theorem mem_blk3 (t : Fin cfg3.N) (i : S1703936x128.Idx) :
    i ∈ ((cfg3.win 2).blk t).view.set ↔ ∀ a : Fin 2, win3_2.index t a * S8192x128.size a ≤ (i a).val ∧ (i a).val < win3_2.index t a * S8192x128.size a + S8192x128.size a := by
  show i ∈ ((View.whole main_v58).slice (win3_2.rect t)).set ↔ _
  rw [View.set_slice_whole, Rect.mem_set_unit]
  exact Iff.rfl

/-- Row r of the array lies in the block of point r / 8192: the 208 blocks of 8192 rows tile the 1703936 rows. -/
theorem cover3 (i : S1703936x128.Idx) : ∃ t : Fin cfg3.N, (cfg3.win 2).flush t = true ∧ i ∈ ((cfg3.win 2).blk t).view.set := by
  have hi0 : (i 0).val < 1703936 := (i 0).isLt
  have hi1 : (i 1).val < 128 := (i 1).isLt
  have hN : cfg3.N = 208 := by decide
  let t : Fin cfg3.N := ⟨(i 0).val / 8192, by rw [hN]; omega⟩
  obtain ⟨e0, e1, e2, e3, e4, e5⟩ := idx_facts3 t
  have ht : t.val = (i 0).val / 8192 := rfl
  refine ⟨t, flush3_2 t, ?_⟩
  rw [mem_blk3]
  intro a
  match a with
  | ⟨0, _⟩ => show win3_2.index t (0 : Fin 2) * 8192 ≤ (i 0).val ∧ (i 0).val < win3_2.index t (0 : Fin 2) * 8192 + 8192; omega
  | ⟨1, _⟩ => show win3_2.index t (1 : Fin 2) * 128 ≤ (i 1).val ∧ (i 1).val < win3_2.index t (1 : Fin 2) * 128 + 128; omega

/-- Region 3 does the same for the second layer's gathered rows. -/
theorem final3 (c : Dev nD) :
    (dat3 (F := Ideal) V c).arrAt 2 cfg3.N = mulColF 1703936 128 (V c main_v57) (V c main_v36) :=
  (dat3 (F := Ideal) V c).arrAt_eq_of_cover 2 (mulColF 1703936 128 (V c main_v57) (V c main_v36))
    (fun t _ => flushed3_eq V c t) cover3

end Cert.KernelIdeal.RegMul

end
-- ==== Proof.PoolPay.lean ====
import proofs.«400860_j54193897341258_1_alg».proof.Proof.Gen.KernelIdeal.Skeleton
import proofs.«400860_j54193897341258_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

/-! The pooling body's two stored values over the extended reals, read at an index. -/
namespace Cert.KernelIdeal.PoolPay

open Cert.KernelIdeal Cert.KernelIdeal.Gen Cert.GCN Idealize.ShloMosaic Idealize.ShloMosaic.ValueIdx

/-- The reset stores zero everywhere. -/
theorem pay_reset (g : Fin 64) (c : Fin 128) : k4_pay1 (F := Ideal) (ix2 g c) = 0 := by
  unfold k4_pay1
  exact Ideal.ofBits_zero_f32

/-! ### The pooling product's operand indices, axis by axis -/

/-- The left operand's contracted axis reads the contraction position. -/
theorem lhs_pool_0 (j : S64x128.Idx) (k : dot_S2000x64_S2000x128_S64x128_0_0_1_1_n_n.contr.Idx) :
    (dot_S2000x64_S2000x128_S64x128_0_0_1_1_n_n.lhsIdx j k 0 : ℕ) = k ⟨0, by decide⟩ :=
  dot_S2000x64_S2000x128_S64x128_0_0_1_1_n_n.lhsIdx_val_of_single (cl := 0) rfl j k
/-- The left operand's kept axis reads the result's row. -/
theorem lhs_pool_1 (j : S64x128.Idx) (k : dot_S2000x64_S2000x128_S64x128_0_0_1_1_n_n.contr.Idx) :
    (dot_S2000x64_S2000x128_S64x128_0_0_1_1_n_n.lhsIdx j k 1 : ℕ) = j 0 := by
  simp [DotDims.lhsIdx, dot_S2000x64_S2000x128_S64x128_0_0_1_1_n_n]; rfl
/-- The right operand's contracted axis reads the contraction position. -/
theorem rhs_pool_0 (j : S64x128.Idx) (k : dot_S2000x64_S2000x128_S64x128_0_0_1_1_n_n.contr.Idx) :
    (dot_S2000x64_S2000x128_S64x128_0_0_1_1_n_n.rhsIdx j k 0 : ℕ) = k ⟨0, by decide⟩ :=
  dot_S2000x64_S2000x128_S64x128_0_0_1_1_n_n.rhsIdx_val_of_single (cr := 0) rfl j k
/-- The right operand's kept axis reads the result's column. -/
theorem rhs_pool_1 (j : S64x128.Idx) (k : dot_S2000x64_S2000x128_S64x128_0_0_1_1_n_n.contr.Idx) :
    (dot_S2000x64_S2000x128_S64x128_0_0_1_1_n_n.rhsIdx j k 1 : ℕ) = j 1 := by
  simp [DotDims.rhsIdx, dot_S2000x64_S2000x128_S64x128_0_0_1_1_n_n]; rfl

/-- The pooling product onto the zero splat, read at (g, c): the sum over the block's rows of the products. -/
theorem matmul_pool (L : FVec Ideal S2000x64 .bf16) (R : FVec Ideal S2000x128 .bf16) (g : Fin 64) (c : Fin 128) :
    matmul dot_S2000x64_S2000x128_S64x128_0_0_1_1_n_n none L R (constant S64x128 .f32 0x00000000#32) (ix2 g c)
      = ∑ p : Fin 2000, L (ix2 p g) * R (ix2 p c) := by
  refine (Ideal.matmul_constant_zero_apply _ none L R (ix2 g c)).trans ?_
  rw [← Equiv.sum_comp (contrEquiv1 dot_S2000x64_S2000x128_S64x128_0_0_1_1_n_n 2000 rfl rfl).symm]
  refine Finset.sum_congr rfl fun p _ => ?_
  have hk := contrEquiv1_symm_val dot_S2000x64_S2000x128_S64x128_0_0_1_1_n_n 2000 rfl rfl p
  congr 2
  · refine Shape.idx_ext₂ ?_ ?_
    · exact (lhs_pool_0 _ _).trans hk
    · exact lhs_pool_1 _ _
  · refine Shape.idx_ext₂ ?_ ?_
    · exact (rhs_pool_0 _ _).trans hk
    · exact rhs_pool_1 _ _

/-! ### The two operands of the pooling product, read at an index -/

/-- The word of "the two id words are equal", widened and read as a signed number: one or zero. -/
theorem member_word (a b : BitVec 32) :
    (FloatOps.sitofp (F := Ideal) .f32 ((IntOp.cmpi .eq a b).setWidth 32) : EReal) = if a = b then 1 else 0 := by
  show (((((IntOp.cmpi .eq a b).setWidth 32).toInt : ℝ)) : EReal) = _
  by_cases h : a = b
  · have hb : IntOp.cmpi .eq a b = 1#1 := by subst h; simp [IntOp.cmpi]
    rw [hb, if_pos h]
    have : ((1#1 : BitVec 1).setWidth 32).toInt = 1 := by decide
    rw [this]; simp
  · have hb : IntOp.cmpi .eq a b = 0#1 := by
      have hne : (a == b) = false := beq_eq_false_iff_ne.mpr h
      simp [IntOp.cmpi, hne]
    rw [hb, if_neg h]
    have : ((0#1 : BitVec 1).setWidth 32).toInt = 0 := by decide
    rw [this]; simp

/-- A column [2000, 1] broadcast over 64 lanes reads, at (p, g), the column's row p. -/
theorem broadcastTo_col_apply {α : Type} (v : S2000x1.Idx → α) (h : S2000x1.Broadcasts S2000x64) (p : Fin 2000) (g : Fin 64) :
    broadcastTo S2000x64 v h (ix2 p g) = v (ix2 p (0 : Fin 1)) := by
  refine broadcastTo_apply v h (ix2 p g) (ix2 p (0 : Fin 1)) fun ax => ?_
  match ax with
  | ⟨0, _⟩ => rfl
  | ⟨1, _⟩ => rfl

/-- The 0/1 membership matrix at (p, g): node p's id word against the word of g. -/
theorem member_apply (x2 : Vec Ideal S2000x1 .i32) (p : Fin 2000) (g : Fin 64) :
    (truncf .bf16 (sitofp (F := Ideal) .f32 (extui 32 (cmpi .eq (broadcastTo S2000x64 (shapeCast S2000x1 x2 shapeCasts_S2000x1_S2000x1) broadcasts_S2000x1_S2000x64)
        (iota .tc S2000x64 32 [1] iota_S2000x64_d1_w32)) natLt_1_32)) bitsLt_bf16_f32 : FVec Ideal S2000x64 .bf16) (ix2 p g)
      = if x2 (ix2 p 0) = BitVec.ofNat 32 g.val then (1 : EReal) else 0 := by
  rw [truncf_apply, sitofp_apply, extui_apply]
  show FloatOps.sitofp (F := Ideal) .f32 ((IntOp.cmpi .eq (broadcastTo S2000x64 (shapeCast S2000x1 x2 shapeCasts_S2000x1_S2000x1) broadcasts_S2000x1_S2000x64 (ix2 p g))
    (iota .tc S2000x64 32 [1] iota_S2000x64_d1_w32 (ix2 p g))).setWidth 32) = _
  rw [broadcastTo_col_apply, shapeCast_self, iota_single_apply, member_word]

/-- The clipped biased block at (p, c). -/
theorem clip_apply (x0 : Vec Ideal S2000x128 .f32) (x1 : Vec Ideal S1x128 .f32) (p : Fin 2000) (c : Fin 128) :
    (truncf .bf16 (maximumf (addf (shapeCast S2000x128 x0 shapeCasts_S2000x128_S2000x128)
        (broadcastTo S2000x128 (shapeCast S1x128 x1 shapeCasts_S1x128_S1x128) broadcasts_S1x128_S2000x128))
        (broadcast S2000x128 (Scalar.ofBits (F := Ideal) .f32 0x00000000#32))) bitsLt_bf16_f32 : FVec Ideal S2000x128 .bf16) (ix2 p c)
      = max (x0 (ix2 p c) + x1 (ix2 0 c)) 0 := by
  rw [truncf_apply, maximumf_apply, addf_apply, broadcast_apply, shapeCast_self, shapeCast_self, broadcastTo_1b_ab_apply]
  show max (x0 (ix2 p c) + x1 (ix2 0 c)) (Ideal.ofBits .f32 0x00000000#32) = _
  rw [Ideal.ofBits_zero_f32]

/-- The update adds, to what the accumulator held, the product of the 0/1 membership matrix (node `p` of the block
    belongs to graph `g`: its id word is the word of `g`) with the clipped biased block. -/
theorem pay_update (x0 : Vec Ideal S2000x128 .f32) (x1 : Vec Ideal S1x128 .f32) (x2 : Vec Ideal S2000x1 .i32)
    (acc : Vec Ideal S64x128 .f32) (g : Fin 64) (c : Fin 128) :
    k4_pay2 (F := Ideal) x0 x1 x2 acc (ix2 g c)
      = acc (ix2 g c) + ∑ p : Fin 2000, (if x2 (ix2 p 0) = BitVec.ofNat 32 g.val then (1 : EReal) else 0) * max (x0 (ix2 p c) + x1 (ix2 0 c)) 0 := by
  unfold k4_pay2
  refine (addf_apply _ _ (ix2 g c)).trans ?_
  rw [shapeCast_self, matmul_pool]
  refine congrArg (acc (ix2 g c) + ·) (Finset.sum_congr rfl fun p _ => ?_)
  rw [member_apply, clip_apply]

end Cert.KernelIdeal.PoolPay

end
-- ==== Proof.RegPool.lean ====
import proofs.«400860_j54193897341258_1_alg».proof.Proof.Gen.KernelIdeal.Frame
import proofs.«400860_j54193897341258_1_alg».proof.Proof.Spec
import proofs.«400860_j54193897341258_1_alg».proof.Proof.PoolPay
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open scoped BigOperators

namespace Cert.KernelIdeal.RegPool

open Cert.KernelIdeal Cert.KernelIdeal.Gen Cert.GCN Idealize.ShloMosaic Idealize.ShloMosaic.TcCoe Idealize.ShloMosaic.ValueIdx
open Idealize.ShloMosaic.Pipeline (Dat Cfg Window)

/-! ## What the two control cases leave in the accumulator's staging buffer -/
section Pieces
variable {F : FTy → Type} [FloatOps F]

theorem hz : (![0, 0] : Fin 2 → Nat) = fun _ => 0 := funext fun a => by fin_cases a <;> rfl

/-- Every point but the first: the one covering store holds the update of the buffer's running contents by the three
    input blocks. -/
theorem out_B (c : Dev nD) (i : grid4.Coords) (a1 : Memref sig .tc .vmem S2000x128 .f32) (h1 : a1.IsWhole)
    (a2 : Memref sig .tc .vmem S1x128 .f32) (h2 : a2.IsWhole) (a3 : Memref sig .tc .vmem S2000x1 .i32) (h3 : a3.IsWhole)
    (a4 : Memref sig .tc .vmem S64x128 .f32) (h4 : a4.IsWhole) (hc : ¬cond4_0 i)
    (x0 : Vec F S2000x128 .f32) (x1 : Vec F S1x128 .f32) (x2 : Vec F S2000x1 .i32) (xo : Vec F S64x128 .f32) :
    out4_B_3 c i a1 h1 a2 h2 a3 h3 a4 h4 hc x0 x1 x2 xo = k4_pay2 x0 x1 x2 xo := by
  unfold out4_B_3
  rw [View.read_writes_eq_canon _ _ _ (cover4_B_3 c i a1 h1 a2 h2 a3 h3 a4 h4 hc x0 x1 x2 xo)]
  unfold kernelRun4_B
  dsimp only
  sl_unfold_words
  rw [View.canon_unit_zero hz]
  simp only [View.readAt_eq_ld, h1.read_unread, h2.read_unread, h3.read_unread, h4.read_unread,
    View.ld_unit_zero (S := S2000x128) hz, View.ld_unit_zero (S := S1x128) hz, View.ld_unit_zero (S := S2000x1) hz,
    View.ld_unit_zero (S := S64x128) hz]

/-- The first point: the reset's store is read back by the update, whose store covers it. -/
theorem out_A (c : Dev nD) (i : grid4.Coords) (a1 : Memref sig .tc .vmem S2000x128 .f32) (h1 : a1.IsWhole)
    (a2 : Memref sig .tc .vmem S1x128 .f32) (h2 : a2.IsWhole) (a3 : Memref sig .tc .vmem S2000x1 .i32) (h3 : a3.IsWhole)
    (a4 : Memref sig .tc .vmem S64x128 .f32) (h4 : a4.IsWhole) (hc : cond4_0 i)
    (x0 : Vec F S2000x128 .f32) (x1 : Vec F S1x128 .f32) (x2 : Vec F S2000x1 .i32) :
    out4_A_3 c i a1 h1 a2 h2 a3 h3 a4 h4 hc x0 x1 x2 = k4_pay2 x0 x1 x2 (k4_pay1 (F := F)) := by
  unfold out4_A_3
  rw [View.read_writes_eq_canon _ _ _ (cover4_A_3 c i a1 h1 a2 h2 a3 h3 a4 h4 hc x0 x1 x2)]
  unfold kernelRun4_A
  dsimp only
  sl_unfold_words
  rw [View.canon_cons_unit_zero (S := S64x128) hz, View.readCov_unit_zero (S := S64x128) _ hz]
  simp only [View.readAt_eq_ld, h1.read_unread, h2.read_unread, h3.read_unread,
    View.ld_unit_zero (S := S2000x128) hz, View.ld_unit_zero (S := S1x128) hz, View.ld_unit_zero (S := S2000x1) hz]
end Pieces

variable (V : (c : Dev nD) → (b : Ref sig .tc) → Buf (Elt Ideal) ((c : Thread nD τ).loc b))

/-! ## The input blocks as rows of their arrays -/

/-- The three arrays the region reads, at their literal types. -/
abbrev aarr (c : Dev nD) : Vec Ideal S100000x128 .f32 := V c main_v61
abbrev barr (c : Dev nD) : Vec Ideal S1x128 .f32 := V c main_v62
abbrev garr (c : Dev nD) : Vec Ideal S100000x1 .i32 := V c main_v63
/-- The three input blocks at a point, at their literal types. -/
abbrev ablk (c : Dev nD) (t : Fin cfg4.N) : Vec Ideal S2000x128 .f32 := iblk4 V c 0 t
abbrev bblk (c : Dev nD) (t : Fin cfg4.N) : Vec Ideal S1x128 .f32 := iblk4 V c 1 t
abbrev gblk (c : Dev nD) (t : Fin cfg4.N) : Vec Ideal S2000x1 .i32 := iblk4 V c 2 t

/-- Node `p` of the block of point `s` is node `2000 s + p` of the graph batch. -/
def node (s : Nat) (p : Fin 2000) : Fin 100000 := ⟨(2000 * s + p.val) % 100000, Nat.mod_lt _ (by decide)⟩

theorem idx4_0 : ∀ t : Fin cfg4.N, win4_0.index t 0 = t.val ∧ win4_0.index t 1 = 0 :=
  (by decide +kernel : ∀ t : Fin grid4.N, win4_0.index t 0 = t.val ∧ win4_0.index t 1 = 0)
theorem idx4_1 : ∀ t : Fin cfg4.N, win4_1.index t 0 = 0 ∧ win4_1.index t 1 = 0 :=
  (by decide +kernel : ∀ t : Fin grid4.N, win4_1.index t 0 = 0 ∧ win4_1.index t 1 = 0)
theorem idx4_2 : ∀ t : Fin cfg4.N, win4_2.index t 0 = t.val ∧ win4_2.index t 1 = 0 :=
  (by decide +kernel : ∀ t : Fin grid4.N, win4_2.index t 0 = t.val ∧ win4_2.index t 1 = 0)

theorem ablk_apply (c : Dev nD) (t : Fin cfg4.N) (p : Fin 2000) (q : Fin 128) :
    ablk V c t (ix2 p q) = aarr V c (ix2 (node t.val p) q) := by
  have hN : t.val < 50 := lt_of_lt_of_eq t.isLt (show cfg4.N = 50 from N_4)
  unfold ablk aarr iblk4
  rw [View.read_apply]
  show V c main_v61 _ = V c main_v61 _
  congr 1
  funext a
  apply Fin.ext
  match a with
  | ⟨0, _⟩ => show win4_0.index t 0 * 2000 + 1 * p.val = (2000 * t.val + p.val) % 100000; rw [(idx4_0 t).1]; have := p.isLt; omega
  | ⟨1, _⟩ => show win4_0.index t 1 * 128 + 1 * q.val = q.val; rw [(idx4_0 t).2]; omega

theorem bblk_apply (c : Dev nD) (t : Fin cfg4.N) (q : Fin 128) :
    bblk V c t (ix2 0 q) = barr V c (ix2 0 q) := by
  unfold bblk barr iblk4
  rw [View.read_apply]
  show V c main_v62 _ = V c main_v62 _
  congr 1
  funext a
  apply Fin.ext
  match a with
  | ⟨0, _⟩ => show win4_1.index t 0 * 1 + 1 * 0 = 0; rw [(idx4_1 t).1]
  | ⟨1, _⟩ => show win4_1.index t 1 * 128 + 1 * q.val = q.val; rw [(idx4_1 t).2]; omega

theorem gblk_apply (c : Dev nD) (t : Fin cfg4.N) (p : Fin 2000) :
    gblk V c t (ix2 p 0) = garr V c (ix2 (node t.val p) 0) := by
  have hN : t.val < 50 := lt_of_lt_of_eq t.isLt (show cfg4.N = 50 from N_4)
  unfold gblk garr iblk4
  rw [View.read_apply]
  show V c main_v63 _ = V c main_v63 _
  congr 1
  funext a
  apply Fin.ext
  match a with
  | ⟨0, _⟩ => show win4_2.index t 0 * 2000 + 1 * p.val = (2000 * t.val + p.val) % 100000; rw [(idx4_2 t).1]; have := p.isLt; omega
  | ⟨1, _⟩ => show win4_2.index t 1 * 1 + 1 * 0 = 0; rw [(idx4_2 t).2]

/-! ## The running contents of the accumulator -/

/-- What the block of point `s` adds at graph `g`, feature `q`: its nodes of that graph, their clipped biased features. -/
def addend (c : Dev nD) (s : Nat) (g : Fin 64) (q : Fin 128) : EReal :=
  ∑ p : Fin 2000, (if garr V c (ix2 (node s p) 0) = BitVec.ofNat 32 g.val then (1 : EReal) else 0)
    * max (aarr V c (ix2 (node s p) q) + barr V c (ix2 0 q)) 0

/-- The update at a point, over the arrays: the accumulator's entry plus the point's part. -/
theorem pay_blocks (c : Dev nD) (t : Fin cfg4.N) (acc : Vec Ideal S64x128 .f32) (g : Fin 64) (q : Fin 128) :
    k4_pay2 (F := Ideal) (ablk V c t) (bblk V c t) (gblk V c t) acc (ix2 g q) = acc (ix2 g q) + addend V c t.val g q := by
  refine (PoolPay.pay_update (ablk V c t) (bblk V c t) (gblk V c t) acc g q).trans ?_
  unfold addend
  refine congrArg (fun z => acc (ix2 g q) + z) (Finset.sum_congr rfl fun p _ => ?_)
  rw [ablk_apply V c t p q, bblk_apply V c t q, gblk_apply V c t p]

/-- After point `n` the accumulator holds the parts of the points up to `n`: the first point starts from the reset's
    zero, every later one adds to what the point before left. -/
theorem outsAt_eq (c : Dev nD) : ∀ (n : ℕ) (hn : n < cfg4.N) (g : Fin 64) (q : Fin 128),
    outsAt4 V c n hn (ix2 g q) = ∑ s ∈ Finset.range (n + 1), addend V c s g q
  | 0, hn, g, q => by
    rw [outsAt4_A V c ⟨0, hn⟩ rfl]
    refine (congrFun (out_A (F := Ideal) c (grid4.coords ⟨0, hn⟩) (ms4_0 ⟨0, hn⟩) (hs4_0 ⟨0, hn⟩) (ms4_1 ⟨0, hn⟩) (hs4_1 ⟨0, hn⟩)
      (ms4_2 ⟨0, hn⟩) (hs4_2 ⟨0, hn⟩) (ms4_3 ⟨0, hn⟩) (hs4_3 ⟨0, hn⟩) ((hcond4_0 ⟨0, hn⟩).mpr rfl)
      (ablk V c ⟨0, hn⟩) (bblk V c ⟨0, hn⟩) (gblk V c ⟨0, hn⟩)) (ix2 g q)).trans ?_
    rw [pay_blocks V c ⟨0, hn⟩ (k4_pay1 (F := Ideal)) g q, PoolPay.pay_reset g q, zero_add, Finset.sum_range_one]
  | n + 1, hn, g, q => by
    have hN : cfg4.N = 50 := N_4
    have hB : ¬(⟨n + 1, hn⟩ : Fin cfg4.N).val % 50 = 0 := by dsimp only; omega
    rw [outsAt4_B V c ⟨n + 1, hn⟩ hB]
    refine (congrFun (out_B (F := Ideal) c (grid4.coords ⟨n + 1, hn⟩) (ms4_0 ⟨n + 1, hn⟩) (hs4_0 ⟨n + 1, hn⟩) (ms4_1 ⟨n + 1, hn⟩) (hs4_1 ⟨n + 1, hn⟩)
      (ms4_2 ⟨n + 1, hn⟩) (hs4_2 ⟨n + 1, hn⟩) (ms4_3 ⟨n + 1, hn⟩) (hs4_3 ⟨n + 1, hn⟩) (fun h => hB ((hcond4_0 ⟨n + 1, hn⟩).mp h))
      (ablk V c ⟨n + 1, hn⟩) (bblk V c ⟨n + 1, hn⟩) (gblk V c ⟨n + 1, hn⟩)
      (outsAt4 V c ((⟨n + 1, hn⟩ : Fin cfg4.N).val - 1) (Nat.lt_of_le_of_lt (Nat.sub_le _ _) (⟨n + 1, hn⟩ : Fin cfg4.N).isLt))) (ix2 g q)).trans ?_
    rw [pay_blocks V c ⟨n + 1, hn⟩ _ g q, Finset.sum_range_succ _ (n + 1)]
    exact congrArg (fun z => z + addend V c (n + 1) g q) (outsAt_eq c n (Nat.lt_of_succ_lt hn) g q)

/-! ## All fifty blocks: every node once -/

/-- Summing over the points and over each block's nodes is summing over all nodes: node `2000 s + p` is met once. -/
theorem sum_nodes (f : Fin 100000 → EReal) :
    ∑ s ∈ Finset.range 50, ∑ p : Fin 2000, f (node s p) = ∑ r : Fin 100000, f r := by
  have e : ∑ r : Fin 100000, f r = ∑ x : Fin 50 × Fin 2000, f (finProdFinEquiv x) :=
    (Equiv.sum_comp (finProdFinEquiv (m := 50) (n := 2000)) f).symm
  rw [e, Fintype.sum_prod_type, ← Fin.sum_univ_eq_sum_range (fun s => ∑ p : Fin 2000, f (node s p)) 50]
  refine Finset.sum_congr rfl fun t _ => Finset.sum_congr rfl fun p _ => congrArg f (Fin.ext ?_)
  show (2000 * t.val + p.val) % 100000 = p.val + 2000 * t.val
  have := t.isLt; have := p.isLt; omega

theorem lt49 : 49 < cfg4.N := by rw [show cfg4.N = 50 from N_4]; decide

/-- After the last point the accumulator holds the pooled sums. -/
theorem last_eq (c : Dev nD) :
    outsAt4 V c 49 lt49 = poolF 100000 64 128 (V c main_v61) (V c main_v62) (V c main_v63) := by
  funext i
  obtain ⟨g, q, rfl⟩ : ∃ g q, i = ix2 g q := ⟨i 0, i 1, eq_ix2 i⟩
  rw [outsAt_eq V c 49 lt49 g q]
  unfold addend
  exact sum_nodes (fun r => (if garr V c (ix2 r 0) = BitVec.ofNat 32 g.val then (1 : EReal) else 0)
    * max (aarr V c (ix2 r q) + barr V c (ix2 0 q)) 0)

/-! ## The array after the run -/

/-- The one write-back, at the last point, writes the pooled sums: the window's one block is the whole array. -/
theorem flushed_eq (c : Dev nD) (t : Fin cfg4.N) (hf : (cfg4.win 3).flush t = true) :
    (dat4 (F := Ideal) V c).flushed 3 t
      = ((cfg4.win 3).blk t).view.read (Elt Ideal) (poolF 100000 64 128 (V c main_v61) (V c main_v62) (V c main_v63)) := by
  have hN : cfg4.N = 50 := N_4
  have h49 : t.val = 49 := by have := (flush4_3 t).mp hf; have := t.isLt; omega
  obtain rfl : t = ⟨49, lt49⟩ := Fin.ext h49
  show (cfg4.win 3).cut (grid4.coords ⟨49, lt49⟩) ((dat4 (F := Ideal) V c).after 3 ⟨49, lt49⟩) = _
  rw [after4_3]
  show (cfg4.win 3).cut (grid4.coords ⟨49, lt49⟩) (outsAt4 V c 49 lt49) = _
  rw [last_eq V c]
  have hz' : (fun a => win4_3.index ⟨49, lt49⟩ a * main_v64.ty.shape.size a) = fun _ => 0 :=
    funext fun a => by fin_cases a <;> decide +kernel
  exact (Memref.read_access_unit_zero (Elt Ideal) main_v64 hz' (fun a => by rw [congrFun hz' a]; simp)
    (poolF 100000 64 128 (V c main_v61) (V c main_v62) (V c main_v63))).symm

/-- Region 4 leaves, per graph and feature, the sum over all nodes of that graph of the clipped biased features:
    the first grid point resets the accumulator, each of the fifty points adds its 2000 nodes' part. -/
theorem final4 (c : Dev nD) :
    (dat4 (F := Ideal) V c).arrAt 3 cfg4.N = poolF 100000 64 128 (V c main_v61) (V c main_v62) (V c main_v63) :=
  (dat4 (F := Ideal) V c).arrAt_eq_of_cover 3 (poolF 100000 64 128 (V c main_v61) (V c main_v62) (V c main_v63)) (flushed_eq V c) fun i =>
    ⟨⟨49, lt49⟩, (flush4_3 ⟨49, lt49⟩).mpr rfl, by
      show i ∈ ((View.whole main_v64).slice (win4_3.rect ⟨49, lt49⟩)).set
      rw [View.set_slice_whole, Rect.mem_set_unit]
      intro a
      have h0 : (i 0 : Nat) < 64 := (i 0).isLt
      have h1 : (i 1 : Nat) < 128 := (i 1).isLt
      match a with
      | ⟨0, _⟩ =>
        show win4_3.index ⟨49, lt49⟩ 0 * win4_3.size 0 ≤ (i 0 : Nat)
          ∧ (i 0 : Nat) < win4_3.index ⟨49, lt49⟩ 0 * win4_3.size 0 + win4_3.xsize (grid4.coords ⟨49, lt49⟩) 0
        rw [show win4_3.index ⟨49, lt49⟩ 0 * win4_3.size 0 = 0 from by decide +kernel,
          show win4_3.xsize (grid4.coords ⟨49, lt49⟩) 0 = 64 from by decide +kernel]
        omega
      | ⟨1, _⟩ =>
        show win4_3.index ⟨49, lt49⟩ 1 * win4_3.size 1 ≤ (i 1 : Nat)
          ∧ (i 1 : Nat) < win4_3.index ⟨49, lt49⟩ 1 * win4_3.size 1 + win4_3.xsize (grid4.coords ⟨49, lt49⟩) 1
        rw [show win4_3.index ⟨49, lt49⟩ 1 * win4_3.size 1 = 0 from by decide +kernel,
          show win4_3.xsize (grid4.coords ⟨49, lt49⟩) 1 = 128 from by decide +kernel]
        omega⟩

end Cert.KernelIdeal.RegPool

end
-- ==== Proof.KChain.lean ====
import proofs.«400860_j54193897341258_1_alg».proof.Proof.Gen.KernelIdeal.Frame
import proofs.«400860_j54193897341258_1_alg».proof.Proof.Spec
import proofs.«400860_j54193897341258_1_alg».proof.Proof.RegLin
import proofs.«400860_j54193897341258_1_alg».proof.Proof.RegMul
import proofs.«400860_j54193897341258_1_alg».proof.Proof.RegPool
import Idealize.ShloMosaic.Lib.StableHlo.Run

set_option maxRecDepth 16384

noncomputable section

open scoped BigOperators

/-! The kernel program's result buffer, followed back through the host stretches and the five regions' write-backs to
    the argument arrays. -/
namespace Cert.KernelIdeal.KChain

open Cert.KernelIdeal Cert.KernelIdeal.Gen Cert.GCN Idealize.ShloMosaic Idealize.ShloMosaic.TcCoe Idealize.ShloMosaic.StableHlo

/-! ## What each host stretch leaves in the buffers that are read later, from any contents `W` of the buffers at its
    start: a buffer the stretch writes holds its operations' composed value of the operands' contents, a buffer it does
    not write keeps its contents. -/

section Stretch
variable (W : Valuation τ sig (Elt Ideal))

/-! ### The first stretch: the edge lists with the self loops appended, the degree's comparison with zero and its
    inverse square root, the zero that fills the nodes of degree zero; the argument arrays stay as they are -/

theorem h0_v5 :
    StableHlo.after (hostOps0 (F := Ideal)) W (Proc.devRef .tc main_v5)
      = Cert.KernelIdeal.Spec.srcAll (W (Proc.devRef .tc main_arg1)) := by
  after_results
  rfl

theorem h0_v6 :
    StableHlo.after (hostOps0 (F := Ideal)) W (Proc.devRef .tc main_v6)
      = Cert.KernelIdeal.Spec.dstAll (W (Proc.devRef .tc main_arg1)) := by
  after_results
  rfl

theorem h0_v12 :
    StableHlo.after (hostOps0 (F := Ideal)) W (Proc.devRef .tc main_v12)
      = cmpf (F := Ideal) .ogt (Cert.KernelIdeal.Spec.deg (F := Ideal) (W (Proc.devRef .tc main_arg1))) (broadcastInDim S100000 ![] bcast_S_S100000 (constant S_ .f32 0x00000000#32)) := by
  after_results
  rfl

theorem h0_v13 :
    StableHlo.after (hostOps0 (F := Ideal)) W (Proc.devRef .tc main_v13)
      = Host.rsqrt (F := Ideal) (Cert.KernelIdeal.Spec.deg (F := Ideal) (W (Proc.devRef .tc main_arg1))) := by
  after_results
  rfl

theorem h0_cst2 :
    StableHlo.after (hostOps0 (F := Ideal)) W (Proc.devRef .tc main_cst_2)
      = (constant S_ .f32 0x00000000#32 : FVec Ideal S_ .f32) := by
  after_results

theorem k0_arg0 :
    StableHlo.after (hostOps0 (F := Ideal)) W (Proc.devRef .tc main_arg0) = (W (Proc.devRef .tc main_arg0)) := by
  after_results

theorem k0_arg2 :
    StableHlo.after (hostOps0 (F := Ideal)) W (Proc.devRef .tc main_arg2) = (W (Proc.devRef .tc main_arg2)) := by
  after_results

theorem k0_arg3 :
    StableHlo.after (hostOps0 (F := Ideal)) W (Proc.devRef .tc main_arg3) = (W (Proc.devRef .tc main_arg3)) := by
  after_results

theorem k0_arg4 :
    StableHlo.after (hostOps0 (F := Ideal)) W (Proc.devRef .tc main_arg4) = (W (Proc.devRef .tc main_arg4)) := by
  after_results

theorem k0_arg5 :
    StableHlo.after (hostOps0 (F := Ideal)) W (Proc.devRef .tc main_arg5) = (W (Proc.devRef .tc main_arg5)) := by
  after_results

theorem k0_arg6 :
    StableHlo.after (hostOps0 (F := Ideal)) W (Proc.devRef .tc main_arg6) = (W (Proc.devRef .tc main_arg6)) := by
  after_results

/-! ### The outlined choice: the inverse square root where the degree is positive, zero elsewhere -/

theorem h01_v14 :
    StableHlo.after (hostOps0_1 (F := Ideal)) W (Proc.devRef .tc main_v14)
      = select (W (Proc.devRef .tc main_v12)) (W (Proc.devRef .tc main_v13)) (broadcastInDim S100000 ![] bcast_S_S100000 (id (W (Proc.devRef .tc main_cst_2)))) := by
  after_results
  simp only [TRef.ofBuf, TRef.toBuf, cast_eq]

theorem k01_v5 :
    StableHlo.after (hostOps0_1 (F := Ideal)) W (Proc.devRef .tc main_v5) = (W (Proc.devRef .tc main_v5)) := by
  after_results

theorem k01_v6 :
    StableHlo.after (hostOps0_1 (F := Ideal)) W (Proc.devRef .tc main_v6) = (W (Proc.devRef .tc main_v6)) := by
  after_results

theorem k01_arg0 :
    StableHlo.after (hostOps0_1 (F := Ideal)) W (Proc.devRef .tc main_arg0) = (W (Proc.devRef .tc main_arg0)) := by
  after_results

theorem k01_arg2 :
    StableHlo.after (hostOps0_1 (F := Ideal)) W (Proc.devRef .tc main_arg2) = (W (Proc.devRef .tc main_arg2)) := by
  after_results

theorem k01_arg3 :
    StableHlo.after (hostOps0_1 (F := Ideal)) W (Proc.devRef .tc main_arg3) = (W (Proc.devRef .tc main_arg3)) := by
  after_results

theorem k01_arg4 :
    StableHlo.after (hostOps0_1 (F := Ideal)) W (Proc.devRef .tc main_arg4) = (W (Proc.devRef .tc main_arg4)) := by
  after_results

theorem k01_arg5 :
    StableHlo.after (hostOps0_1 (F := Ideal)) W (Proc.devRef .tc main_arg5) = (W (Proc.devRef .tc main_arg5)) := by
  after_results

theorem k01_arg6 :
    StableHlo.after (hostOps0_1 (F := Ideal)) W (Proc.devRef .tc main_arg6) = (W (Proc.devRef .tc main_arg6)) := by
  after_results

/-! ### The third stretch: sources and targets padded with node 0, and the normalisation (the product of the two
    gathered inverse square roots) padded with zeros, as a column -/

theorem h02_v31 :
    StableHlo.after (hostOps0_2 (F := Ideal)) W (Proc.devRef .tc main_v31)
      = concatenate S1703936 0 [⟨S1700000, (W (Proc.devRef .tc main_v5))⟩, ⟨S3936, broadcastInDim S3936 ![] bcast_S_S3936 (constantI S_ 32 0#32)⟩] concatenates_S1700000_S3936_S1703936_d0 := by
  after_results

theorem h02_v33 :
    StableHlo.after (hostOps0_2 (F := Ideal)) W (Proc.devRef .tc main_v33)
      = concatenate S1703936 0 [⟨S1700000, (W (Proc.devRef .tc main_v6))⟩, ⟨S3936, broadcastInDim S3936 ![] bcast_S_S3936 (constantI S_ 32 0#32)⟩] concatenates_S1700000_S3936_S1703936_d0 := by
  after_results

theorem h02_v36 :
    StableHlo.after (hostOps0_2 (F := Ideal)) W (Proc.devRef .tc main_v36)
      = broadcastInDim S1703936x1 ![0] bcast_S1703936_S1703936x1_0 (concatenate S1703936 0 [⟨S1700000, mulf (F := Ideal) (Host.gather gather_S100000_S1700000x1_S1700000_n_0_n_n_0_1_1 (W (Proc.devRef .tc main_v14)) (Cert.KernelIdeal.Spec.gidx (W (Proc.devRef .tc main_v5)))) (Host.gather gather_S100000_S1700000x1_S1700000_n_0_n_n_0_1_1 (W (Proc.devRef .tc main_v14)) (Cert.KernelIdeal.Spec.gidx (W (Proc.devRef .tc main_v6))))⟩, ⟨S3936, broadcastInDim S3936 ![] bcast_S_S3936 (constant S_ .f32 0x00000000#32)⟩] concatenates_S1700000_S3936_S1703936_d0) := by
  after_results_simp
  rfl

theorem k02_arg0 :
    StableHlo.after (hostOps0_2 (F := Ideal)) W (Proc.devRef .tc main_arg0) = (W (Proc.devRef .tc main_arg0)) := by
  after_results

theorem k02_arg2 :
    StableHlo.after (hostOps0_2 (F := Ideal)) W (Proc.devRef .tc main_arg2) = (W (Proc.devRef .tc main_arg2)) := by
  after_results

theorem k02_arg3 :
    StableHlo.after (hostOps0_2 (F := Ideal)) W (Proc.devRef .tc main_arg3) = (W (Proc.devRef .tc main_arg3)) := by
  after_results

theorem k02_arg4 :
    StableHlo.after (hostOps0_2 (F := Ideal)) W (Proc.devRef .tc main_arg4) = (W (Proc.devRef .tc main_arg4)) := by
  after_results

theorem k02_arg5 :
    StableHlo.after (hostOps0_2 (F := Ideal)) W (Proc.devRef .tc main_arg5) = (W (Proc.devRef .tc main_arg5)) := by
  after_results

theorem k02_arg6 :
    StableHlo.after (hostOps0_2 (F := Ideal)) W (Proc.devRef .tc main_arg6) = (W (Proc.devRef .tc main_arg6)) := by
  after_results

/-! ### Before region 1: the rows of the first dense product gathered at the padded sources -/

theorem h1_v44 :
    StableHlo.after (hostOps1 (F := Ideal)) W (Proc.devRef .tc main_v44)
      = Host.gather gather_S100000x128_S1703936x1_S1703936x128_1_0_n_n_0_1_1128 (W (Proc.devRef .tc main_v37)) (Cert.KernelIdeal.Spec.gidxP (W (Proc.devRef .tc main_v31))) := by
  after_results
  rfl

theorem k1_v31 :
    StableHlo.after (hostOps1 (F := Ideal)) W (Proc.devRef .tc main_v31) = (W (Proc.devRef .tc main_v31)) := by
  after_results

theorem k1_v33 :
    StableHlo.after (hostOps1 (F := Ideal)) W (Proc.devRef .tc main_v33) = (W (Proc.devRef .tc main_v33)) := by
  after_results

theorem k1_v36 :
    StableHlo.after (hostOps1 (F := Ideal)) W (Proc.devRef .tc main_v36) = (W (Proc.devRef .tc main_v36)) := by
  after_results

theorem k1_arg2 :
    StableHlo.after (hostOps1 (F := Ideal)) W (Proc.devRef .tc main_arg2) = (W (Proc.devRef .tc main_arg2)) := by
  after_results

theorem k1_arg4 :
    StableHlo.after (hostOps1 (F := Ideal)) W (Proc.devRef .tc main_arg4) = (W (Proc.devRef .tc main_arg4)) := by
  after_results

theorem k1_arg5 :
    StableHlo.after (hostOps1 (F := Ideal)) W (Proc.devRef .tc main_arg5) = (W (Proc.devRef .tc main_arg5)) := by
  after_results

theorem k1_arg6 :
    StableHlo.after (hostOps1 (F := Ideal)) W (Proc.devRef .tc main_arg6) = (W (Proc.devRef .tc main_arg6)) := by
  after_results

/-! ### Before region 2: the scaled rows summed at the padded targets, and the first bias as a row -/

theorem h2_v48 :
    StableHlo.after (hostOps2 (F := Ideal)) W (Proc.devRef .tc main_v48)
      = Host.scatterAdd (F := Ideal) scatter_S100000x128_S1703936x1_S1703936x128_1_0_0_1 (broadcastInDim S100000x128 ![] bcast_S_S100000x128 (constant S_ .f32 0x00000000#32)) (broadcastInDim S1703936x1 ![0] bcast_S1703936_S1703936x1_0 (W (Proc.devRef .tc main_v33))) (W (Proc.devRef .tc main_v45)) := by
  after_results

theorem h2_v49 :
    StableHlo.after (hostOps2 (F := Ideal)) W (Proc.devRef .tc main_v49)
      = Cert.KernelIdeal.Spec.row (F := Ideal) (W (Proc.devRef .tc main_arg4)) := by
  after_results
  rfl

theorem k2_v31 :
    StableHlo.after (hostOps2 (F := Ideal)) W (Proc.devRef .tc main_v31) = (W (Proc.devRef .tc main_v31)) := by
  after_results

theorem k2_v33 :
    StableHlo.after (hostOps2 (F := Ideal)) W (Proc.devRef .tc main_v33) = (W (Proc.devRef .tc main_v33)) := by
  after_results

theorem k2_v36 :
    StableHlo.after (hostOps2 (F := Ideal)) W (Proc.devRef .tc main_v36) = (W (Proc.devRef .tc main_v36)) := by
  after_results

theorem k2_arg2 :
    StableHlo.after (hostOps2 (F := Ideal)) W (Proc.devRef .tc main_arg2) = (W (Proc.devRef .tc main_arg2)) := by
  after_results

theorem k2_arg5 :
    StableHlo.after (hostOps2 (F := Ideal)) W (Proc.devRef .tc main_arg5) = (W (Proc.devRef .tc main_arg5)) := by
  after_results

theorem k2_arg6 :
    StableHlo.after (hostOps2 (F := Ideal)) W (Proc.devRef .tc main_arg6) = (W (Proc.devRef .tc main_arg6)) := by
  after_results

/-! ### Before region 3: the rows of the second dense product gathered at the padded sources -/

theorem h3_v57 :
    StableHlo.after (hostOps3 (F := Ideal)) W (Proc.devRef .tc main_v57)
      = Host.gather gather_S100000x128_S1703936x1_S1703936x128_1_0_n_n_0_1_1128 (W (Proc.devRef .tc main_v50)) (Cert.KernelIdeal.Spec.gidxP (W (Proc.devRef .tc main_v31))) := by
  after_results
  rfl

theorem k3_v33 :
    StableHlo.after (hostOps3 (F := Ideal)) W (Proc.devRef .tc main_v33) = (W (Proc.devRef .tc main_v33)) := by
  after_results

theorem k3_v36 :
    StableHlo.after (hostOps3 (F := Ideal)) W (Proc.devRef .tc main_v36) = (W (Proc.devRef .tc main_v36)) := by
  after_results

theorem k3_arg2 :
    StableHlo.after (hostOps3 (F := Ideal)) W (Proc.devRef .tc main_arg2) = (W (Proc.devRef .tc main_arg2)) := by
  after_results

theorem k3_arg6 :
    StableHlo.after (hostOps3 (F := Ideal)) W (Proc.devRef .tc main_arg6) = (W (Proc.devRef .tc main_arg6)) := by
  after_results

/-! ### Before region 4: the scaled rows summed at the padded targets, the second bias as a row, the graph ids as a column -/

theorem h4_v61 :
    StableHlo.after (hostOps4 (F := Ideal)) W (Proc.devRef .tc main_v61)
      = Host.scatterAdd (F := Ideal) scatter_S100000x128_S1703936x1_S1703936x128_1_0_0_1 (broadcastInDim S100000x128 ![] bcast_S_S100000x128 (constant S_ .f32 0x00000000#32)) (broadcastInDim S1703936x1 ![0] bcast_S1703936_S1703936x1_0 (W (Proc.devRef .tc main_v33))) (W (Proc.devRef .tc main_v58)) := by
  after_results

theorem h4_v62 :
    StableHlo.after (hostOps4 (F := Ideal)) W (Proc.devRef .tc main_v62)
      = Cert.KernelIdeal.Spec.row (F := Ideal) (W (Proc.devRef .tc main_arg6)) := by
  after_results
  rfl

theorem h4_v63 :
    StableHlo.after (hostOps4 (F := Ideal)) W (Proc.devRef .tc main_v63)
      = Cert.KernelIdeal.Spec.col (W (Proc.devRef .tc main_arg2)) := by
  after_results
  rfl

theorem k4_arg2 :
    StableHlo.after (hostOps4 (F := Ideal)) W (Proc.devRef .tc main_arg2) = (W (Proc.devRef .tc main_arg2)) := by
  after_results

/-! ### After region 4: the pooled sums divided by the node counts (at least one) -/

theorem h5_v73 :
    StableHlo.after (hostOps5 (F := Ideal)) W (Proc.devRef .tc main_v73)
      = Host.divf (F := Ideal) (W (Proc.devRef .tc main_v64)) (Cert.KernelIdeal.Spec.cntMax (F := Ideal) (W (Proc.devRef .tc main_arg2))) := by
  after_results
  rfl

end Stretch

/-! ## The three stretches before region 0 composed, from any contents `W` at the launch -/

section Composite
variable (W : Valuation τ sig (Elt Ideal))

/-- Over the three host stretches before region 0: the padded sources. -/
theorem c3_v31 :
    StableHlo.after (hostOps0_2 (F := Ideal)) (StableHlo.after (hostOps0_1 (F := Ideal)) (StableHlo.after (hostOps0 (F := Ideal)) W)) (Proc.devRef .tc main_v31) = Cert.KernelIdeal.Spec.sPad (W (Proc.devRef .tc main_arg1)) := by
  rw [h02_v31, k01_v5, h0_v5]; rfl
/-- The padded targets. -/
theorem c3_v33 :
    StableHlo.after (hostOps0_2 (F := Ideal)) (StableHlo.after (hostOps0_1 (F := Ideal)) (StableHlo.after (hostOps0 (F := Ideal)) W)) (Proc.devRef .tc main_v33) = Cert.KernelIdeal.Spec.dPad (W (Proc.devRef .tc main_arg1)) := by
  rw [h02_v33, k01_v6, h0_v6]; rfl
/-- The padded normalisation column. -/
theorem c3_v36 :
    StableHlo.after (hostOps0_2 (F := Ideal)) (StableHlo.after (hostOps0_1 (F := Ideal)) (StableHlo.after (hostOps0 (F := Ideal)) W)) (Proc.devRef .tc main_v36) = Cert.KernelIdeal.Spec.normCol (F := Ideal) (W (Proc.devRef .tc main_arg1)) := by
  rw [h02_v36, h01_v14, k01_v5, k01_v6, h0_v12, h0_v13, h0_cst2, h0_v5, h0_v6]; rfl

theorem c3_arg0 :
    StableHlo.after (hostOps0_2 (F := Ideal)) (StableHlo.after (hostOps0_1 (F := Ideal)) (StableHlo.after (hostOps0 (F := Ideal)) W)) (Proc.devRef .tc main_arg0) = (W (Proc.devRef .tc main_arg0)) := by
  rw [k02_arg0, k01_arg0, k0_arg0]

theorem c3_arg2 :
    StableHlo.after (hostOps0_2 (F := Ideal)) (StableHlo.after (hostOps0_1 (F := Ideal)) (StableHlo.after (hostOps0 (F := Ideal)) W)) (Proc.devRef .tc main_arg2) = (W (Proc.devRef .tc main_arg2)) := by
  rw [k02_arg2, k01_arg2, k0_arg2]

theorem c3_arg3 :
    StableHlo.after (hostOps0_2 (F := Ideal)) (StableHlo.after (hostOps0_1 (F := Ideal)) (StableHlo.after (hostOps0 (F := Ideal)) W)) (Proc.devRef .tc main_arg3) = (W (Proc.devRef .tc main_arg3)) := by
  rw [k02_arg3, k01_arg3, k0_arg3]

theorem c3_arg4 :
    StableHlo.after (hostOps0_2 (F := Ideal)) (StableHlo.after (hostOps0_1 (F := Ideal)) (StableHlo.after (hostOps0 (F := Ideal)) W)) (Proc.devRef .tc main_arg4) = (W (Proc.devRef .tc main_arg4)) := by
  rw [k02_arg4, k01_arg4, k0_arg4]

theorem c3_arg5 :
    StableHlo.after (hostOps0_2 (F := Ideal)) (StableHlo.after (hostOps0_1 (F := Ideal)) (StableHlo.after (hostOps0 (F := Ideal)) W)) (Proc.devRef .tc main_arg5) = (W (Proc.devRef .tc main_arg5)) := by
  rw [k02_arg5, k01_arg5, k0_arg5]

theorem c3_arg6 :
    StableHlo.after (hostOps0_2 (F := Ideal)) (StableHlo.after (hostOps0_1 (F := Ideal)) (StableHlo.after (hostOps0 (F := Ideal)) W)) (Proc.devRef .tc main_arg6) = (W (Proc.devRef .tc main_arg6)) := by
  rw [k02_arg6, k01_arg6, k0_arg6]

end Composite

/-! ## The chain: at every boundary, each buffer that is still read later as a function of the argument arrays.
    A host stretch is read by its lemma above at the contents of the boundary before it; across a region the output array
    is the region's whole-array function of its input arrays, an input array holds what it held at entry, and every
    other buffer is as at entry. -/

section Chain
variable (m : (ℓ : Loc nD τ sig) → Buf (Elt Ideal) ℓ) (ρ : Dev nD → PrngReg)

/-! ### Region 0's entry -/

theorem W3_v31 (c : Dev nD) :
    W3 (F := Ideal) m ρ c (Proc.devRef .tc main_v31) = (Cert.KernelIdeal.Spec.sPad (m ((c.tc : Thread nD τ).loc main_arg1))) :=
  c3_v31 (W0 m ρ c)

theorem W3_v33 (c : Dev nD) :
    W3 (F := Ideal) m ρ c (Proc.devRef .tc main_v33) = (Cert.KernelIdeal.Spec.dPad (m ((c.tc : Thread nD τ).loc main_arg1))) :=
  c3_v33 (W0 m ρ c)

theorem W3_v36 (c : Dev nD) :
    W3 (F := Ideal) m ρ c (Proc.devRef .tc main_v36) = (Cert.KernelIdeal.Spec.normCol (F := Ideal) (m ((c.tc : Thread nD τ).loc main_arg1))) :=
  c3_v36 (W0 m ρ c)

theorem W3_arg0 (c : Dev nD) :
    W3 (F := Ideal) m ρ c (Proc.devRef .tc main_arg0) = (m ((c.tc : Thread nD τ).loc main_arg0)) :=
  c3_arg0 (W0 m ρ c)

theorem W3_arg2 (c : Dev nD) :
    W3 (F := Ideal) m ρ c (Proc.devRef .tc main_arg2) = (m ((c.tc : Thread nD τ).loc main_arg2)) :=
  c3_arg2 (W0 m ρ c)

theorem W3_arg3 (c : Dev nD) :
    W3 (F := Ideal) m ρ c (Proc.devRef .tc main_arg3) = (m ((c.tc : Thread nD τ).loc main_arg3)) :=
  c3_arg3 (W0 m ρ c)

theorem W3_arg4 (c : Dev nD) :
    W3 (F := Ideal) m ρ c (Proc.devRef .tc main_arg4) = (m ((c.tc : Thread nD τ).loc main_arg4)) :=
  c3_arg4 (W0 m ρ c)

theorem W3_arg5 (c : Dev nD) :
    W3 (F := Ideal) m ρ c (Proc.devRef .tc main_arg5) = (m ((c.tc : Thread nD τ).loc main_arg5)) :=
  c3_arg5 (W0 m ρ c)

theorem W3_arg6 (c : Dev nD) :
    W3 (F := Ideal) m ρ c (Proc.devRef .tc main_arg6) = (m ((c.tc : Thread nD τ).loc main_arg6)) :=
  c3_arg6 (W0 m ρ c)

/-! ### Region 0's exit: the first dense product -/

/-- Region 0's output array, over the argument arrays. -/
theorem W4_v37 (c : Dev nD) :
    W4 (F := Ideal) m ρ c (Proc.devRef .tc main_v37) = (linF 100000 4 128 (m ((c.tc : Thread nD τ).loc main_arg0)) (m ((c.tc : Thread nD τ).loc main_arg3))) := by
  refine (W4_arr m ρ c 2).trans ((RegLin.final0 (V3 m ρ) c).trans ?_)
  show linF 100000 4 128 (W3 (F := Ideal) m ρ c (Proc.devRef .tc main_arg0)) (W3 (F := Ideal) m ρ c (Proc.devRef .tc main_arg3)) = _
  rw [W3_arg0 m ρ c, W3_arg3 m ρ c]

theorem W4_v31 (c : Dev nD) :
    W4 (F := Ideal) m ρ c (Proc.devRef .tc main_v31) = (Cert.KernelIdeal.Spec.sPad (m ((c.tc : Thread nD τ).loc main_arg1))) :=
  (W4_of_ne m ρ c main_v31 (by decide)).trans (W3_v31 m ρ c)

theorem W4_v33 (c : Dev nD) :
    W4 (F := Ideal) m ρ c (Proc.devRef .tc main_v33) = (Cert.KernelIdeal.Spec.dPad (m ((c.tc : Thread nD τ).loc main_arg1))) :=
  (W4_of_ne m ρ c main_v33 (by decide)).trans (W3_v33 m ρ c)

theorem W4_v36 (c : Dev nD) :
    W4 (F := Ideal) m ρ c (Proc.devRef .tc main_v36) = (Cert.KernelIdeal.Spec.normCol (F := Ideal) (m ((c.tc : Thread nD τ).loc main_arg1))) :=
  (W4_of_ne m ρ c main_v36 (by decide)).trans (W3_v36 m ρ c)

theorem W4_arg2 (c : Dev nD) :
    W4 (F := Ideal) m ρ c (Proc.devRef .tc main_arg2) = (m ((c.tc : Thread nD τ).loc main_arg2)) :=
  (W4_of_ne m ρ c main_arg2 (by decide)).trans (W3_arg2 m ρ c)

theorem W4_arg4 (c : Dev nD) :
    W4 (F := Ideal) m ρ c (Proc.devRef .tc main_arg4) = (m ((c.tc : Thread nD τ).loc main_arg4)) :=
  (W4_of_ne m ρ c main_arg4 (by decide)).trans (W3_arg4 m ρ c)

theorem W4_arg5 (c : Dev nD) :
    W4 (F := Ideal) m ρ c (Proc.devRef .tc main_arg5) = (m ((c.tc : Thread nD τ).loc main_arg5)) :=
  (W4_of_ne m ρ c main_arg5 (by decide)).trans (W3_arg5 m ρ c)

theorem W4_arg6 (c : Dev nD) :
    W4 (F := Ideal) m ρ c (Proc.devRef .tc main_arg6) = (m ((c.tc : Thread nD τ).loc main_arg6)) :=
  (W4_of_ne m ρ c main_arg6 (by decide)).trans (W3_arg6 m ρ c)

/-! ### Region 1's entry -/

theorem W5_v44 (c : Dev nD) :
    W5 (F := Ideal) m ρ c (Proc.devRef .tc main_v44) = (Cert.KernelIdeal.Spec.gath (F := Ideal) (linF 100000 4 128 (m ((c.tc : Thread nD τ).loc main_arg0)) (m ((c.tc : Thread nD τ).loc main_arg3))) (m ((c.tc : Thread nD τ).loc main_arg1))) := by
  refine (h1_v44 (W4 (F := Ideal) m ρ c)).trans ?_
  rw [W4_v37 m ρ c, W4_v31 m ρ c]; rfl

theorem W5_v31 (c : Dev nD) :
    W5 (F := Ideal) m ρ c (Proc.devRef .tc main_v31) = (Cert.KernelIdeal.Spec.sPad (m ((c.tc : Thread nD τ).loc main_arg1))) :=
  (k1_v31 (W4 (F := Ideal) m ρ c)).trans (W4_v31 m ρ c)

theorem W5_v33 (c : Dev nD) :
    W5 (F := Ideal) m ρ c (Proc.devRef .tc main_v33) = (Cert.KernelIdeal.Spec.dPad (m ((c.tc : Thread nD τ).loc main_arg1))) :=
  (k1_v33 (W4 (F := Ideal) m ρ c)).trans (W4_v33 m ρ c)

theorem W5_v36 (c : Dev nD) :
    W5 (F := Ideal) m ρ c (Proc.devRef .tc main_v36) = (Cert.KernelIdeal.Spec.normCol (F := Ideal) (m ((c.tc : Thread nD τ).loc main_arg1))) :=
  (k1_v36 (W4 (F := Ideal) m ρ c)).trans (W4_v36 m ρ c)

theorem W5_arg2 (c : Dev nD) :
    W5 (F := Ideal) m ρ c (Proc.devRef .tc main_arg2) = (m ((c.tc : Thread nD τ).loc main_arg2)) :=
  (k1_arg2 (W4 (F := Ideal) m ρ c)).trans (W4_arg2 m ρ c)

theorem W5_arg4 (c : Dev nD) :
    W5 (F := Ideal) m ρ c (Proc.devRef .tc main_arg4) = (m ((c.tc : Thread nD τ).loc main_arg4)) :=
  (k1_arg4 (W4 (F := Ideal) m ρ c)).trans (W4_arg4 m ρ c)

theorem W5_arg5 (c : Dev nD) :
    W5 (F := Ideal) m ρ c (Proc.devRef .tc main_arg5) = (m ((c.tc : Thread nD τ).loc main_arg5)) :=
  (k1_arg5 (W4 (F := Ideal) m ρ c)).trans (W4_arg5 m ρ c)

theorem W5_arg6 (c : Dev nD) :
    W5 (F := Ideal) m ρ c (Proc.devRef .tc main_arg6) = (m ((c.tc : Thread nD τ).loc main_arg6)) :=
  (k1_arg6 (W4 (F := Ideal) m ρ c)).trans (W4_arg6 m ρ c)

/-! ### Region 1's exit: the gathered rows scaled by the normalisation -/

/-- Region 1's output array, over the argument arrays. -/
theorem W6_v45 (c : Dev nD) :
    W6 (F := Ideal) m ρ c (Proc.devRef .tc main_v45) = (mulColF 1703936 128 (Cert.KernelIdeal.Spec.gath (F := Ideal) (linF 100000 4 128 (m ((c.tc : Thread nD τ).loc main_arg0)) (m ((c.tc : Thread nD τ).loc main_arg3))) (m ((c.tc : Thread nD τ).loc main_arg1))) (Cert.KernelIdeal.Spec.normCol (F := Ideal) (m ((c.tc : Thread nD τ).loc main_arg1)))) := by
  refine (W6_arr m ρ c 2).trans ((RegMul.final1 (V5 m ρ) c).trans ?_)
  show mulColF 1703936 128 (W5 (F := Ideal) m ρ c (Proc.devRef .tc main_v44)) (W5 (F := Ideal) m ρ c (Proc.devRef .tc main_v36)) = _
  rw [W5_v44 m ρ c, W5_v36 m ρ c]

theorem W6_v31 (c : Dev nD) :
    W6 (F := Ideal) m ρ c (Proc.devRef .tc main_v31) = (Cert.KernelIdeal.Spec.sPad (m ((c.tc : Thread nD τ).loc main_arg1))) :=
  (W6_of_ne m ρ c main_v31 (by decide)).trans (W5_v31 m ρ c)

theorem W6_v33 (c : Dev nD) :
    W6 (F := Ideal) m ρ c (Proc.devRef .tc main_v33) = (Cert.KernelIdeal.Spec.dPad (m ((c.tc : Thread nD τ).loc main_arg1))) :=
  (W6_of_ne m ρ c main_v33 (by decide)).trans (W5_v33 m ρ c)

theorem W6_arg2 (c : Dev nD) :
    W6 (F := Ideal) m ρ c (Proc.devRef .tc main_arg2) = (m ((c.tc : Thread nD τ).loc main_arg2)) :=
  (W6_of_ne m ρ c main_arg2 (by decide)).trans (W5_arg2 m ρ c)

theorem W6_arg4 (c : Dev nD) :
    W6 (F := Ideal) m ρ c (Proc.devRef .tc main_arg4) = (m ((c.tc : Thread nD τ).loc main_arg4)) :=
  (W6_of_ne m ρ c main_arg4 (by decide)).trans (W5_arg4 m ρ c)

theorem W6_arg5 (c : Dev nD) :
    W6 (F := Ideal) m ρ c (Proc.devRef .tc main_arg5) = (m ((c.tc : Thread nD τ).loc main_arg5)) :=
  (W6_of_ne m ρ c main_arg5 (by decide)).trans (W5_arg5 m ρ c)

theorem W6_arg6 (c : Dev nD) :
    W6 (F := Ideal) m ρ c (Proc.devRef .tc main_arg6) = (m ((c.tc : Thread nD τ).loc main_arg6)) :=
  (W6_of_ne m ρ c main_arg6 (by decide)).trans (W5_arg6 m ρ c)

theorem W6_v36 (c : Dev nD) :
    W6 (F := Ideal) m ρ c (Proc.devRef .tc main_v36) = (Cert.KernelIdeal.Spec.normCol (F := Ideal) (m ((c.tc : Thread nD τ).loc main_arg1))) :=
  (W6_arr m ρ c 1).trans ((((dat1 (V5 m ρ) c).arrAt_in 1 rfl _).trans (A_eq1 (V5 m ρ) c 1)).trans (W5_v36 m ρ c))

/-! ### Region 2's entry -/

theorem W7_v48 (c : Dev nD) :
    W7 (F := Ideal) m ρ c (Proc.devRef .tc main_v48) = (Cert.KernelIdeal.Spec.scat (F := Ideal) (m ((c.tc : Thread nD τ).loc main_arg1)) (mulColF 1703936 128 (Cert.KernelIdeal.Spec.gath (F := Ideal) (linF 100000 4 128 (m ((c.tc : Thread nD τ).loc main_arg0)) (m ((c.tc : Thread nD τ).loc main_arg3))) (m ((c.tc : Thread nD τ).loc main_arg1))) (Cert.KernelIdeal.Spec.normCol (F := Ideal) (m ((c.tc : Thread nD τ).loc main_arg1))))) := by
  refine (h2_v48 (W6 (F := Ideal) m ρ c)).trans ?_
  rw [W6_v33 m ρ c, W6_v45 m ρ c]; rfl

theorem W7_v49 (c : Dev nD) :
    W7 (F := Ideal) m ρ c (Proc.devRef .tc main_v49) = (Cert.KernelIdeal.Spec.row (F := Ideal) (m ((c.tc : Thread nD τ).loc main_arg4))) := by
  refine (h2_v49 (W6 (F := Ideal) m ρ c)).trans ?_
  rw [W6_arg4 m ρ c]

theorem W7_v31 (c : Dev nD) :
    W7 (F := Ideal) m ρ c (Proc.devRef .tc main_v31) = (Cert.KernelIdeal.Spec.sPad (m ((c.tc : Thread nD τ).loc main_arg1))) :=
  (k2_v31 (W6 (F := Ideal) m ρ c)).trans (W6_v31 m ρ c)

theorem W7_v33 (c : Dev nD) :
    W7 (F := Ideal) m ρ c (Proc.devRef .tc main_v33) = (Cert.KernelIdeal.Spec.dPad (m ((c.tc : Thread nD τ).loc main_arg1))) :=
  (k2_v33 (W6 (F := Ideal) m ρ c)).trans (W6_v33 m ρ c)

theorem W7_v36 (c : Dev nD) :
    W7 (F := Ideal) m ρ c (Proc.devRef .tc main_v36) = (Cert.KernelIdeal.Spec.normCol (F := Ideal) (m ((c.tc : Thread nD τ).loc main_arg1))) :=
  (k2_v36 (W6 (F := Ideal) m ρ c)).trans (W6_v36 m ρ c)

theorem W7_arg2 (c : Dev nD) :
    W7 (F := Ideal) m ρ c (Proc.devRef .tc main_arg2) = (m ((c.tc : Thread nD τ).loc main_arg2)) :=
  (k2_arg2 (W6 (F := Ideal) m ρ c)).trans (W6_arg2 m ρ c)

theorem W7_arg5 (c : Dev nD) :
    W7 (F := Ideal) m ρ c (Proc.devRef .tc main_arg5) = (m ((c.tc : Thread nD τ).loc main_arg5)) :=
  (k2_arg5 (W6 (F := Ideal) m ρ c)).trans (W6_arg5 m ρ c)

theorem W7_arg6 (c : Dev nD) :
    W7 (F := Ideal) m ρ c (Proc.devRef .tc main_arg6) = (m ((c.tc : Thread nD τ).loc main_arg6)) :=
  (k2_arg6 (W6 (F := Ideal) m ρ c)).trans (W6_arg6 m ρ c)

/-! ### Region 2's exit: the second dense product of the first layer's clipped biased sums -/

/-- Region 2's output array, over the argument arrays. -/
theorem W8_v50 (c : Dev nD) :
    W8 (F := Ideal) m ρ c (Proc.devRef .tc main_v50) = (linF 100000 128 128 (brF 100000 128 (Cert.KernelIdeal.Spec.scat (F := Ideal) (m ((c.tc : Thread nD τ).loc main_arg1)) (mulColF 1703936 128 (Cert.KernelIdeal.Spec.gath (F := Ideal) (linF 100000 4 128 (m ((c.tc : Thread nD τ).loc main_arg0)) (m ((c.tc : Thread nD τ).loc main_arg3))) (m ((c.tc : Thread nD τ).loc main_arg1))) (Cert.KernelIdeal.Spec.normCol (F := Ideal) (m ((c.tc : Thread nD τ).loc main_arg1))))) (Cert.KernelIdeal.Spec.row (F := Ideal) (m ((c.tc : Thread nD τ).loc main_arg4)))) (m ((c.tc : Thread nD τ).loc main_arg5))) := by
  refine (W8_arr m ρ c 3).trans ((RegLin.final2 (V7 m ρ) c).trans ?_)
  show linF 100000 128 128 (brF 100000 128 (W7 (F := Ideal) m ρ c (Proc.devRef .tc main_v48)) (W7 (F := Ideal) m ρ c (Proc.devRef .tc main_v49))) (W7 (F := Ideal) m ρ c (Proc.devRef .tc main_arg5)) = _
  rw [W7_v48 m ρ c, W7_v49 m ρ c, W7_arg5 m ρ c]

theorem W8_v31 (c : Dev nD) :
    W8 (F := Ideal) m ρ c (Proc.devRef .tc main_v31) = (Cert.KernelIdeal.Spec.sPad (m ((c.tc : Thread nD τ).loc main_arg1))) :=
  (W8_of_ne m ρ c main_v31 (by decide)).trans (W7_v31 m ρ c)

theorem W8_v33 (c : Dev nD) :
    W8 (F := Ideal) m ρ c (Proc.devRef .tc main_v33) = (Cert.KernelIdeal.Spec.dPad (m ((c.tc : Thread nD τ).loc main_arg1))) :=
  (W8_of_ne m ρ c main_v33 (by decide)).trans (W7_v33 m ρ c)

theorem W8_v36 (c : Dev nD) :
    W8 (F := Ideal) m ρ c (Proc.devRef .tc main_v36) = (Cert.KernelIdeal.Spec.normCol (F := Ideal) (m ((c.tc : Thread nD τ).loc main_arg1))) :=
  (W8_of_ne m ρ c main_v36 (by decide)).trans (W7_v36 m ρ c)

theorem W8_arg2 (c : Dev nD) :
    W8 (F := Ideal) m ρ c (Proc.devRef .tc main_arg2) = (m ((c.tc : Thread nD τ).loc main_arg2)) :=
  (W8_of_ne m ρ c main_arg2 (by decide)).trans (W7_arg2 m ρ c)

theorem W8_arg6 (c : Dev nD) :
    W8 (F := Ideal) m ρ c (Proc.devRef .tc main_arg6) = (m ((c.tc : Thread nD τ).loc main_arg6)) :=
  (W8_of_ne m ρ c main_arg6 (by decide)).trans (W7_arg6 m ρ c)

/-! ### Region 3's entry -/

theorem W9_v57 (c : Dev nD) :
    W9 (F := Ideal) m ρ c (Proc.devRef .tc main_v57) = (Cert.KernelIdeal.Spec.gath (F := Ideal) (linF 100000 128 128 (brF 100000 128 (Cert.KernelIdeal.Spec.scat (F := Ideal) (m ((c.tc : Thread nD τ).loc main_arg1)) (mulColF 1703936 128 (Cert.KernelIdeal.Spec.gath (F := Ideal) (linF 100000 4 128 (m ((c.tc : Thread nD τ).loc main_arg0)) (m ((c.tc : Thread nD τ).loc main_arg3))) (m ((c.tc : Thread nD τ).loc main_arg1))) (Cert.KernelIdeal.Spec.normCol (F := Ideal) (m ((c.tc : Thread nD τ).loc main_arg1))))) (Cert.KernelIdeal.Spec.row (F := Ideal) (m ((c.tc : Thread nD τ).loc main_arg4)))) (m ((c.tc : Thread nD τ).loc main_arg5))) (m ((c.tc : Thread nD τ).loc main_arg1))) := by
  refine (h3_v57 (W8 (F := Ideal) m ρ c)).trans ?_
  rw [W8_v50 m ρ c, W8_v31 m ρ c]; rfl

theorem W9_v33 (c : Dev nD) :
    W9 (F := Ideal) m ρ c (Proc.devRef .tc main_v33) = (Cert.KernelIdeal.Spec.dPad (m ((c.tc : Thread nD τ).loc main_arg1))) :=
  (k3_v33 (W8 (F := Ideal) m ρ c)).trans (W8_v33 m ρ c)

theorem W9_v36 (c : Dev nD) :
    W9 (F := Ideal) m ρ c (Proc.devRef .tc main_v36) = (Cert.KernelIdeal.Spec.normCol (F := Ideal) (m ((c.tc : Thread nD τ).loc main_arg1))) :=
  (k3_v36 (W8 (F := Ideal) m ρ c)).trans (W8_v36 m ρ c)

theorem W9_arg2 (c : Dev nD) :
    W9 (F := Ideal) m ρ c (Proc.devRef .tc main_arg2) = (m ((c.tc : Thread nD τ).loc main_arg2)) :=
  (k3_arg2 (W8 (F := Ideal) m ρ c)).trans (W8_arg2 m ρ c)

theorem W9_arg6 (c : Dev nD) :
    W9 (F := Ideal) m ρ c (Proc.devRef .tc main_arg6) = (m ((c.tc : Thread nD τ).loc main_arg6)) :=
  (k3_arg6 (W8 (F := Ideal) m ρ c)).trans (W8_arg6 m ρ c)

/-! ### Region 3's exit -/

/-- Region 3's output array, over the argument arrays. -/
theorem W10_v58 (c : Dev nD) :
    W10 (F := Ideal) m ρ c (Proc.devRef .tc main_v58) = (mulColF 1703936 128 (Cert.KernelIdeal.Spec.gath (F := Ideal) (linF 100000 128 128 (brF 100000 128 (Cert.KernelIdeal.Spec.scat (F := Ideal) (m ((c.tc : Thread nD τ).loc main_arg1)) (mulColF 1703936 128 (Cert.KernelIdeal.Spec.gath (F := Ideal) (linF 100000 4 128 (m ((c.tc : Thread nD τ).loc main_arg0)) (m ((c.tc : Thread nD τ).loc main_arg3))) (m ((c.tc : Thread nD τ).loc main_arg1))) (Cert.KernelIdeal.Spec.normCol (F := Ideal) (m ((c.tc : Thread nD τ).loc main_arg1))))) (Cert.KernelIdeal.Spec.row (F := Ideal) (m ((c.tc : Thread nD τ).loc main_arg4)))) (m ((c.tc : Thread nD τ).loc main_arg5))) (m ((c.tc : Thread nD τ).loc main_arg1))) (Cert.KernelIdeal.Spec.normCol (F := Ideal) (m ((c.tc : Thread nD τ).loc main_arg1)))) := by
  refine (W10_arr m ρ c 2).trans ((RegMul.final3 (V9 m ρ) c).trans ?_)
  show mulColF 1703936 128 (W9 (F := Ideal) m ρ c (Proc.devRef .tc main_v57)) (W9 (F := Ideal) m ρ c (Proc.devRef .tc main_v36)) = _
  rw [W9_v57 m ρ c, W9_v36 m ρ c]

theorem W10_v33 (c : Dev nD) :
    W10 (F := Ideal) m ρ c (Proc.devRef .tc main_v33) = (Cert.KernelIdeal.Spec.dPad (m ((c.tc : Thread nD τ).loc main_arg1))) :=
  (W10_of_ne m ρ c main_v33 (by decide)).trans (W9_v33 m ρ c)

theorem W10_arg2 (c : Dev nD) :
    W10 (F := Ideal) m ρ c (Proc.devRef .tc main_arg2) = (m ((c.tc : Thread nD τ).loc main_arg2)) :=
  (W10_of_ne m ρ c main_arg2 (by decide)).trans (W9_arg2 m ρ c)

theorem W10_arg6 (c : Dev nD) :
    W10 (F := Ideal) m ρ c (Proc.devRef .tc main_arg6) = (m ((c.tc : Thread nD τ).loc main_arg6)) :=
  (W10_of_ne m ρ c main_arg6 (by decide)).trans (W9_arg6 m ρ c)

/-! ### Region 4's entry -/

theorem W11_v61 (c : Dev nD) :
    W11 (F := Ideal) m ρ c (Proc.devRef .tc main_v61) = (Cert.KernelIdeal.Spec.scat (F := Ideal) (m ((c.tc : Thread nD τ).loc main_arg1)) (mulColF 1703936 128 (Cert.KernelIdeal.Spec.gath (F := Ideal) (linF 100000 128 128 (brF 100000 128 (Cert.KernelIdeal.Spec.scat (F := Ideal) (m ((c.tc : Thread nD τ).loc main_arg1)) (mulColF 1703936 128 (Cert.KernelIdeal.Spec.gath (F := Ideal) (linF 100000 4 128 (m ((c.tc : Thread nD τ).loc main_arg0)) (m ((c.tc : Thread nD τ).loc main_arg3))) (m ((c.tc : Thread nD τ).loc main_arg1))) (Cert.KernelIdeal.Spec.normCol (F := Ideal) (m ((c.tc : Thread nD τ).loc main_arg1))))) (Cert.KernelIdeal.Spec.row (F := Ideal) (m ((c.tc : Thread nD τ).loc main_arg4)))) (m ((c.tc : Thread nD τ).loc main_arg5))) (m ((c.tc : Thread nD τ).loc main_arg1))) (Cert.KernelIdeal.Spec.normCol (F := Ideal) (m ((c.tc : Thread nD τ).loc main_arg1))))) := by
  refine (h4_v61 (W10 (F := Ideal) m ρ c)).trans ?_
  rw [W10_v33 m ρ c, W10_v58 m ρ c]; rfl

theorem W11_v62 (c : Dev nD) :
    W11 (F := Ideal) m ρ c (Proc.devRef .tc main_v62) = (Cert.KernelIdeal.Spec.row (F := Ideal) (m ((c.tc : Thread nD τ).loc main_arg6))) := by
  refine (h4_v62 (W10 (F := Ideal) m ρ c)).trans ?_
  rw [W10_arg6 m ρ c]

theorem W11_v63 (c : Dev nD) :
    W11 (F := Ideal) m ρ c (Proc.devRef .tc main_v63) = (Cert.KernelIdeal.Spec.col (m ((c.tc : Thread nD τ).loc main_arg2))) := by
  refine (h4_v63 (W10 (F := Ideal) m ρ c)).trans ?_
  rw [W10_arg2 m ρ c]

theorem W11_arg2 (c : Dev nD) :
    W11 (F := Ideal) m ρ c (Proc.devRef .tc main_arg2) = (m ((c.tc : Thread nD τ).loc main_arg2)) :=
  (k4_arg2 (W10 (F := Ideal) m ρ c)).trans (W10_arg2 m ρ c)

/-! ### Region 4's exit: per graph, the sum of its nodes' clipped biased features -/

/-- Region 4's output array, over the argument arrays. -/
theorem W12_v64 (c : Dev nD) :
    W12 (F := Ideal) m ρ c (Proc.devRef .tc main_v64) = (poolF 100000 64 128 (Cert.KernelIdeal.Spec.scat (F := Ideal) (m ((c.tc : Thread nD τ).loc main_arg1)) (mulColF 1703936 128 (Cert.KernelIdeal.Spec.gath (F := Ideal) (linF 100000 128 128 (brF 100000 128 (Cert.KernelIdeal.Spec.scat (F := Ideal) (m ((c.tc : Thread nD τ).loc main_arg1)) (mulColF 1703936 128 (Cert.KernelIdeal.Spec.gath (F := Ideal) (linF 100000 4 128 (m ((c.tc : Thread nD τ).loc main_arg0)) (m ((c.tc : Thread nD τ).loc main_arg3))) (m ((c.tc : Thread nD τ).loc main_arg1))) (Cert.KernelIdeal.Spec.normCol (F := Ideal) (m ((c.tc : Thread nD τ).loc main_arg1))))) (Cert.KernelIdeal.Spec.row (F := Ideal) (m ((c.tc : Thread nD τ).loc main_arg4)))) (m ((c.tc : Thread nD τ).loc main_arg5))) (m ((c.tc : Thread nD τ).loc main_arg1))) (Cert.KernelIdeal.Spec.normCol (F := Ideal) (m ((c.tc : Thread nD τ).loc main_arg1))))) (Cert.KernelIdeal.Spec.row (F := Ideal) (m ((c.tc : Thread nD τ).loc main_arg6))) (Cert.KernelIdeal.Spec.col (m ((c.tc : Thread nD τ).loc main_arg2)))) := by
  refine (W12_arr m ρ c 3).trans ((RegPool.final4 (V11 m ρ) c).trans ?_)
  show poolF 100000 64 128 (W11 (F := Ideal) m ρ c (Proc.devRef .tc main_v61)) (W11 (F := Ideal) m ρ c (Proc.devRef .tc main_v62)) (W11 (F := Ideal) m ρ c (Proc.devRef .tc main_v63)) = _
  rw [W11_v61 m ρ c, W11_v62 m ρ c, W11_v63 m ρ c]

theorem W12_arg2 (c : Dev nD) :
    W12 (F := Ideal) m ρ c (Proc.devRef .tc main_arg2) = (m ((c.tc : Thread nD τ).loc main_arg2)) :=
  (W12_of_ne m ρ c main_arg2 (by decide)).trans (W11_arg2 m ρ c)

end Chain

variable (m : (ℓ : Loc nD τ sig) → Buf (Elt Ideal) ℓ) (ρ : Dev nD → PrngReg)

/-- The result buffer at the last boundary: the last stretch divides region 4's pooled sums by the node counts, and every
    operand read back along the chain is the corresponding piece of `KOut`. -/
theorem kernel_value (c : Dev nD) :
    W13 (F := Ideal) m ρ c (Proc.devRef .tc main_v73)
      = Cert.KernelIdeal.Spec.KOut (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) := by
  refine (h5_v73 (W12 (F := Ideal) m ρ c)).trans ?_
  rw [W12_v64 m ρ c, W12_arg2 m ρ c]; rfl

end Cert.KernelIdeal.KChain

end
-- ==== Proof.lean ====
/-
  The certificate of the two-layer graph convolution with mean pooling.

  Both programs, read over the extended reals, compute the same function `G` of the seven argument arrays
  (`Cert.ReferenceIdeal.Spec.G`): the reference's run ends with its result at `G` by its own composed term; the
  kernel's run ends with its result at the fold through its host operations and its five regions' write-backs, and
  that fold is `G`: each dense product in blocks is the host's contraction, each padded gather / scale / scatter-add is
  the unpadded one because the padding edges carry weight zero, the pooling by a product with the 0/1 membership
  matrix is the scatter-add of the rows at their graph ids, and the division by the node counts is the same on both
  sides. Sums over the extended reals may be regrouped freely, and `x * 0 = 0` holds for every extended real, so no
  finiteness of the inputs is used.
-/
import proofs.«400860_j54193897341258_1_alg».proof.Defs
import proofs.«400860_j54193897341258_1_alg».proof.Proof.Gen.Kernel
import proofs.«400860_j54193897341258_1_alg».proof.Proof.Gen.Kernel.Frame
import proofs.«400860_j54193897341258_1_alg».proof.Proof.Gen.KernelIdeal
import proofs.«400860_j54193897341258_1_alg».proof.Proof.Gen.KernelIdeal.Frame
import proofs.«400860_j54193897341258_1_alg».proof.Proof.Gen.ReferenceIdeal
import proofs.«400860_j54193897341258_1_alg».proof.Proof.Gen.Pre_finite_inputs
import proofs.«400860_j54193897341258_1_alg».proof.Proof.KernelRun
import proofs.«400860_j54193897341258_1_alg».proof.Proof.RefRun
import proofs.«400860_j54193897341258_1_alg».proof.Proof.RefValue
import proofs.«400860_j54193897341258_1_alg».proof.Proof.Spec
import proofs.«400860_j54193897341258_1_alg».proof.Proof.ConvPad
import proofs.«400860_j54193897341258_1_alg».proof.Proof.Bridge
import proofs.«400860_j54193897341258_1_alg».proof.Proof.KChain
import Idealize.ShloMosaic.Adequacy
import Idealize.ShloMosaic.Init

set_option maxRecDepth 16384

noncomputable section

namespace Cert.Proof

open Idealize.ShloMosaic Idealize.ShloMosaic.TcCoe Idealize.SL.Sem

/-- The kernel's function of the arguments is the reference's: the regions' functions and the padded host operations
    are rewritten, inside out, into the reference's pieces. -/
theorem value_eq (x : FVec Ideal Cert.KernelIdeal.S100000x4 .f32) (ei : IVec Cert.KernelIdeal.S2x1600000 32)
    (bt : IVec Cert.KernelIdeal.S100000 32) (W1 : FVec Ideal Cert.KernelIdeal.S4x128 .f32) (b1 : FVec Ideal Cert.KernelIdeal.S128 .f32)
    (W2 : FVec Ideal Cert.KernelIdeal.S128x128 .f32) (b2 : FVec Ideal Cert.KernelIdeal.S128 .f32) :
    Cert.KernelIdeal.Spec.KOut x ei bt W1 b1 W2 b2 = Cert.ReferenceIdeal.Spec.G (F := Ideal) x ei bt W1 b1 W2 b2 := by
  unfold Cert.KernelIdeal.Spec.KOut Cert.ReferenceIdeal.Spec.G
  rw [Cert.Bridge.lin1_eq, Cert.ConvPad.conv_pad, Cert.Bridge.brF_eq, Cert.Bridge.lin2_eq, Cert.ConvPad.conv_pad,
    Cert.Bridge.pool_eq, Cert.Bridge.cntMax_eq]

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- Both runs end with the result at `G` of arguments that agree. -/
theorem algebraic : Cert.algebraic_KernelIdeal_ReferenceIdeal := by
  intro m ρ m' ρ' _ hagree
  refine ⟨fun c => Cert.ReferenceIdeal.Spec.G (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans ((Cert.KernelIdeal.KChain.kernel_value m ρ c).trans (value_eq _ _ _ _ _ _ _)), (h c).2⟩)
      (Cert.KernelIdeal.GenRun.run_value (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.RefValue.ref_value, (hagree c).1, (hagree c).2.1, (hagree c).2.2.1, (hagree c).2.2.2.1,
      (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
